-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x10000x128 : Shape := ⟨3, ![64, 10000, 128]⟩
abbrev S64x4 : Shape := ⟨2, ![64, 4]⟩
abbrev S640x128 : Shape := ⟨2, ![640, 128]⟩
abbrev S128 : Shape := ⟨1, ![128]⟩
abbrev S_ : Shape := ⟨0, ![]⟩

class Facts : Prop where
  bcast_S_S64x10000x128 : S_.BroadcastsInDim S64x10000x128 (![] : Fin 0 → Fin S64x10000x128.rank)
  reducesTo_S64x10000x128_S_d0_1_2 : S64x10000x128.ReducesTo [0, 1, 2] S_
  h_S_ : 0 < S_.numel
  bcast_S_S640x128 : S_.BroadcastsInDim S640x128 (![] : Fin 0 → Fin S640x128.rank)
  reducesTo_S640x128_S_d0_1 : S640x128.ReducesTo [0, 1] S_
  bcast_S_S128 : S_.BroadcastsInDim S128 (![] : Fin 0 → Fin S128.rank)
  reducesTo_S128_S_d0 : S128.ReducesTo [0] S_
  bcast_S_S64x4 : S_.BroadcastsInDim S64x4 (![] : Fin 0 → Fin S64x4.rank)
  reducesTo_S64x4_S_d0_1 : S64x4.ReducesTo [0, 1] S_

variable [Facts]

def fn_part1 {F : FTy → Type} [FloatOps F] (main_arg1 : IVec S64x4 32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S64x4 32 := broadcastInDim S64x4 ![] bcast_S_S64x4 main_c_8
  let main_v25 : IVec S64x4 1 := cmpi .sge main_arg1 main_v24
  let main_c_9 : IVec S_ 32 := constantI S_ 32 10000#32
  let main_v26 : IVec S64x4 32 := broadcastInDim S64x4 ![] bcast_S_S64x4 main_c_9
  let main_v27 : IVec S64x4 1 := cmpi .slt main_arg1 main_v26
  let main_v28 : IVec S64x4 1 := andi main_v25 main_v27
  let main_c_10 : IVec S_ 1 := constantI S_ 1 1#1
  let main_v29 : IVec S_ 1 := (fun x v => Host.reduce IntOp.andi x v reducesTo_S64x4_S_d0_1 h_S_) main_v28 main_c_10
  let main_v30 : IVec S_ 1 := andi main_v23 main_v29
  main_v30

def fn {F : FTy → Type} [FloatOps F] (main_arg0 : FVec F S64x10000x128 .f32) (main_arg1 : IVec S64x4 32) (main_arg2 : FVec F S640x128 .f32) (main_arg3 : FVec F S128 .f32) (main_arg4 : FVec F S128 .f32) (main_arg5 : FVec F S128 .f32) : IVec S_ 1 :=
  let main_v0 : FVec F S64x10000x128 .f32 := Host.absf main_arg0
  let main_cst : FVec F S_ .f32 := constant S_ .f32 0x7F800000#32
  let main_v1 : FVec F S64x10000x128 .f32 := broadcastInDim S64x10000x128 ![] bcast_S_S64x10000x128 main_cst
  let main_v2 : IVec S64x10000x128 1 := cmpf .olt main_v0 main_v1
  let main_c : IVec S_ 1 := constantI S_ 1 1#1
  let main_v3 : IVec S_ 1 := (fun x v => Host.reduce IntOp.andi x v reducesTo_S64x10000x128_S_d0_1_2 h_S_) main_v2 main_c
  let main_v4 : FVec F S640x128 .f32 := Host.absf main_arg2
  let main_cst_0 : FVec F S_ .f32 := constant S_ .f32 0x7F800000#32
  let main_v5 : FVec F S640x128 .f32 := broadcastInDim S640x128 ![] bcast_S_S640x128 main_cst_0
  let main_v6 : IVec S640x128 1 := cmpf .olt main_v4 main_v5
  let main_c_1 : IVec S_ 1 := constantI S_ 1 1#1
  let main_v7 : IVec S_ 1 := (fun x v => Host.reduce IntOp.andi x v reducesTo_S640x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_v13 main_v16
-- ==== Kernel.lean ====
abbrev S64x10000x128 : Shape := ⟨3, ![64, 10000, 128]⟩
abbrev S64x4 : Shape := ⟨2, ![64, 4]⟩
abbrev S640x128 : Shape := ⟨2, ![640, 128]⟩
abbrev S128 : Shape := ⟨1, ![128]⟩
abbrev S64x5x128 : Shape := ⟨3, ![64, 5, 128]⟩
abbrev S1x10000x128 : Shape := ⟨3, ![1, 10000, 128]⟩
abbrev S1x5x128 : Shape := ⟨3, ![1, 5, 128]⟩
abbrev S10000x128 : Shape := ⟨2, ![10000, 128]⟩
abbrev S10000x1 : Shape := ⟨2, ![10000, 1]⟩
abbrev S1x1 : Shape := ⟨2, ![1, 1]⟩
abbrev S1x1x128 : Shape := ⟨3, ![1, 1, 128]⟩
abbrev S64x640 : Shape := ⟨2, ![64, 640]⟩
abbrev S64x128 : Shape := ⟨2, ![64, 128]⟩
abbrev S1x128 : Shape := ⟨2, ![1, 128]⟩
abbrev S64 : Shape := ⟨1, ![64]⟩
abbrev S64x1 : Shape := ⟨2, ![64, 1]⟩
abbrev S64x1x128 : Shape := ⟨3, ![64, 1, 128]⟩

abbrev nBuf : Space → Nat
  | .hbm => 9
  | .vmem => 10
  | .smem => 1
  | _ => 0

abbrev bufTy : (tb : Table) → Fin (tcTables nBuf tb) → BufTy
  | .hbm, ⟨0, _⟩ => ⟨S64x10000x128, .f32⟩
  | .hbm, ⟨1, _⟩ => ⟨S640x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S64x5x128, .f32⟩
  | .hbm, ⟨6, _⟩ => ⟨S64x640, .f32⟩
  | .hbm, ⟨7, _⟩ => ⟨S64x128, .f32⟩
  | .hbm, ⟨8, _⟩ => ⟨S64x1x128, .f32⟩
  | .local _ .vmem, ⟨0, _⟩ => ⟨S1x10000x128, .f32⟩
  | .local _ .vmem, ⟨1, _⟩ => ⟨S1x10000x128, .f32⟩
  | .local _ .vmem, ⟨2, _⟩ => ⟨S1x5x128, .f32⟩
  | .local _ .vmem, ⟨3, _⟩ => ⟨S1x5x128, .f32⟩
  | .local _ .vmem, ⟨4, _⟩ => ⟨S64x640, .f32⟩
  | .local _ .vmem, ⟨5, _⟩ => ⟨S640x128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S64x128, .f32⟩
  | .local _ .smem, ⟨0, _⟩ => ⟨S64x4, .i32⟩
  | _, _ => ⟨S64x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v6 : Index := Scalar.indexCast arg0
  let c0_3 : Index := 0#32
  ![v6.toNat, 0]
def k0_off2 (i : grid0.Coords) : Fin 2 → Nat :=
  let arg0 : BitVec 32 := BitVec.ofNat 32 (i 0).val
  let v18 : Index := Scalar.indexCast arg0
  let c1 : Index := 1#32
  ![v18.toNat, 1]
def k0_off3 (i : grid0.Coords) : Fin 2 → Nat :=
  let arg0 : BitVec 32 := BitVec.ofNat 32 (i 0).val
  let v30 : Index := Scalar.indexCast arg0
  let c2 : Index := 2#32
  ![v30.toNat, 2]
def k0_off4 (i : grid0.Coords) : Fin 2 → Nat :=
  let arg0 : BitVec 32 := BitVec.ofNat 32 (i 0).val
  let v42 : Index := Scalar.indexCast arg0
  let c3 : Index := 3#32
  ![v42.toNat, 3]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x5x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x640 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S640x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  inb_S1x10000x128_S1x10000x128_0_0_0 : ∀ a, (![0, 0, 0] : Fin 3 → Nat) a + S1x10000x128.size a ≤ S1x10000x128.size a
  h_S1x10000x128 : 0 < S1x10000x128.numel
  shapeCasts_S1x10000x128_S10000x128 : S1x10000x128.ShapeCasts S10000x128
  reduces_S10000x128_S128 : S10000x128.Reduces [0] S128
  iota_S10000x1_d0_w32 : S10000x1.Iotas .tc 32 [0]
  numel1_S1x1 : S1x1.numel = 1
  natLt_1_32 : 1 < 32
  broadcasts_S10000x1_S10000x128 : S10000x1.Broadcasts S10000x128
  inb_S1x5x128_S1x1x128_0_0_0 : ∀ a, (![0, 0, 0] : Fin 3 → Nat) a + S1x1x128.size a ≤ S1x5x128.size a
  h_S1x1x128 : 0 < S1x1x128.numel
  shapeCasts_S1x1x128_S128 : S1x1x128.ShapeCasts S128
  shapeCasts_S128_S1x1x128 : S128.ShapeCasts S1x1x128
  inb_S1x5x128_S1x1x128_0_1_0 : ∀ a, (![0, 1, 0] : Fin 3 → Nat) a + S1x1x128.size a ≤ S1x5x128.size a
  inb_S1x5x128_S1x1x128_0_2_0 : ∀ a, (![0, 2, 0] : Fin 3 → Nat) a + S1x1x128.size a ≤ S1x5x128.size a
  inb_S1x5x128_S1x1x128_0_3_0 : ∀ a, (![0, 3, 0] : Fin 3 → Nat) a + S1x1x128.size a ≤ S1x5x128.size a
  inb_S1x5x128_S1x1x128_0_4_0 : ∀ a, (![0, 4, 0] : Fin 3 → Nat) a + S1x1x128.size a ≤ S1x5x128.size a
  shapeCasts_S64x5x128_S64x640 : S64x5x128.ShapeCasts S64x640
  inb_S64x640_S64x640_0_0 : ∀ a, (![0, 0] : Fin 2 → Nat) a + S64x640.size a ≤ S64x640.size a
  h_S64x640 : 0 < S64x640.numel
  shapeCasts_S64x640_S64x640 : S64x640.ShapeCasts S64x640
  inb_S640x128_S640x128_0_0 : ∀ a, (![0, 0] : Fin 2 → Nat) a + S640x128.size a ≤ S640x128.size a
  h_S640x128 : 0 < S640x128.numel
  inb_S128_S128_0 : ∀ a, (![0] : Fin 1 → Nat) a + S128.size a ≤ S128.size a
  h_S128 : 0 < S128.numel
  bitsLt_bf16_f32 : FTy.bits .bf16 < FTy.bits .f32
  shapeCasts_S128_S1x128 : S128.ShapeCasts S1x128
  broadcasts_S1x128_S64x128 : S1x128.Broadcasts S64x128
  reduces_S64x128_S64 : S64x128.Reduces [1] S64
  shapeCasts_S64_S64x1 : S64.ShapeCasts S64x1
  broadcasts_S64x1_S64x128 : S64x1.Broadcasts S64x128
  inb_S64x128_S64x128_0_0 : ∀ a, (![0, 0] : Fin 2 → Nat) a + S64x128.size a ≤ S64x128.size a
  h_S64x128 : 0 < S64x128.numel
  bcast_S64x128_S64x1x128_0_2 : S64x128.BroadcastsInDim S64x1x128 (![0, 2] : Fin 2 → Fin S64x1x128.rank)
  dot_S64x640_S640x128_S64x128_1_0_0_1_n_n_wf : DotDims.WF S64x640 S640x128 S64x128 [1] [0] [0] [1] [] []
  hrank0 : 0 < grid0.rank
  k0_off1_inb : ∀ i : grid0.Coords, ∀ a, (k0_off1 i) a + S1x1.size a ≤ S64x4.size a
  k0_off2_inb : ∀ i : grid0.Coords, ∀ a, (k0_off2 i) a + S1x1.size a ≤ S64x4.size a
  k0_off3_inb : ∀ i : grid0.Coords, ∀ a, (k0_off3 i) a + S1x1.size a ≤ S64x4.size a
  k0_off4_inb : ∀ i : grid0.Coords, ∀ a, (k0_off4 i) a + S1x1.size a ≤ S64x4.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x128.size a ≤ S64x10000x128.size a
  hwx0_0 : ∀ i : grid0.Coords, EltTy.bits .f32 = 32 ∨ (Rect.block (s := S64x10000x128) S1x10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5x128.size a ≤ S64x5x128.size a
  hwx0_1 : ∀ i : grid0.Coords, EltTy.bits .f32 = 32 ∨ (Rect.block (s := S64x5x128) S1x5x128.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x640.size a ≤ S64x640.size a
  hwx1_0 : ∀ i : grid1.Coords, EltTy.bits .f32 = 32 ∨ (Rect.block (s := S64x640) S64x640.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S640x128.size a ≤ S640x128.size a
  hwx1_1 : ∀ i : grid1.Coords, EltTy.bits .f32 = 32 ∨ (Rect.block (s := S640x128) S640x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)

variable [Facts₀]

def dot_S64x640_S640x128_S64x128_1_0_0_1_n_n : DotDims S64x640 S640x128 S64x128 where
  lhsContracting := [1]
  rhsContracting := [0]
  lhsNonContracting := [0]
  rhsNonContracting := [1]
  lhsBatch := []
  rhsBatch := []
  wf := dot_S64x640_S640x128_S64x128_1_0_0_1_n_n_wf

abbrev spec0_0 : Pipeline.WinSpec sig grid0.rank :=
  Pipeline.WinSpec.ofSpec (Memref.whole main_arg0) S1x10000x128.size reads0_0 false false 2 stage0_0 sem0_0 nbuf0_0 hstage0_0

abbrev spec0_1 : Pipeline.WinSpec sig grid0.rank :=
  Pipeline.WinSpec.ofSpec (Memref.whole main_v0) S1x5x128.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))
abbrev win1_0 : Pipeline.Window sig grid1 :=
  Pipeline.Window.ofSpec (Memref.whole main_v1) S64x640.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S640x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S64x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where
  harr0 : ∀ w, (spec0 w).arr.IsWhole

variable [Facts]
-- ==== ReferenceIdeal.lean ====
abbrev S64x10000x128 : Shape := ⟨3, ![64, 10000, 128]⟩
abbrev S64x4 : Shape := ⟨2, ![64, 4]⟩
abbrev S640x128 : Shape := ⟨2, ![640, 128]⟩
abbrev S128 : Shape := ⟨1, ![128]⟩
abbrev S64 : Shape := ⟨1, ![64]⟩
abbrev S64x1 : Shape := ⟨2, ![64, 1]⟩
abbrev S_ : Shape := ⟨0, ![]⟩
abbrev S64x4x1 : Shape := ⟨3, ![64, 4, 1]⟩
abbrev S64x4x2 : Shape := ⟨3, ![64, 4, 2]⟩
abbrev S64x4x128 : Shape := ⟨3, ![64, 4, 128]⟩
abbrev S64x128 : Shape := ⟨2, ![64, 128]⟩
abbrev S64x1x128 : Shape := ⟨3, ![64, 1, 128]⟩
abbrev S64x5x128 : Shape := ⟨3, ![64, 5, 128]⟩
abbrev S64x640 : Shape := ⟨2, ![64, 640]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S64x10000x128, .f32⟩
  | .hbm, ⟨1, _⟩ => ⟨S64x4, .i32⟩
  | .hbm, ⟨2, _⟩ => ⟨S640x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S64, .i32⟩
  | .hbm, ⟨7, _⟩ => ⟨S64x1, .i32⟩
  | .hbm, ⟨8, _⟩ => ⟨S_, .i32⟩
  | .hbm, ⟨9, _⟩ => ⟨S64x1, .i32⟩
  | .hbm, ⟨10, _⟩ => ⟨S64x1, .i1⟩
  | .hbm, ⟨11, _⟩ => ⟨S_, .i32⟩
  | .hbm, ⟨12, _⟩ => ⟨S64x1, .i32⟩
  | .hbm, ⟨13, _⟩ => ⟨S64x1, .i32⟩
  | .hbm, ⟨14, _⟩ => ⟨S64x1, .i32⟩
  | .hbm, ⟨15, _⟩ => ⟨S_, .i32⟩
  | .hbm, ⟨16, _⟩ => ⟨S64x4, .i32⟩
  | .hbm, ⟨17, _⟩ => ⟨S64x4, .i1⟩
  | .hbm, ⟨18, _⟩ => ⟨S_, .i32⟩
  | .hbm, ⟨19, _⟩ => ⟨S64x4, .i32⟩
  | .hbm, ⟨20, _⟩ => ⟨S64x4, .i32⟩
  | .hbm, ⟨21, _⟩ => ⟨S64x4, .i32⟩
  | .hbm, ⟨22, _⟩ => ⟨S64x4, .i32⟩
  | .hbm, ⟨23, _⟩ => ⟨S64x4x1, .i32⟩
  | .hbm, ⟨24, _⟩ => ⟨S64x4x1, .i32⟩
  | .hbm, ⟨25, _⟩ => ⟨S64x4x2, .i32⟩
  | .hbm, ⟨26, _⟩ => ⟨S64x4x128, .f32⟩
  | .hbm, ⟨27, _⟩ => ⟨S_, .f32⟩
  | .hbm, ⟨28, _⟩ => ⟨S64x4x128, .f32⟩
  | .hbm, ⟨29, _⟩ => ⟨S64x4x128, .f32⟩
  | .hbm, ⟨30, _⟩ => ⟨S_, .f32⟩
  | .hbm, ⟨31, _⟩ => ⟨S64x128, .f32⟩
  | .hbm, ⟨32, _⟩ => ⟨S64x1x128, .f32⟩
  | .hbm, ⟨33, _⟩ => ⟨S_, .f32⟩
  | .hbm, ⟨34, _⟩ => ⟨S64x1x128, .f32⟩
  | .hbm, ⟨35, _⟩ => ⟨S64x1x128, .f32⟩
  | .hbm, ⟨36, _⟩ => ⟨S64x5x128, .f32⟩
  | .hbm, ⟨37, _⟩ => ⟨S64x640, .f32⟩
  | .hbm, ⟨38, _⟩ => ⟨S64x128, .f32⟩
  | .hbm, ⟨39, _⟩ => ⟨S1x128, .f32⟩
  | .hbm, ⟨40, _⟩ => ⟨S64x128, .f32⟩
  | .hbm, ⟨41, _⟩ => ⟨S64x128, .f32⟩
  | .hbm, ⟨42, _⟩ => ⟨S_, .f32⟩
  | .hbm, ⟨43, _⟩ => ⟨S64x128, .f32⟩
  | .hbm, ⟨44, _⟩ => ⟨S64x128, .f32⟩
  | .hbm, ⟨45, _⟩ => ⟨S_, .f32⟩
  | .hbm, ⟨46, _⟩ => ⟨S64, .f32⟩
  | .hbm, ⟨47, _⟩ => ⟨S64x1, .f32⟩
  | .hbm, ⟨48, _⟩ => ⟨S_, .f32⟩
  | .hbm, ⟨49, _⟩ => ⟨S64x1, .f32⟩
  | .hbm, ⟨50, _⟩ => ⟨S64x1, .f32⟩
  | .hbm, ⟨51, _⟩ => ⟨S64x128, .f32⟩
  | .hbm, ⟨52, _⟩ => ⟨S64x128, .f32⟩
  | .hbm, ⟨53, _⟩ => ⟨S64x128, .f32⟩
  | .hbm, ⟨54, _⟩ => ⟨S_, .f32⟩
  | .hbm, ⟨55, _⟩ => ⟨S64, .f32⟩
  | .hbm, ⟨56, _⟩ => ⟨S64x1, .f32⟩
  | .hbm, ⟨57, _⟩ => ⟨S_, .f32⟩
  | .hbm, ⟨58, _⟩ => ⟨S64x1, .f32⟩
  | .hbm, ⟨59, _⟩ => ⟨S64x1, .f32⟩
  | .hbm, ⟨60, _⟩ => ⟨S64x128, .f32⟩
  | .hbm, ⟨61, _⟩ => ⟨S64x128, .f32⟩
  | .hbm, ⟨62, _⟩ => ⟨S_, .f32⟩
  | .hbm, ⟨63, _⟩ => ⟨S64x1, .f32⟩
  | .hbm, ⟨64, _⟩ => ⟨S64x1, .f32⟩
  | .hbm, ⟨65, _⟩ => ⟨S64x1, .f32⟩
  | .hbm, ⟨66, _⟩ => ⟨S64x128, .f32⟩
  | .hbm, ⟨67, _⟩ => ⟨S64x128, .f32⟩
  | .hbm, ⟨68, _⟩ => ⟨S1x128, .f32⟩
  | .hbm, ⟨69, _⟩ => ⟨S64x128, .f32⟩
  | .hbm, ⟨70, _⟩ => ⟨S64x128, .f32⟩
  | .hbm, ⟨71, _⟩ => ⟨S1x128, .f32⟩
  | .hbm, ⟨72, _⟩ => ⟨S64x128, .f32⟩
  | .hbm, ⟨73, _⟩ => ⟨S64x128, .f32⟩
  | .hbm, ⟨74, _⟩ => ⟨S64x1x128, .f32⟩
  | _, _ => ⟨S64x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_cst : Ref sig .tc := ⟨.hbm, 42, rfl⟩
abbrev main_call0_v0 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]

class Facts₀ : Prop where
  bcast_S64_S64x1_0 : S64.BroadcastsInDim S64x1 (![0] : Fin 1 → Fin S64x1.rank)
  bcast_S_S64x1 : S_.BroadcastsInDim S64x1 (![] : Fin 0 → Fin S64x1.rank)
  bcast_S_S64x4 : S_.BroadcastsInDim S64x4 (![] : Fin 0 → Fin S64x4.rank)
  bcast_S64x1_S64x4_0_1 : S64x1.BroadcastsInDim S64x4 (![0, 1] : Fin 2 → Fin S64x4.rank)
  bcast_S64x4_S64x4x1_0_1 : S64x4.BroadcastsInDim S64x4x1 (![0, 1] : Fin 2 → Fin S64x4x1.rank)
  concatenates_S64x4x1_S64x4x1_S64x4x2_d2 : Shape.Concatenates [S64x4x1, S64x4x1] S64x4x2 2
  bcast_S_S64x4x128 : S_.BroadcastsInDim S64x4x128 (![] : Fin 0 → Fin S64x4x128.rank)
  reducesTo_S64x10000x128_S64x128_d1 : S64x10000x128.ReducesTo [1] S64x128
  h_S_ : 0 < S_.numel
  bcast_S64x128_S64x1x128_0_2 : S64x128.BroadcastsInDim S64x1x128 (![0, 2] : Fin 2 → Fin S64x1x128.rank)
  bcast_S_S64x1x128 : S_.BroadcastsInDim S64x1x128 (![] : Fin 0 → Fin S64x1x128.rank)
  concatenates_S64x4x128_S64x1x128_S64x5x128_d1 : Shape.Concatenates [S64x4x128, S64x1x128] S64x5x128 1
  shapeCasts_S64x5x128_S64x640 : S64x5x128.ShapeCasts S64x640
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  reducesTo_S64x128_S64_d1 : S64x128.ReducesTo [1] S64
  bcast_S64x1_S64x128_0_1 : S64x1.BroadcastsInDim S64x128 (![0, 1] : Fin 2 → Fin S64x128.rank)
  gather_S64x10000x128_S64x4x2_S64x4x128_2_01_n_n_01_2_11128_wf : GatherDims.WF S64x10000x128 S64x4x2 S64x4x128 [2] [0, 1] [] [0, 1] [] 2 ![1, 1, 128]
  dot_S64x640_S640x128_S64x128_1_0_0_1_n_n_wf : DotDims.WF S64x640 S640x128 S64x128 [1] [0] [0] [1] [] []

variable [Facts₀]

def gather_S64x10000x128_S64x4x2_S64x4x128_2_01_n_n_01_2_11128 : GatherDims S64x10000x128 S64x4x2 S64x4x128 where
  offsetDims := [2]
  collapsedSliceDims := [0, 1]
  operandBatchingDims := []
  startIndicesBatchingDims := []
  startIndexMap := [0, 1]
  indexVectorDim := 2
  sliceSizes := ![1, 1, 128]
  wf := gather_S64x10000x128_S64x4x2_S64x4x128_2_01_n_n_01_2_11128_wf
def dot_S64x640_S640x128_S64x128_1_0_0_1_n_n : DotDims S64x640 S640x128 S64x128 where
  lhsContracting := [1]
  rhsContracting := [0]
  lhsNonContracting := [0]
  rhsNonContracting := [1]
  lhsBatch := []
  rhsBatch := []
  wf := dot_S64x640_S640x128_S64x128_1_0_0_1_n_n_wf

class Facts : Prop extends Facts₀ where

variable [Facts]
-- ==== Proof.Frame0.lean ====
/-
  The first kernel region (row selection by a masked maximum, and the mean over rows) as a pipeline over the 64
  batch rows, stated at the contents V the region finds in the core's buffers and at the contents tb of the
  prefetched table of start words. At a grid point the body loads the point's [1, 10000, 128] input block and the
  four start words of that batch row from the table, and stores five rows that tile the [1, 5, 128] output block:
  so the output window's buffer holds, after the body, those five stored rows, each a function of the input block
  and of one start word. The table is held whole beside the region's invariant: the body only reads it.
-/
import proofs.«424035_j13434657702538_1_alg».proof.Proof.Gen.KernelIdeal.Launch
import proofs.«424035_j13434657702538_1_alg».proof.Proof.Gen.KernelIdeal.Skeleton
import proofs.«424035_j13434657702538_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable [Cert.KernelIdeal.Facts]
variable {F : FTy → Type} [FloatOps F] [Named F]

local notation "𝕄" => MT nD τ sig Unit (Elt F) ℕ (UR sig nD τ) ℕ

variable (V : (c : Dev nD) → (b : Ref sig .tc) → Buf (Elt F) ((c : Thread nD τ).loc b)) (tb : pre0.Contents (Elt F))

/-! ## The pipeline at the table's contents -/

/-- The table's contents as admissible contents: no index map reads the table, so the pipeline asks nothing of it. -/
abbrev adm0 : (pcfg0 (F := F)).Adm := ⟨tb, (ok0.eq_1 tb).mpr trivial⟩
abbrev cfgM : Pipeline.Cfg sig Λ₀ := cfg0 (adm0 tb)

/-- Window w's block at point t, read off its array as the region finds it. -/
def iblk0 (c : Dev nD) (w : Fin (cfgM tb).W) (t : Fin (cfgM tb).N) : (((cfgM tb).win w).xblock ((cfgM tb).grid.coords t)).Idx → Elt F ((cfgM tb).win w).elt :=
  (((cfgM tb).win w).blk t).view.read (Elt F) (V c (Pipeline.arrRef spec0 w))

/-- The input window's staging buffer holds its block at every point, fetched there or not, for any proof data
    whose array is V's and whose body leaves the block in place. -/
theorem before0_0_of {c : Dev nD} (dat : Dat τ (Elt F) Unit ℕ (UR sig nD τ) ℕ (cfgM tb) c) (hA : dat.A 0 = V c (Pipeline.arrRef spec0 0))
    (hafter : ∀ t, dat.after 0 t = iblk0 V tb c 0 t) (t : Fin (cfgM tb).N) (d) : dat.before 0 t d = iblk0 V tb c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The table as the body is handed it -/

abbrev tbM0 : Memref sig .tc .smem S64x4 .i32 := Memref.whole main_arg1
abbrev htbM0 : tbM0.IsWhole := Memref.isWhole_whole _
abbrev TbBuf0 (c : Dev nD) : Type := Buf (Elt F) (tbM0.view.loc (c : Thread nD τ))
/-- The table's buffer on core c, held whole at f. -/
abbrev tbPt0 (c : Dev nD) (f : TbBuf0 (F := F) c) : sProp 𝕄 :=
  tbM0.view.loc (c : Thread nD τ) ↦{fullShare} f

/-- The region's holding of its one table is that buffer held. -/
theorem prefHeld0_eq (c : Dev nD) : (Pipeline.prefHeld (Ix := Unit) (Name := ℕ) (U := UR sig nD τ) (Lvl := ℕ) pre0 c (fun _ => fullShare) tb : sProp 𝕄) = tbPt0 c (tb 0) := by
  unfold Pipeline.prefHeld
  rw [show (Finset.univ : Finset (Fin 1)) = {(0 : Fin 1)} from by decide, bigSep_singleton]
  rfl

/-- The start word the body loads from the table at offsets off. -/
abbrev word0 (c : Dev nD) (tb0 : TbBuf0 (F := F) c) (off : Fin 2 → Nat) (h : ∀ a, off a + S1x1.size a ≤ S64x4.size a) : Elt F .i32 :=
  tbM0.view.readAt (Elt F) (Rect.unit (s := S64x4) off S1x1.size h).toLoadRect tb0 (Shape.Idx.first (Facts₀.numel1_S1x1.symm ▸ Nat.one_pos))

/-! ## The body's accesses and what it leaves in the output window's buffer -/

abbrev rIn0 : Rect S1x10000x128 := Rect.unit (s := S1x10000x128) ![0, 0, 0] S1x10000x128.size Facts₀.inb_S1x10000x128_S1x10000x128_0_0_0
abbrev rRow0 : Rect S1x5x128 := Rect.unit (s := S1x5x128) ![0, 0, 0] S1x1x128.size Facts₀.inb_S1x5x128_S1x1x128_0_0_0
abbrev rRow1 : Rect S1x5x128 := Rect.unit (s := S1x5x128) ![0, 1, 0] S1x1x128.size Facts₀.inb_S1x5x128_S1x1x128_0_1_0
abbrev rRow2 : Rect S1x5x128 := Rect.unit (s := S1x5x128) ![0, 2, 0] S1x1x128.size Facts₀.inb_S1x5x128_S1x1x128_0_2_0
abbrev rRow3 : Rect S1x5x128 := Rect.unit (s := S1x5x128) ![0, 3, 0] S1x1x128.size Facts₀.inb_S1x5x128_S1x1x128_0_3_0
abbrev rRow4 : Rect S1x5x128 := Rect.unit (s := S1x5x128) ![0, 4, 0] S1x1x128.size Facts₀.inb_S1x5x128_S1x1x128_0_4_0

/-- The five stored rows, LAST FIRST: the mean row, then the rows selected by the fourth … first start word. -/
def pieces0 (c : Dev nD) (i : grid0.Coords) (x0 : Vec F S1x10000x128 .f32) (tb0 : TbBuf0 (F := F) c) : List (View.Piece (Elt F) S1x5x128 .f32) :=
  [⟨rRow4, k0_pay3 (k0_pay5 (View.ld x0 rIn0))⟩,
   ⟨rRow3, k0_pay2 (k0_pay4 (View.ld x0 rIn0)) (iota .tc S10000x1 32 [0] Facts₀.iota_S10000x1_d0_w32) (word0 c tb0 (k0_off4 i) (Facts₀.k0_off4_inb i))⟩,
   ⟨rRow2, k0_pay1 (k0_pay8 (View.ld x0 rIn0) (word0 c tb0 (k0_off3 i) (Facts₀.k0_off3_inb i)))⟩,
   ⟨rRow1, k0_pay7 (View.ld x0 rIn0) (word0 c tb0 (k0_off2 i) (Facts₀.k0_off2_inb i))⟩,
   ⟨rRow0, k0_pay6 (View.ld x0 rIn0) (word0 c tb0 (k0_off1 i) (Facts₀.k0_off1_inb i))⟩]

/-- The output window's buffer after the body. -/
def out0_1 (c : Dev nD) (i : grid0.Coords) (x0 : Vec F S1x10000x128 .f32) (tb0 : TbBuf0 (F := F) c) : Vec F S1x5x128 .f32 :=
  View.canon (pieces0 c i x0 tb0)

/-- The five rows tile the block, so they cover it. -/
theorem cover0_1 (p0 p1 p2 p3 p4 : Vec F S1x1x128 .f32) (y : S1x5x128.Idx) :
    ∃ pc ∈ ([⟨rRow4, p4⟩, ⟨rRow3, p3⟩, ⟨rRow2, p2⟩, ⟨rRow1, p1⟩, ⟨rRow0, p0⟩] : List (View.Piece (Elt F) S1x5x128 .f32)), y ∈ pc.1.set :=
  View.cover_of_tiled [⟨rRow4, p4⟩, ⟨rRow3, p3⟩, ⟨rRow2, p2⟩, ⟨rRow1, p1⟩, ⟨rRow0, p0⟩] S1x1x128.size (by rfl) y

/-! ## The body's triple -/

set_option maxHeartbeats 2000000 in
/-- The body on whole staging memrefs, the input's at contents x0, the output's at anything and the table held at tb0,
    runs to the continuation holding the input and the table as they were and the output at out0_1. -/
theorem sound_kernel0 (c : Dev nD) (E : Set ℕ) (i : grid0.Coords)
    (arg2 : Memref sig .tc .vmem S1x10000x128 .f32) (harg2 : arg2.IsWhole) (arg3 : Memref sig .tc .vmem S1x5x128 .f32) (harg3 : arg3.IsWhole)
    (tb0 : TbBuf0 (F := F) c) (x0 : Vec F S1x10000x128 .f32) (K : PUnit → sProp 𝕄) :
    iprop(tbPt0 c tb0 ∗ owns (c : Thread nD τ) arg2 fullShare x0 ∗ (∃ d, owns (c : Thread nD τ) arg3 fullShare d)
        ∗ (iprop(tbPt0 c tb0 ∗ owns (c : Thread nD τ) arg2 fullShare x0 ∗ owns (c : Thread nD τ) arg3 fullShare (out0_1 c i x0 tb0)) -∗ K ⟨⟩))
      ⊢ wp frame (wpE (defs₀ (F := F)) Variants.none c none) E (cc0__gather_mean_kernel i tbM0 htbM0 arg2 harg2 arg3 harg3) K := by
  simp only [cc0__gather_mean_kernel_eq_skeleton]; unfold cc0__gather_mean_kernel_skel
  unfold owns tbPt0
  iintro ⟨Ht, ⟨%f0, %hf0, H0⟩, ⟨%d1, %f1, -, H1⟩, Hk⟩
  subst hf0
  sl_exec
  sl_unfold_words
  sl_step
  iapply Hk
  isplitl [Ht]; · iexact Ht
  isplitl [H0]
  · iexists f0; isplitr; · ipureintro; rfl
    iexact H0
  iexists _; isplitr
  swap; · iexact H1
  ipureintro
  exact View.read_writes_eq_canon _ _ _ (cover0_1 _ _ _ _ _)

/-! ## The pipeline's proof data -/

/-- The staging memrefs at point t, as the pipeline passes them to the body, and their wholeness. -/
abbrev ms0_0 (t : Fin (cfgM tb).N) : Memref sig .tc .vmem S1x10000x128 .f32 := spec0_0.stage ((cfgM tb).slots t 0)
abbrev hs0_0 (t : Fin (cfgM tb).N) : (ms0_0 tb t).IsWhole := Facts₀.hstage0_0 (((cfgM tb).slots t 0).cast Facts₀.nbuf0_0)
abbrev ms0_1 (t : Fin (cfgM tb).N) : Memref sig .tc .vmem S1x5x128 .f32 := spec0_1.stage ((cfgM tb).slots t 1)
abbrev hs0_1 (t : Fin (cfgM tb).N) : (ms0_1 tb t).IsWhole := Facts₀.hstage0_1 (((cfgM tb).slots t 1).cast Facts₀.nbuf0_1)
/-- The body at point t, on what the pipeline calls it with. -/
abbrev bodyAt0 (t : Fin (cfgM tb).N) : Prog (TpuEff nD τ sig (Elt F) Λ₀ .tc) PUnit :=
  cc0__gather_mean_kernel (grid0.coords t) tbM0 htbM0 (ms0_0 tb t) (hs0_0 tb t) (ms0_1 tb t) (hs0_1 tb t)

/-- The proof data of the first pipeline on core c: the arrays as the region finds them; after the body at point t
    the input's buffer at its block and the output's at out0_1 of that block and the table; the invariant the scoped
    rest, the generator register and the table held whole; nothing owed; full shares. -/
def dat0 (c : Dev nD) : Dat τ (Elt F) Unit ℕ (UR sig nD τ) ℕ (cfgM tb) c where
  A w := V c (Pipeline.arrRef spec0 w)
  after w t := match w with
    | ⟨0, _⟩ => iblk0 V tb c 0 t
    | ⟨1, _⟩ => out0_1 c (grid0.coords t) (iblk0 V tb c 0 t) (tb 0)
  Φ _ := iprop(Pipeline.ΦA spec0 c ∗ tbPt0 c (tb 0))
  q _ := fullShare
  owed _ := 0

theorem A_eq0 (c : Dev nD) (w : Fin (cfgM tb).W) : (dat0 V tb c).A w = V c (Pipeline.arrRef spec0 w) := by
  dsimp only [dat0]

theorem after0_0 (c : Dev nD) (t : Fin (cfgM tb).N) : (dat0 V tb c).after 0 t = iblk0 V tb c 0 t := by
  first | rfl | (dsimp only [dat0]; rfl)
theorem after0_1 (c : Dev nD) (t : Fin (cfgM tb).N) :
    (dat0 V tb c).after 1 t = out0_1 c (grid0.coords t) (iblk0 V tb c 0 t) (tb 0) := by
  first | rfl | (dsimp only [dat0]; rfl)

theorem before0_0 (c : Dev nD) (t : Fin (cfgM tb).N) (d) : (dat0 V tb c).before 0 t d = iblk0 V tb c 0 t :=
  before0_0_of V tb (dat0 V tb c) (A_eq0 V tb c 0) (after0_0 V tb c) t d

/-! ## The body obligation -/

/-- What the body is called with at point t, the windows one by one, -/
def bodyPre0 (c : Dev nD) (t : Fin (cfgM tb).N) : sProp 𝕄 :=
  iprop((dat0 V tb c).Φ t.castSucc ∗ (dat0 V tb c).owesAt () t.castSucc
    ∗ (∃ d, owns (c : Thread nD τ) (ms0_0 tb t) fullShare ((dat0 V tb c).before 0 t d))
    ∗ (∃ d, owns (c : Thread nD τ) (ms0_1 tb t) fullShare ((dat0 V tb c).before 1 t d)))

/-- and what it returns. -/
def bodyPost0 (c : Dev nD) (t : Fin (cfgM tb).N) : sProp 𝕄 :=
  iprop((dat0 V tb c).Φ t.succ ∗ (dat0 V tb c).owesAt () t.succ
    ∗ owns (c : Thread nD τ) (ms0_0 tb t) fullShare ((dat0 V tb c).after 0 t)
    ∗ owns (c : Thread nD τ) (ms0_1 tb t) fullShare ((dat0 V tb c).after 1 t))

/-- The body at any point: the input's memref holds its block and the invariant holds the table, so the body's
    triple applies; the rest of the invariant and the core's dues pass through unread. -/
theorem sound_body0 (c : Dev nD) (t : Fin (cfgM tb).N) :
    bodyPre0 V tb c t ⊢ wp frame (wpE (defs₀ (F := F)) Variants.none c none) Set.univ (bodyAt0 tb t) (fun _ => bodyPost0 V tb c t) := by
  unfold bodyPre0 bodyPost0 bodyAt0
  simp only [before0_0]
  rw [show (dat0 V tb c).Φ t.succ = (dat0 V tb c).Φ t.castSucc from rfl,
    show (dat0 V tb c).owesAt () t.succ = (dat0 V tb c).owesAt () t.castSucc from rfl,
    after0_0, after0_1]
  rw [show (dat0 V tb c).Φ t.castSucc = iprop(Pipeline.ΦA spec0 c ∗ tbPt0 c (tb 0)) from rfl]
  iintro ⟨⟨HΦ, HT⟩, Ho, ⟨%d0, H0⟩, ⟨%d1, H1⟩⟩
  iapply (sound_kernel0 c Set.univ (grid0.coords t) _ _ _ _ (tb 0) (iblk0 V tb c 0 t) _)
  isplitl [HT]; · iexact HT
  isplitl [H0]; · iexact H0
  isplitl [H1]; · iexists _; iexact H1
  iintro ⟨HT, H0, H1⟩
  isplitl [HΦ HT]
  · isplitl [HΦ]; · iexact HΦ
    iexact HT
  isplitl [Ho]; · iexact Ho
  isplitl [H0]; · iexact H0
  iexact H1

/-- The library's body obligation, at every point. -/
theorem body_obligation0 (c : Dev nD) : BodyObligation (dat0 (F := F) V tb c) (defs₀ (F := F)) Variants.none () Set.univ := fun t => by
  rw [bigSep_W0, bigSep_W0]
  exact sound_body0 V tb c t

end Cert.KernelIdeal.Hand

end
-- ==== Proof.Frame1.lean ====
/-
  The second kernel region (dense layer, clipping at zero, row normalisation) as a pipeline of one grid point,
  stated at the contents V the region finds in the core's buffers. Each input window's block is its whole
  array; the body loads the five input blocks and stores ONE value over the whole output block, so the output
  window's buffer holds, after the body, that value: the body's arithmetic of the five blocks.
-/
import proofs.«424035_j13434657702538_1_alg».proof.Proof.Gen.KernelIdeal.Launch
import proofs.«424035_j13434657702538_1_alg».proof.Proof.Gen.KernelIdeal.Skeleton
import proofs.«424035_j13434657702538_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable [Cert.KernelIdeal.Facts]
variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not, for any proof data
    whose array is V's and whose body leaves the block in place: one statement per input window. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the output window's buffer -/

abbrev rX1 : Rect S64x640 := Rect.unit (s := S64x640) ![0, 0] S64x640.size Facts₀.inb_S64x640_S64x640_0_0
abbrev rW1 : Rect S640x128 := Rect.unit (s := S640x128) ![0, 0] S640x128.size Facts₀.inb_S640x128_S640x128_0_0
abbrev rV1 : Rect S128 := Rect.unit (s := S128) ![0] S128.size Facts₀.inb_S128_S128_0
abbrev rO1 : Rect S64x128 := Rect.unit (s := S64x128) ![0, 0] S64x128.size Facts₀.inb_S64x128_S64x128_0_0

/-- The output window's buffer after the body, from the five input blocks: its one store as a piece. -/
def out1_5 (x0 : Vec F S64x640 .f32) (x1 : Vec F S640x128 .f32) (x2 x3 x4 : Vec F S128 .f32) : Vec F S64x128 .f32 :=
  View.canon [⟨rO1, k1_pay1 (View.ld x0 rX1) (View.ld x1 rW1) (View.ld x2 rV1) (View.ld x3 rV1) (View.ld x4 rV1)⟩]

/-- The one store covers the buffer. -/
theorem cover1_5 (p0 : Vec F S64x128 .f32) (y : S64x128.Idx) :
    ∃ pc ∈ ([⟨rO1, p0⟩] : List (View.Piece (Elt F) S64x128 .f32)), y ∈ pc.1.set :=
  View.cover_of_tiled [⟨rO1, p0⟩] S64x128.size (by rfl) y

/-! ## The body's triple -/

set_option maxHeartbeats 1000000 in
/-- The body on whole staging memrefs, the inputs' at contents x0 … x4 and the output's at anything, runs to the
    continuation holding the inputs as they were and the output at out1_5 of them. -/
theorem sound_kernel1 (c : Dev nD) (E : Set ℕ) (i : grid1.Coords)
    (arg1 : Memref sig .tc .vmem S64x640 .f32) (harg1 : arg1.IsWhole) (arg2 : Memref sig .tc .vmem S640x128 .f32) (harg2 : arg2.IsWhole)
    (arg3 : Memref sig .tc .vmem S128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S64x128 .f32) (harg6 : arg6.IsWhole)
    (x0 : Vec F S64x640 .f32) (x1 : Vec F S640x128 .f32) (x2 x3 x4 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__dense_ln_kernel i arg1 harg1 arg2 harg2 arg3 harg3 arg4 harg4 arg5 harg5 arg6 harg6) K := by
  simp only [cc1__dense_ln_kernel_eq_skeleton]; unfold cc1__dense_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the second pipeline on core c: the arrays as the region finds them; after the body each
    input's buffer at its block and the output's at out1_5 of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by first | rfl | (dsimp only [dat1]; rfl)
theorem after1_1 (c : Dev nD) (t : Fin cfg1.N) : (dat1 V c).after 1 t = iblk1 V c 1 t := by first | rfl | (dsimp only [dat1]; rfl)
theorem after1_2 (c : Dev nD) (t : Fin cfg1.N) : (dat1 V c).after 2 t = iblk1 V c 2 t := by first | rfl | (dsimp only [dat1]; rfl)
theorem after1_3 (c : Dev nD) (t : Fin cfg1.N) : (dat1 V c).after 3 t = iblk1 V c 3 t := by first | rfl | (dsimp only [dat1]; rfl)
theorem after1_4 (c : Dev nD) (t : Fin cfg1.N) : (dat1 V c).after 4 t = iblk1 V c 4 t := by first | rfl | (dsimp only [dat1]; rfl)
theorem after1_5 (c : Dev nD) (t : Fin cfg1.N) :
    (dat1 V c).after 5 t = out1_5 (iblk1 V c 0 t) (iblk1 V c 1 t) (iblk1 V c 2 t) (iblk1 V c 3 t) (iblk1 V c 4 t) := by first | rfl | (dsimp only [dat1]; rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.RunDefs.lean ====
/-
  The run of the whole program: the first kernel region, the reshape of its result on the host, the second kernel
  region, the broadcast of its result on the host. The contents of every unscoped buffer are named at each boundary
  as a fold from the launch memory: a host stretch applies its operations; a region leaves each of its arrays at what
  its write-backs leave (the inputs as entered, the output's blocks folded) and every other buffer as entered. The
  launch over these four segments ends with every unscoped buffer at the last fold, from which each argument array
  reads back as launched.
-/
import proofs.«424035_j13434657702538_1_alg».proof.Proof.Frame0
import proofs.«424035_j13434657702538_1_alg».proof.Proof.Frame1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable [Cert.KernelIdeal.Facts]
variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch (the first region's entry). -/
abbrev W0 : Dev nD → Valuation τ sig (Elt F) := fun c b => (s₀ m ρ).mem ((c : Dev nD), b)
/-- The same read at the TensorCore's references. -/
abbrev V1 : (c : Dev nD) → (b : Ref sig .tc) → Buf (Elt F) ((c : Thread nD τ).loc b) := fun c b => W0 m ρ c b

/-- The table of start words as the first region finds it (there is one device). -/
def tbl : pre0.Contents (Elt F) := fun k => V1 m ρ (0 : Dev nD) (pre0.ref k)
theorem V1_pre (c : Dev nD) (k : Fin 1) : V1 m ρ c (pre0.ref k) = tbl m ρ k := by
  obtain rfl : c = 0 := Subsingleton.elim _ _; rfl

/-- At the first region's exit: its arrays at what the pipeline leaves, every other buffer as entered. -/
def W2 (c : Dev nD) : Valuation τ sig (Elt F) :=
  Pipeline.withArrays spec0 c (W0 m ρ c) fun w => (dat0 (V1 m ρ) (tbl m ρ) c).arrAt w (cfgM (tbl m ρ)).N
theorem W2_arr (c : Dev nD) (w : Fin (cfgM (tbl m ρ)).W) :
    W2 m ρ c (Proc.devRef .tc (Pipeline.arrRef spec0 w)) = (dat0 (V1 m ρ) (tbl m ρ) c).arrAt w (cfgM (tbl m ρ)).N := by
  unfold W2; exact Pipeline.withArrays_arr spec0 winFacts0.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin (cfgM (tbl m ρ)).W) :
    (dat0 (V1 m ρ) (tbl m ρ) c).arrAt w (cfgM (tbl m ρ)).N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 winFacts1.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the broadcast: the end. -/
abbrev W5 : Dev nD → Valuation τ sig (Elt F) := fun c => StableHlo.after hostOps2 (W4 m ρ c)

/-! ## The proof data family and the thread state -/

/-- The tables' admissible contents: the first pipeline's table as found, the second has none. -/
abbrev adm : (p : Fin 2) → (pcfgs (F := F) p).Adm
  | ⟨0, _⟩ => adm0 (tbl m ρ)
  | ⟨1, _⟩ => cfg1.toPCfg_adm
/-- Every pipeline's proof data, each at its region's entry contents. -/
def pdats : (p : Fin 2) → (c : Dev nD) → Dat τ (Elt F) Unit ℕ (UR sig nD τ) ℕ (Pipeline.pin (pcfgs (F := F)) (adm m ρ) p) c
  | ⟨0, _⟩ => fun c => dat0 (V1 m ρ) (tbl m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m ρ c) ∗ ∃ r, prngReg c r)

end Cert.KernelIdeal.Hand

end
-- ==== Proof.Run.lean ====
/-
  The launch of the whole program over its four segments. Each kernel region is entered from every unscoped buffer
  held at the boundary's contents: its arrays are split out of them and put back at the exit contents; the first
  region's table of start words is split out as well, lent to the body through the region's invariant, and put
  back unchanged; the generator register goes into the invariant and out; nothing is owed. The last thread state,
  read against the final memory, has every unscoped buffer at the last boundary's contents.
-/
import proofs.«424035_j13434657702538_1_alg».proof.Proof.RunDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable [Cert.KernelIdeal.Facts]
variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The regions as segments -/

set_option backward.isDefEq.respectTransparency.types false in
/-- The first region over the thread state: entered from every unscoped buffer at the launch contents, left at W2. -/
def reg0 : Pipeline.RegionSeg (pcfgs (F := F)) (adm m ρ) (pdats m ρ) () defs₀ 𝒱₀ L lv 0 where
  win := winFacts0.to₀
  block_pos := block_pos0
  stage_whole := stage_whole0
  K := PEmpty
  osem k := k.elim
  ho := Pipeline.OwnSemFacts.none _
  hbody c := (body_obligation0 (V1 m ρ) (tbl m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop((∃ r, prngReg c r) ∗ tbPt0 c (tbl m ρ 0))
  Z c := Pipeline.unscopedRestP (Ix := Unit) (Name := ℕ) (U := UR sig nD τ) (Lvl := ℕ) pre0 spec0 c (V1 m ρ c)
  hentry c := by
    rw [Pipeline.ownSems0_none]
    have hsplit0 := Pipeline.arrays_of_unscopedBufs (p := 0) (pcfgs (F := F)) (adm m ρ) (pdats m ρ) winFacts0 arr_whole0 c
      ((pdats m ρ 0 c).share_full fun _ => rfl) (V1 m ρ c) fun _ => rfl
    rw [Pipeline.unscopedBufs_held] at hsplit0
    have hsplit : StableHlo.held (c : Thread nD τ) (Pipeline.ucRefs τ sig) (W0 m ρ c)
        ⊢ (iprop((pdats m ρ 0 c).arrays ((pdats m ρ 0 c).arrAt · 0) ∗ Pipeline.prefHeld pre0 c (fun _ => fullShare) (tbl m ρ)
            ∗ Pipeline.unscopedRestP pre0 spec0 c (V1 m ρ c)) : sProp 𝕄) := by
      have e := Pipeline.unscopedRest_split (Ix := Unit) (Name := ℕ) (U := UR sig nD τ) (Lvl := ℕ) preFacts0 c (V1 m ρ c)
      rw [show (fun k => V1 m ρ c (pre0.ref k)) = tbl m ρ from funext (V1_pre m ρ c)] at e
      rw [← e]; exact hsplit0
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = iprop(Pipeline.ΦA spec0 c ∗ tbPt0 c (tbl m ρ 0)) from rfl]; unfold Pipeline.ΦA
    show (iprop((∃ r, prngReg c r) ∗ Pipeline.prefHeld pre0 c (fun _ => fullShare) (tbl m ρ) ∗ Pipeline.scopedRest spec0 c) : sProp 𝕄) ⊢ _
    rw [prefHeld0_eq]
    iintro ⟨Hp, Ht, Hr⟩
    isplitl [Hr Hp]
    · isplitl [Hr]; · iexact Hr
      iexact Hp
    iexact Ht
  hout c := by
    rw [Pipeline.ownSems0_none, show (pdats m ρ 0 c).Φ (Fin.last _) = iprop(Pipeline.ΦA spec0 c ∗ tbPt0 c (tbl m ρ 0)) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) (adm m ρ) (Ix := Unit) (Name := ℕ) (U := UR sig nD τ) (Lvl := ℕ)
      winFacts0 arr_whole0 c (pdats m ρ) ((pdats m ρ 0 c).share_full fun _ => rfl)
      (V1 m ρ c) (V2 m ρ c) ((pdats m ρ 0 c).arrAt · (cfgM (tbl m ρ)).N) (hF0 m ρ c) (hrest0 m ρ c)
    rw [Pipeline.unscopedBufs_held] at hjoin
    have hjoin' : (iprop((pdats m ρ 0 c).arrays ((pdats m ρ 0 c).arrAt · (cfgM (tbl m ρ)).N) ∗ tbPt0 c (tbl m ρ 0)
          ∗ Pipeline.unscopedRestP pre0 spec0 c (V1 m ρ c)) : sProp 𝕄)
        ⊢ StableHlo.held (c : Thread nD τ) (Pipeline.ucRefs τ sig) (W2 m ρ c) := by
      have e := Pipeline.unscopedRest_split (Ix := Unit) (Name := ℕ) (U := UR sig nD τ) (Lvl := ℕ) preFacts0 c (V1 m ρ c)
      rw [show (fun k => V1 m ρ c (pre0.ref k)) = tbl m ρ from funext (V1_pre m ρ c), prefHeld0_eq] at e
      rw [← e]; exact hjoin
    iintro ⟨Ha, HO, ⟨HY, Ht⟩, Hrest⟩
    imodintro
    isplitl [Ha Ht Hrest]
    · iapply hjoin'
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at W3, left at W4. -/
def reg1 : Pipeline.RegionSeg (pcfgs (F := F)) (adm m ρ) (pdats m ρ) () defs₀ 𝒱₀ L lv 1 where
  win := winFacts1.to₀
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) (adm m ρ) (pdats m ρ) winFacts1 arr_whole1 c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m ρ) (Ix := Unit) (Name := ℕ) (U := UR sig nD τ) (Lvl := ℕ)
      winFacts1 arr_whole1 c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) (adm m ρ) (pdats m ρ) () defs₀ 𝒱₀ L lv) :=
  [ .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final memory holds every unscoped buffer at the last boundary's contents W5. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) (adm m ρ) (pdats m ρ) () (cellOf_inj (adm m ρ)) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ)) (cellOf_inj (adm m ρ))) (Pipeline.launchToks (Pipeline.pin (pcfgs (F := F)) (adm m ρ)) (cellOf_inj (adm m ρ))))
    (hu₀ := by
      iintro Hu; imodintro
      isplitl [Hu]
      · iapply (show (ownU (initOf (Pipeline.cells (Pipeline.pin (pcfgs (F := F)) (adm m ρ)) (cellOf_inj (adm m ρ))) (Pipeline.launchToks (Pipeline.pin (pcfgs (F := F)) (adm m ρ)) (cellOf_inj (adm m ρ)))) : sProp 𝕄)
            ⊢ BI.own (emb₁ (initOf (Pipeline.cells (Pipeline.pin (pcfgs (F := F)) (adm m ρ)) (cellOf_inj (adm m ρ))) (Pipeline.launchToks (Pipeline.pin (pcfgs (F := F)) (adm m ρ)) (cellOf_inj (adm m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W5 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.RunArgs.lean ====
/-
  No segment of the run writes an argument array, so at the end each argument's buffer holds its launch contents.

  The end contents are a fold from the launch memory through four segments: the first region, the reshape on the
  host, the second region, the broadcast on the host. A host operation writes only its result, which is no argument.
  A region leaves every buffer that is none of its arrays as entered, and an array it only reads (an input window)
  is never written back, so it too is left as entered. Walking the fold back segment by segment at an argument's
  buffer therefore reaches the launch memory.
-/
import proofs.«424035_j13434657702538_1_alg».proof.Proof.RunDefs
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable [Cert.KernelIdeal.Facts]
variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## One segment back at a buffer -/

/-- The broadcast writes only its result: any other buffer is after it as before it. -/
private theorem W5_of_ne (c : Dev nD) (b : Ref sig .tc) (hb : b ≠ main_v3) :
    W5 m ρ c (Proc.devRef .tc b) = W4 m ρ c (Proc.devRef .tc b) :=
  StableHlo.after_of_forall_not_mem (b := Proc.devRef .tc b) _ _ (List.forall_iff_forall_mem.mp (by
    simp only [hostOps2, List.Forall, StableHlo.unary_writes, Finset.mem_singleton]
    exact StableHlo.devRef_ne_of_ne hb))

/-- The reshape writes only its result: any other buffer is after it as before it. -/
private theorem W3_of_ne (c : Dev nD) (b : Ref sig .tc) (hb : b ≠ main_v1) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- An input window's array of the second region leaves the region as it entered. -/
private theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-- An input window's array of the first region leaves the region as it entered. -/
private theorem W2_in (c : Dev nD) (w : Fin (cfgM (tbl m ρ)).W) (hin : ((cfgM (tbl m ρ)).win w).isOut = false) :
    W2 m ρ c (Proc.devRef .tc (Pipeline.arrRef spec0 w)) = W0 m ρ c (Proc.devRef .tc (Pipeline.arrRef spec0 w)) :=
  (W2_arr m ρ c w).trans (((dat0 (V1 m ρ) (tbl m ρ) c).arrAt_in w hin _).trans (A_eq0 (V1 m ρ) (tbl m ρ) c w))

/-! ## The arguments end as launched -/

/-- The array of rows: the first region reads it through its input window; the second region does not touch it. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W0 m ρ c (Proc.devRef .tc main_arg0) := W2_in m ρ c 0 rfl
    _ = m ((c : Thread nD τ).loc main_arg0) := rfl

/-- The start words: held beside the first region as its table, an array of no region. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W0 m ρ c (Proc.devRef .tc main_arg1) := W2_of_ne m ρ c main_arg1 (by decide)
    _ = m ((c : Thread nD τ).loc main_arg1) := rfl

/-- The weight: the second region reads it through an input window; the first region does not touch it. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_in m ρ c 1 rfl
    _ = W2 m ρ c (Proc.devRef .tc main_arg2) := W3_of_ne m ρ c main_arg2 (by decide)
    _ = W0 m ρ c (Proc.devRef .tc main_arg2) := W2_of_ne m ρ c main_arg2 (by decide)
    _ = m ((c : Thread nD τ).loc main_arg2) := rfl

/-- The bias: likewise. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_in m ρ c 2 rfl
    _ = W2 m ρ c (Proc.devRef .tc main_arg3) := W3_of_ne m ρ c main_arg3 (by decide)
    _ = W0 m ρ c (Proc.devRef .tc main_arg3) := W2_of_ne m ρ c main_arg3 (by decide)
    _ = m ((c : Thread nD τ).loc main_arg3) := rfl

/-- The scale: likewise. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_in m ρ c 3 rfl
    _ = W2 m ρ c (Proc.devRef .tc main_arg4) := W3_of_ne m ρ c main_arg4 (by decide)
    _ = W0 m ρ c (Proc.devRef .tc main_arg4) := W2_of_ne m ρ c main_arg4 (by decide)
    _ = m ((c : Thread nD τ).loc main_arg4) := rfl

/-- The shift: likewise. -/
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_in m ρ c 4 rfl
    _ = W2 m ρ c (Proc.devRef .tc main_arg5) := W3_of_ne m ρ c main_arg5 (by decide)
    _ = W0 m ρ c (Proc.devRef .tc main_arg5) := W2_of_ne m ρ c main_arg5 (by decide)
    _ = m ((c : Thread nD τ).loc main_arg5) := rfl

end Cert.KernelIdeal.Hand

end
-- ==== Proof.BFrame0.lean ====
/-
  The first kernel region (row selection by a masked maximum, and the mean over rows) as a pipeline over the 64
  batch rows, stated at the contents V the region finds in the core's buffers and at the contents tb of the
  prefetched table of start words. At a grid point the body loads the point's [1, 10000, 128] input block and the
  four start words of that batch row from the table, and stores five rows that tile the [1, 5, 128] output block:
  so the output window's buffer holds, after the body, those five stored rows, each a function of the input block
  and of one start word. The table is held whole beside the region's invariant: the body only reads it.
-/
import proofs.«424035_j13434657702538_1_alg».proof.Proof.Gen.Kernel.Launch
import proofs.«424035_j13434657702538_1_alg».proof.Proof.Gen.Kernel.Skeleton
import proofs.«424035_j13434657702538_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable [Cert.Kernel.Facts]
variable {F : FTy → Type} [FloatOps F]

local notation "𝕄" => MT nD τ sig Unit (Elt F) ℕ (UR sig nD τ) ℕ

variable (V : (c : Dev nD) → (b : Ref sig .tc) → Buf (Elt F) ((c : Thread nD τ).loc b)) (tb : pre0.Contents (Elt F))

/-! ## The pipeline at the table's contents -/

/-- The table's contents as admissible contents: no index map reads the table, so the pipeline asks nothing of it. -/
abbrev adm0 : (pcfg0 (F := F)).Adm := ⟨tb, (ok0.eq_1 tb).mpr trivial⟩
abbrev cfgM : Pipeline.Cfg sig Λ₀ := cfg0 (adm0 tb)

/-- Window w's block at point t, read off its array as the region finds it. -/
def iblk0 (c : Dev nD) (w : Fin (cfgM tb).W) (t : Fin (cfgM tb).N) : (((cfgM tb).win w).xblock ((cfgM tb).grid.coords t)).Idx → Elt F ((cfgM tb).win w).elt :=
  (((cfgM tb).win w).blk t).view.read (Elt F) (V c (Pipeline.arrRef spec0 w))

/-- The input window's staging buffer holds its block at every point, fetched there or not, for any proof data
    whose array is V's and whose body leaves the block in place. -/
theorem before0_0_of {c : Dev nD} (dat : Dat τ (Elt F) Unit ℕ (UR sig nD τ) ℕ (cfgM tb) c) (hA : dat.A 0 = V c (Pipeline.arrRef spec0 0))
    (hafter : ∀ t, dat.after 0 t = iblk0 V tb c 0 t) (t : Fin (cfgM tb).N) (d) : dat.before 0 t d = iblk0 V tb c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The table as the body is handed it -/

abbrev tbM0 : Memref sig .tc .smem S64x4 .i32 := Memref.whole main_arg1
abbrev htbM0 : tbM0.IsWhole := Memref.isWhole_whole _
abbrev TbBuf0 (c : Dev nD) : Type := Buf (Elt F) (tbM0.view.loc (c : Thread nD τ))
/-- The table's buffer on core c, held whole at f. -/
abbrev tbPt0 (c : Dev nD) (f : TbBuf0 (F := F) c) : sProp 𝕄 :=
  tbM0.view.loc (c : Thread nD τ) ↦{fullShare} f

/-- The region's holding of its one table is that buffer held. -/
theorem prefHeld0_eq (c : Dev nD) : (Pipeline.prefHeld (Ix := Unit) (Name := ℕ) (U := UR sig nD τ) (Lvl := ℕ) pre0 c (fun _ => fullShare) tb : sProp 𝕄) = tbPt0 c (tb 0) := by
  unfold Pipeline.prefHeld
  rw [show (Finset.univ : Finset (Fin 1)) = {(0 : Fin 1)} from by decide, bigSep_singleton]
  rfl

/-- The start word the body loads from the table at offsets off. -/
abbrev word0 (c : Dev nD) (tb0 : TbBuf0 (F := F) c) (off : Fin 2 → Nat) (h : ∀ a, off a + S1x1.size a ≤ S64x4.size a) : Elt F .i32 :=
  tbM0.view.readAt (Elt F) (Rect.unit (s := S64x4) off S1x1.size h).toLoadRect tb0 (Shape.Idx.first (Facts₀.numel1_S1x1.symm ▸ Nat.one_pos))

/-! ## The body's accesses and what it leaves in the output window's buffer -/

abbrev rIn0 : Rect S1x10000x128 := Rect.unit (s := S1x10000x128) ![0, 0, 0] S1x10000x128.size Facts₀.inb_S1x10000x128_S1x10000x128_0_0_0
abbrev rRow0 : Rect S1x5x128 := Rect.unit (s := S1x5x128) ![0, 0, 0] S1x1x128.size Facts₀.inb_S1x5x128_S1x1x128_0_0_0
abbrev rRow1 : Rect S1x5x128 := Rect.unit (s := S1x5x128) ![0, 1, 0] S1x1x128.size Facts₀.inb_S1x5x128_S1x1x128_0_1_0
abbrev rRow2 : Rect S1x5x128 := Rect.unit (s := S1x5x128) ![0, 2, 0] S1x1x128.size Facts₀.inb_S1x5x128_S1x1x128_0_2_0
abbrev rRow3 : Rect S1x5x128 := Rect.unit (s := S1x5x128) ![0, 3, 0] S1x1x128.size Facts₀.inb_S1x5x128_S1x1x128_0_3_0
abbrev rRow4 : Rect S1x5x128 := Rect.unit (s := S1x5x128) ![0, 4, 0] S1x1x128.size Facts₀.inb_S1x5x128_S1x1x128_0_4_0

/-- The five stored rows, LAST FIRST: the mean row, then the rows selected by the fourth … first start word. -/
def pieces0 (c : Dev nD) (i : grid0.Coords) (x0 : Vec F S1x10000x128 .f32) (tb0 : TbBuf0 (F := F) c) : List (View.Piece (Elt F) S1x5x128 .f32) :=
  [⟨rRow4, k0_pay3 (k0_pay5 (View.ld x0 rIn0))⟩,
   ⟨rRow3, k0_pay2 (k0_pay4 (View.ld x0 rIn0)) (iota .tc S10000x1 32 [0] Facts₀.iota_S10000x1_d0_w32) (word0 c tb0 (k0_off4 i) (Facts₀.k0_off4_inb i))⟩,
   ⟨rRow2, k0_pay1 (k0_pay8 (View.ld x0 rIn0) (word0 c tb0 (k0_off3 i) (Facts₀.k0_off3_inb i)))⟩,
   ⟨rRow1, k0_pay7 (View.ld x0 rIn0) (word0 c tb0 (k0_off2 i) (Facts₀.k0_off2_inb i))⟩,
   ⟨rRow0, k0_pay6 (View.ld x0 rIn0) (word0 c tb0 (k0_off1 i) (Facts₀.k0_off1_inb i))⟩]

/-- The output window's buffer after the body. -/
def out0_1 (c : Dev nD) (i : grid0.Coords) (x0 : Vec F S1x10000x128 .f32) (tb0 : TbBuf0 (F := F) c) : Vec F S1x5x128 .f32 :=
  View.canon (pieces0 c i x0 tb0)

/-- The five rows tile the block, so they cover it. -/
theorem cover0_1 (p0 p1 p2 p3 p4 : Vec F S1x1x128 .f32) (y : S1x5x128.Idx) :
    ∃ pc ∈ ([⟨rRow4, p4⟩, ⟨rRow3, p3⟩, ⟨rRow2, p2⟩, ⟨rRow1, p1⟩, ⟨rRow0, p0⟩] : List (View.Piece (Elt F) S1x5x128 .f32)), y ∈ pc.1.set :=
  View.cover_of_tiled [⟨rRow4, p4⟩, ⟨rRow3, p3⟩, ⟨rRow2, p2⟩, ⟨rRow1, p1⟩, ⟨rRow0, p0⟩] S1x1x128.size (by rfl) y

/-! ## The body's triple -/

set_option maxHeartbeats 2000000 in
/-- The body on whole staging memrefs, the input's at contents x0, the output's at anything and the table held at tb0,
    runs to the continuation holding the input and the table as they were and the output at out0_1. -/
theorem sound_kernel0 (c : Dev nD) (E : Set ℕ) (i : grid0.Coords)
    (arg2 : Memref sig .tc .vmem S1x10000x128 .f32) (harg2 : arg2.IsWhole) (arg3 : Memref sig .tc .vmem S1x5x128 .f32) (harg3 : arg3.IsWhole)
    (tb0 : TbBuf0 (F := F) c) (x0 : Vec F S1x10000x128 .f32) (K : PUnit → sProp 𝕄) :
    iprop(tbPt0 c tb0 ∗ owns (c : Thread nD τ) arg2 fullShare x0 ∗ (∃ d, owns (c : Thread nD τ) arg3 fullShare d)
        ∗ (iprop(tbPt0 c tb0 ∗ owns (c : Thread nD τ) arg2 fullShare x0 ∗ owns (c : Thread nD τ) arg3 fullShare (out0_1 c i x0 tb0)) -∗ K ⟨⟩))
      ⊢ wp frame (wpE (defs₀ (F := F)) Variants.none c none) E (cc0__gather_mean_kernel i tbM0 htbM0 arg2 harg2 arg3 harg3) K := by
  simp only [cc0__gather_mean_kernel_eq_skeleton]; unfold cc0__gather_mean_kernel_skel
  unfold owns tbPt0
  iintro ⟨Ht, ⟨%f0, %hf0, H0⟩, ⟨%d1, %f1, -, H1⟩, Hk⟩
  subst hf0
  sl_exec
  sl_unfold_words
  sl_step
  iapply Hk
  isplitl [Ht]; · iexact Ht
  isplitl [H0]
  · iexists f0; isplitr; · ipureintro; rfl
    iexact H0
  iexists _; isplitr
  swap; · iexact H1
  ipureintro
  exact View.read_writes_eq_canon _ _ _ (cover0_1 _ _ _ _ _)

/-! ## The pipeline's proof data -/

/-- The staging memrefs at point t, as the pipeline passes them to the body, and their wholeness. -/
abbrev ms0_0 (t : Fin (cfgM tb).N) : Memref sig .tc .vmem S1x10000x128 .f32 := spec0_0.stage ((cfgM tb).slots t 0)
abbrev hs0_0 (t : Fin (cfgM tb).N) : (ms0_0 tb t).IsWhole := Facts₀.hstage0_0 (((cfgM tb).slots t 0).cast Facts₀.nbuf0_0)
abbrev ms0_1 (t : Fin (cfgM tb).N) : Memref sig .tc .vmem S1x5x128 .f32 := spec0_1.stage ((cfgM tb).slots t 1)
abbrev hs0_1 (t : Fin (cfgM tb).N) : (ms0_1 tb t).IsWhole := Facts₀.hstage0_1 (((cfgM tb).slots t 1).cast Facts₀.nbuf0_1)
/-- The body at point t, on what the pipeline calls it with. -/
abbrev bodyAt0 (t : Fin (cfgM tb).N) : Prog (TpuEff nD τ sig (Elt F) Λ₀ .tc) PUnit :=
  cc0__gather_mean_kernel (grid0.coords t) tbM0 htbM0 (ms0_0 tb t) (hs0_0 tb t) (ms0_1 tb t) (hs0_1 tb t)

/-- The proof data of the first pipeline on core c: the arrays as the region finds them; after the body at point t
    the input's buffer at its block and the output's at out0_1 of that block and the table; the invariant the scoped
    rest, the generator register and the table held whole; nothing owed; full shares. -/
def dat0 (c : Dev nD) : Dat τ (Elt F) Unit ℕ (UR sig nD τ) ℕ (cfgM tb) c where
  A w := V c (Pipeline.arrRef spec0 w)
  after w t := match w with
    | ⟨0, _⟩ => iblk0 V tb c 0 t
    | ⟨1, _⟩ => out0_1 c (grid0.coords t) (iblk0 V tb c 0 t) (tb 0)
  Φ _ := iprop(Pipeline.ΦA spec0 c ∗ tbPt0 c (tb 0))
  q _ := fullShare
  owed _ := 0

theorem A_eq0 (c : Dev nD) (w : Fin (cfgM tb).W) : (dat0 V tb c).A w = V c (Pipeline.arrRef spec0 w) := by
  dsimp only [dat0]

theorem after0_0 (c : Dev nD) (t : Fin (cfgM tb).N) : (dat0 V tb c).after 0 t = iblk0 V tb c 0 t := by
  first | rfl | (dsimp only [dat0]; rfl)
theorem after0_1 (c : Dev nD) (t : Fin (cfgM tb).N) :
    (dat0 V tb c).after 1 t = out0_1 c (grid0.coords t) (iblk0 V tb c 0 t) (tb 0) := by
  first | rfl | (dsimp only [dat0]; rfl)

theorem before0_0 (c : Dev nD) (t : Fin (cfgM tb).N) (d) : (dat0 V tb c).before 0 t d = iblk0 V tb c 0 t :=
  before0_0_of V tb (dat0 V tb c) (A_eq0 V tb c 0) (after0_0 V tb c) t d

/-! ## The body obligation -/

/-- What the body is called with at point t, the windows one by one, -/
def bodyPre0 (c : Dev nD) (t : Fin (cfgM tb).N) : sProp 𝕄 :=
  iprop((dat0 V tb c).Φ t.castSucc ∗ (dat0 V tb c).owesAt () t.castSucc
    ∗ (∃ d, owns (c : Thread nD τ) (ms0_0 tb t) fullShare ((dat0 V tb c).before 0 t d))
    ∗ (∃ d, owns (c : Thread nD τ) (ms0_1 tb t) fullShare ((dat0 V tb c).before 1 t d)))

/-- and what it returns. -/
def bodyPost0 (c : Dev nD) (t : Fin (cfgM tb).N) : sProp 𝕄 :=
  iprop((dat0 V tb c).Φ t.succ ∗ (dat0 V tb c).owesAt () t.succ
    ∗ owns (c : Thread nD τ) (ms0_0 tb t) fullShare ((dat0 V tb c).after 0 t)
    ∗ owns (c : Thread nD τ) (ms0_1 tb t) fullShare ((dat0 V tb c).after 1 t))

/-- The body at any point: the input's memref holds its block and the invariant holds the table, so the body's
    triple applies; the rest of the invariant and the core's dues pass through unread. -/
theorem sound_body0 (c : Dev nD) (t : Fin (cfgM tb).N) :
    bodyPre0 V tb c t ⊢ wp frame (wpE (defs₀ (F := F)) Variants.none c none) Set.univ (bodyAt0 tb t) (fun _ => bodyPost0 V tb c t) := by
  unfold bodyPre0 bodyPost0 bodyAt0
  simp only [before0_0]
  rw [show (dat0 V tb c).Φ t.succ = (dat0 V tb c).Φ t.castSucc from rfl,
    show (dat0 V tb c).owesAt () t.succ = (dat0 V tb c).owesAt () t.castSucc from rfl,
    after0_0, after0_1]
  rw [show (dat0 V tb c).Φ t.castSucc = iprop(Pipeline.ΦA spec0 c ∗ tbPt0 c (tb 0)) from rfl]
  iintro ⟨⟨HΦ, HT⟩, Ho, ⟨%d0, H0⟩, ⟨%d1, H1⟩⟩
  iapply (sound_kernel0 c Set.univ (grid0.coords t) _ _ _ _ (tb 0) (iblk0 V tb c 0 t) _)
  isplitl [HT]; · iexact HT
  isplitl [H0]; · iexact H0
  isplitl [H1]; · iexists _; iexact H1
  iintro ⟨HT, H0, H1⟩
  isplitl [HΦ HT]
  · isplitl [HΦ]; · iexact HΦ
    iexact HT
  isplitl [Ho]; · iexact Ho
  isplitl [H0]; · iexact H0
  iexact H1

/-- The library's body obligation, at every point. -/
theorem body_obligation0 (c : Dev nD) : BodyObligation (dat0 (F := F) V tb c) (defs₀ (F := F)) Variants.none () Set.univ := fun t => by
  rw [bigSep_W0, bigSep_W0]
  exact sound_body0 V tb c t

end Cert.Kernel.Hand

end
-- ==== Proof.BFrame1.lean ====
/-
  The second kernel region (dense layer, clipping at zero, row normalisation) as a pipeline of one grid point,
  stated at the contents V the region finds in the core's buffers. Each input window's block is its whole
  array; the body loads the five input blocks and stores ONE value over the whole output block, so the output
  window's buffer holds, after the body, that value: the body's arithmetic of the five blocks.
-/
import proofs.«424035_j13434657702538_1_alg».proof.Proof.Gen.Kernel.Launch
import proofs.«424035_j13434657702538_1_alg».proof.Proof.Gen.Kernel.Skeleton
import proofs.«424035_j13434657702538_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable [Cert.Kernel.Facts]
variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not, for any proof data
    whose array is V's and whose body leaves the block in place: one statement per input window. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the output window's buffer -/

abbrev rX1 : Rect S64x640 := Rect.unit (s := S64x640) ![0, 0] S64x640.size Facts₀.inb_S64x640_S64x640_0_0
abbrev rW1 : Rect S640x128 := Rect.unit (s := S640x128) ![0, 0] S640x128.size Facts₀.inb_S640x128_S640x128_0_0
abbrev rV1 : Rect S128 := Rect.unit (s := S128) ![0] S128.size Facts₀.inb_S128_S128_0
abbrev rO1 : Rect S64x128 := Rect.unit (s := S64x128) ![0, 0] S64x128.size Facts₀.inb_S64x128_S64x128_0_0

/-- The output window's buffer after the body, from the five input blocks: its one store as a piece. -/
def out1_5 (x0 : Vec F S64x640 .f32) (x1 : Vec F S640x128 .f32) (x2 x3 x4 : Vec F S128 .f32) : Vec F S64x128 .f32 :=
  View.canon [⟨rO1, k1_pay1 (View.ld x0 rX1) (View.ld x1 rW1) (View.ld x2 rV1) (View.ld x3 rV1) (View.ld x4 rV1)⟩]

/-- The one store covers the buffer. -/
theorem cover1_5 (p0 : Vec F S64x128 .f32) (y : S64x128.Idx) :
    ∃ pc ∈ ([⟨rO1, p0⟩] : List (View.Piece (Elt F) S64x128 .f32)), y ∈ pc.1.set :=
  View.cover_of_tiled [⟨rO1, p0⟩] S64x128.size (by rfl) y

/-! ## The body's triple -/

set_option maxHeartbeats 1000000 in
/-- The body on whole staging memrefs, the inputs' at contents x0 … x4 and the output's at anything, runs to the
    continuation holding the inputs as they were and the output at out1_5 of them. -/
theorem sound_kernel1 (c : Dev nD) (E : Set ℕ) (i : grid1.Coords)
    (arg1 : Memref sig .tc .vmem S64x640 .f32) (harg1 : arg1.IsWhole) (arg2 : Memref sig .tc .vmem S640x128 .f32) (harg2 : arg2.IsWhole)
    (arg3 : Memref sig .tc .vmem S128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S64x128 .f32) (harg6 : arg6.IsWhole)
    (x0 : Vec F S64x640 .f32) (x1 : Vec F S640x128 .f32) (x2 x3 x4 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__dense_ln_kernel i arg1 harg1 arg2 harg2 arg3 harg3 arg4 harg4 arg5 harg5 arg6 harg6) K := by
  simp only [cc1__dense_ln_kernel_eq_skeleton]; unfold cc1__dense_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the second pipeline on core c: the arrays as the region finds them; after the body each
    input's buffer at its block and the output's at out1_5 of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by first | rfl | (dsimp only [dat1]; rfl)
theorem after1_1 (c : Dev nD) (t : Fin cfg1.N) : (dat1 V c).after 1 t = iblk1 V c 1 t := by first | rfl | (dsimp only [dat1]; rfl)
theorem after1_2 (c : Dev nD) (t : Fin cfg1.N) : (dat1 V c).after 2 t = iblk1 V c 2 t := by first | rfl | (dsimp only [dat1]; rfl)
theorem after1_3 (c : Dev nD) (t : Fin cfg1.N) : (dat1 V c).after 3 t = iblk1 V c 3 t := by first | rfl | (dsimp only [dat1]; rfl)
theorem after1_4 (c : Dev nD) (t : Fin cfg1.N) : (dat1 V c).after 4 t = iblk1 V c 4 t := by first | rfl | (dsimp only [dat1]; rfl)
theorem after1_5 (c : Dev nD) (t : Fin cfg1.N) :
    (dat1 V c).after 5 t = out1_5 (iblk1 V c 0 t) (iblk1 V c 1 t) (iblk1 V c 2 t) (iblk1 V c 3 t) (iblk1 V c 4 t) := by first | rfl | (dsimp only [dat1]; rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BRunDefs.lean ====
/-
  The run of the whole program: the first kernel region, the reshape of its result on the host, the second kernel
  region, the broadcast of its result on the host. The contents of every unscoped buffer are named at each boundary
  as a fold from the launch memory: a host stretch applies its operations; a region leaves each of its arrays at what
  its write-backs leave (the inputs as entered, the output's blocks folded) and every other buffer as entered. The
  launch over these four segments ends with every unscoped buffer at the last fold, from which each argument array
  reads back as launched.
-/
import proofs.«424035_j13434657702538_1_alg».proof.Proof.BFrame0
import proofs.«424035_j13434657702538_1_alg».proof.Proof.BFrame1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable [Cert.Kernel.Facts]
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch (the first region's entry). -/
abbrev W0 : Dev nD → Valuation τ sig (Elt F) := fun c b => (s₀ m ρ).mem ((c : Dev nD), b)
/-- The same read at the TensorCore's references. -/
abbrev V1 : (c : Dev nD) → (b : Ref sig .tc) → Buf (Elt F) ((c : Thread nD τ).loc b) := fun c b => W0 m ρ c b

/-- The table of start words as the first region finds it (there is one device). -/
def tbl : pre0.Contents (Elt F) := fun k => V1 m ρ (0 : Dev nD) (pre0.ref k)
theorem V1_pre (c : Dev nD) (k : Fin 1) : V1 m ρ c (pre0.ref k) = tbl m ρ k := by
  obtain rfl : c = 0 := Subsingleton.elim _ _; rfl

/-- At the first region's exit: its arrays at what the pipeline leaves, every other buffer as entered. -/
def W2 (c : Dev nD) : Valuation τ sig (Elt F) :=
  Pipeline.withArrays spec0 c (W0 m ρ c) fun w => (dat0 (V1 m ρ) (tbl m ρ) c).arrAt w (cfgM (tbl m ρ)).N
theorem W2_arr (c : Dev nD) (w : Fin (cfgM (tbl m ρ)).W) :
    W2 m ρ c (Proc.devRef .tc (Pipeline.arrRef spec0 w)) = (dat0 (V1 m ρ) (tbl m ρ) c).arrAt w (cfgM (tbl m ρ)).N := by
  unfold W2; exact Pipeline.withArrays_arr spec0 winFacts0.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin (cfgM (tbl m ρ)).W) :
    (dat0 (V1 m ρ) (tbl m ρ) c).arrAt w (cfgM (tbl m ρ)).N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 winFacts1.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the broadcast: the end. -/
abbrev W5 : Dev nD → Valuation τ sig (Elt F) := fun c => StableHlo.after hostOps2 (W4 m ρ c)

/-! ## The proof data family and the thread state -/

/-- The tables' admissible contents: the first pipeline's table as found, the second has none. -/
abbrev adm : (p : Fin 2) → (pcfgs (F := F) p).Adm
  | ⟨0, _⟩ => adm0 (tbl m ρ)
  | ⟨1, _⟩ => cfg1.toPCfg_adm
/-- Every pipeline's proof data, each at its region's entry contents. -/
def pdats : (p : Fin 2) → (c : Dev nD) → Dat τ (Elt F) Unit ℕ (UR sig nD τ) ℕ (Pipeline.pin (pcfgs (F := F)) (adm m ρ) p) c
  | ⟨0, _⟩ => fun c => dat0 (V1 m ρ) (tbl m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m ρ c) ∗ ∃ r, prngReg c r)

end Cert.Kernel.Hand

end
-- ==== Proof.BRun.lean ====
/-
  The launch of the whole program over its four segments. Each kernel region is entered from every unscoped buffer
  held at the boundary's contents: its arrays are split out of them and put back at the exit contents; the first
  region's table of start words is split out as well, lent to the body through the region's invariant, and put
  back unchanged; the generator register goes into the invariant and out; nothing is owed. The last thread state,
  read against the final memory, has every unscoped buffer at the last boundary's contents.
-/
import proofs.«424035_j13434657702538_1_alg».proof.Proof.BRunDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable [Cert.Kernel.Facts]
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

set_option backward.isDefEq.respectTransparency.types false in
/-- The first region over the thread state: entered from every unscoped buffer at the launch contents, left at W2. -/
def reg0 : Pipeline.RegionSeg (pcfgs (F := F)) (adm m ρ) (pdats m ρ) () defs₀ 𝒱₀ L lv 0 where
  win := winFacts0.to₀
  block_pos := block_pos0
  stage_whole := stage_whole0
  K := PEmpty
  osem k := k.elim
  ho := Pipeline.OwnSemFacts.none _
  hbody c := (body_obligation0 (V1 m ρ) (tbl m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop((∃ r, prngReg c r) ∗ tbPt0 c (tbl m ρ 0))
  Z c := Pipeline.unscopedRestP (Ix := Unit) (Name := ℕ) (U := UR sig nD τ) (Lvl := ℕ) pre0 spec0 c (V1 m ρ c)
  hentry c := by
    rw [Pipeline.ownSems0_none]
    have hsplit0 := Pipeline.arrays_of_unscopedBufs (p := 0) (pcfgs (F := F)) (adm m ρ) (pdats m ρ) winFacts0 arr_whole0 c
      ((pdats m ρ 0 c).share_full fun _ => rfl) (V1 m ρ c) fun _ => rfl
    rw [Pipeline.unscopedBufs_held] at hsplit0
    have hsplit : StableHlo.held (c : Thread nD τ) (Pipeline.ucRefs τ sig) (W0 m ρ c)
        ⊢ (iprop((pdats m ρ 0 c).arrays ((pdats m ρ 0 c).arrAt · 0) ∗ Pipeline.prefHeld pre0 c (fun _ => fullShare) (tbl m ρ)
            ∗ Pipeline.unscopedRestP pre0 spec0 c (V1 m ρ c)) : sProp 𝕄) := by
      have e := Pipeline.unscopedRest_split (Ix := Unit) (Name := ℕ) (U := UR sig nD τ) (Lvl := ℕ) preFacts0 c (V1 m ρ c)
      rw [show (fun k => V1 m ρ c (pre0.ref k)) = tbl m ρ from funext (V1_pre m ρ c)] at e
      rw [← e]; exact hsplit0
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = iprop(Pipeline.ΦA spec0 c ∗ tbPt0 c (tbl m ρ 0)) from rfl]; unfold Pipeline.ΦA
    show (iprop((∃ r, prngReg c r) ∗ Pipeline.prefHeld pre0 c (fun _ => fullShare) (tbl m ρ) ∗ Pipeline.scopedRest spec0 c) : sProp 𝕄) ⊢ _
    rw [prefHeld0_eq]
    iintro ⟨Hp, Ht, Hr⟩
    isplitl [Hr Hp]
    · isplitl [Hr]; · iexact Hr
      iexact Hp
    iexact Ht
  hout c := by
    rw [Pipeline.ownSems0_none, show (pdats m ρ 0 c).Φ (Fin.last _) = iprop(Pipeline.ΦA spec0 c ∗ tbPt0 c (tbl m ρ 0)) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) (adm m ρ) (Ix := Unit) (Name := ℕ) (U := UR sig nD τ) (Lvl := ℕ)
      winFacts0 arr_whole0 c (pdats m ρ) ((pdats m ρ 0 c).share_full fun _ => rfl)
      (V1 m ρ c) (V2 m ρ c) ((pdats m ρ 0 c).arrAt · (cfgM (tbl m ρ)).N) (hF0 m ρ c) (hrest0 m ρ c)
    rw [Pipeline.unscopedBufs_held] at hjoin
    have hjoin' : (iprop((pdats m ρ 0 c).arrays ((pdats m ρ 0 c).arrAt · (cfgM (tbl m ρ)).N) ∗ tbPt0 c (tbl m ρ 0)
          ∗ Pipeline.unscopedRestP pre0 spec0 c (V1 m ρ c)) : sProp 𝕄)
        ⊢ StableHlo.held (c : Thread nD τ) (Pipeline.ucRefs τ sig) (W2 m ρ c) := by
      have e := Pipeline.unscopedRest_split (Ix := Unit) (Name := ℕ) (U := UR sig nD τ) (Lvl := ℕ) preFacts0 c (V1 m ρ c)
      rw [show (fun k => V1 m ρ c (pre0.ref k)) = tbl m ρ from funext (V1_pre m ρ c), prefHeld0_eq] at e
      rw [← e]; exact hjoin
    iintro ⟨Ha, HO, ⟨HY, Ht⟩, Hrest⟩
    imodintro
    isplitl [Ha Ht Hrest]
    · iapply hjoin'
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at W3, left at W4. -/
def reg1 : Pipeline.RegionSeg (pcfgs (F := F)) (adm m ρ) (pdats m ρ) () defs₀ 𝒱₀ L lv 1 where
  win := winFacts1.to₀
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) (adm m ρ) (pdats m ρ) winFacts1 arr_whole1 c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m ρ) (Ix := Unit) (Name := ℕ) (U := UR sig nD τ) (Lvl := ℕ)
      winFacts1 arr_whole1 c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) (adm m ρ) (pdats m ρ) () defs₀ 𝒱₀ L lv) :=
  [ .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final memory holds every unscoped buffer at the last boundary's contents W5. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) (adm m ρ) (pdats m ρ) () (cellOf_inj (adm m ρ)) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ)) (cellOf_inj (adm m ρ))) (Pipeline.launchToks (Pipeline.pin (pcfgs (F := F)) (adm m ρ)) (cellOf_inj (adm m ρ))))
    (hu₀ := by
      iintro Hu; imodintro
      isplitl [Hu]
      · iapply (show (ownU (initOf (Pipeline.cells (Pipeline.pin (pcfgs (F := F)) (adm m ρ)) (cellOf_inj (adm m ρ))) (Pipeline.launchToks (Pipeline.pin (pcfgs (F := F)) (adm m ρ)) (cellOf_inj (adm m ρ)))) : sProp 𝕄)
            ⊢ BI.own (emb₁ (initOf (Pipeline.cells (Pipeline.pin (pcfgs (F := F)) (adm m ρ)) (cellOf_inj (adm m ρ))) (Pipeline.launchToks (Pipeline.pin (pcfgs (F := F)) (adm m ρ)) (cellOf_inj (adm m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W5 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Hand

end
-- ==== Proof.BRunArgs.lean ====
/-
  No segment of the run writes an argument array, so at the end each argument's buffer holds its launch contents.

  The end contents are a fold from the launch memory through four segments: the first region, the reshape on the
  host, the second region, the broadcast on the host. A host operation writes only its result, which is no argument.
  A region leaves every buffer that is none of its arrays as entered, and an array it only reads (an input window)
  is never written back, so it too is left as entered. Walking the fold back segment by segment at an argument's
  buffer therefore reaches the launch memory.
-/
import proofs.«424035_j13434657702538_1_alg».proof.Proof.BRunDefs
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable [Cert.Kernel.Facts]
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One segment back at a buffer -/

/-- The broadcast writes only its result: any other buffer is after it as before it. -/
private theorem W5_of_ne (c : Dev nD) (b : Ref sig .tc) (hb : b ≠ main_v3) :
    W5 m ρ c (Proc.devRef .tc b) = W4 m ρ c (Proc.devRef .tc b) :=
  StableHlo.after_of_forall_not_mem (b := Proc.devRef .tc b) _ _ (List.forall_iff_forall_mem.mp (by
    simp only [hostOps2, List.Forall, StableHlo.unary_writes, Finset.mem_singleton]
    exact StableHlo.devRef_ne_of_ne hb))

/-- The reshape writes only its result: any other buffer is after it as before it. -/
private theorem W3_of_ne (c : Dev nD) (b : Ref sig .tc) (hb : b ≠ main_v1) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- An input window's array of the second region leaves the region as it entered. -/
private theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-- An input window's array of the first region leaves the region as it entered. -/
private theorem W2_in (c : Dev nD) (w : Fin (cfgM (tbl m ρ)).W) (hin : ((cfgM (tbl m ρ)).win w).isOut = false) :
    W2 m ρ c (Proc.devRef .tc (Pipeline.arrRef spec0 w)) = W0 m ρ c (Proc.devRef .tc (Pipeline.arrRef spec0 w)) :=
  (W2_arr m ρ c w).trans (((dat0 (V1 m ρ) (tbl m ρ) c).arrAt_in w hin _).trans (A_eq0 (V1 m ρ) (tbl m ρ) c w))

/-! ## The arguments end as launched -/

/-- The array of rows: the first region reads it through its input window; the second region does not touch it. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W0 m ρ c (Proc.devRef .tc main_arg0) := W2_in m ρ c 0 rfl
    _ = m ((c : Thread nD τ).loc main_arg0) := rfl

/-- The start words: held beside the first region as its table, an array of no region. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W0 m ρ c (Proc.devRef .tc main_arg1) := W2_of_ne m ρ c main_arg1 (by decide)
    _ = m ((c : Thread nD τ).loc main_arg1) := rfl

/-- The weight: the second region reads it through an input window; the first region does not touch it. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_in m ρ c 1 rfl
    _ = W2 m ρ c (Proc.devRef .tc main_arg2) := W3_of_ne m ρ c main_arg2 (by decide)
    _ = W0 m ρ c (Proc.devRef .tc main_arg2) := W2_of_ne m ρ c main_arg2 (by decide)
    _ = m ((c : Thread nD τ).loc main_arg2) := rfl

/-- The bias: likewise. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_in m ρ c 2 rfl
    _ = W2 m ρ c (Proc.devRef .tc main_arg3) := W3_of_ne m ρ c main_arg3 (by decide)
    _ = W0 m ρ c (Proc.devRef .tc main_arg3) := W2_of_ne m ρ c main_arg3 (by decide)
    _ = m ((c : Thread nD τ).loc main_arg3) := rfl

/-- The scale: likewise. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_in m ρ c 3 rfl
    _ = W2 m ρ c (Proc.devRef .tc main_arg4) := W3_of_ne m ρ c main_arg4 (by decide)
    _ = W0 m ρ c (Proc.devRef .tc main_arg4) := W2_of_ne m ρ c main_arg4 (by decide)
    _ = m ((c : Thread nD τ).loc main_arg4) := rfl

/-- The shift: likewise. -/
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_in m ρ c 4 rfl
    _ = W2 m ρ c (Proc.devRef .tc main_arg5) := W3_of_ne m ρ c main_arg5 (by decide)
    _ = W0 m ρ c (Proc.devRef .tc main_arg5) := W2_of_ne m ρ c main_arg5 (by decide)
    _ = m ((c : Thread nD τ).loc main_arg5) := rfl

end Cert.Kernel.Hand

end
-- ==== Proof.Spec.lean ====
/-
  The function both programs compute, written once over the extended reals, index by index.

  From a table H : [64, 10000, 128], start words idx : [64, 4], a weight W : [640, 128] and three
  vectors b, γ, β : [128]:
  * rows 0..3 of the embedding of batch p are the selected table rows clipped below at zero,
    max (H[p, idx[p, f], d]) 0, and row 4 is the mean over the 10000 rows, (Σ_n H[p, n, d]) · (1/10000);
  * the five rows are laid side by side into one row of 640 entries (entry k is row k / 128, lane k % 128);
  * a dense layer max (Σ_k x[p, k] · W[k, q] + b[q]) 0, then the row-wise normalisation
    (a - μ) · rsqrt (σ² + ε) · γ + β with μ, σ² the mean and the mean squared deviation over the 128 lanes
    (both quotients by the f32 word of 128, ε the f32 word nearest 0.001).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev SH : Shape := ⟨3, ![64, 10000, 128]⟩
abbrev SI : Shape := ⟨2, ![64, 4]⟩
abbrev SW : Shape := ⟨2, ![640, 128]⟩
abbrev SV : Shape := ⟨1, ![128]⟩
abbrev SE : Shape := ⟨3, ![64, 5, 128]⟩
abbrev SX : Shape := ⟨2, ![64, 640]⟩
abbrev SY : Shape := ⟨2, ![64, 128]⟩
abbrev SO : Shape := ⟨3, ![64, 1, 128]⟩

/-- The table row a start word selects: the word read as a signed integer, clipped into 0..9999. -/
def rowOf (w : BitVec 32) : Fin 10000 := ⟨min w.toInt.toNat 9999, by omega⟩

/-- Every start word is a row number: 0 ≤ idx[p, f] < 10000. -/
def InRange (idx : IVec SI 32) : Prop :=
  ∀ (p : Fin 64) (f : Fin 4), 0 ≤ (idx (ix2 p f)).toInt ∧ (idx (ix2 p f)).toInt < 10000

/-- A selected row, clipped below at zero. -/
def gat (H : SH.Idx → EReal) (idx : IVec SI 32) (p : Fin 64) (f : Fin 4) (d : Fin 128) : EReal :=
  max (H (ix3 p (rowOf (idx (ix2 p f))) d)) 0

/-- The mean over the 10000 rows, as the sum times the reciprocal. -/
def mean (H : SH.Idx → EReal) (p : Fin 64) (d : Fin 128) : EReal :=
  (∑ n : Fin 10000, H (ix3 p n d)) * ((1 / 10000 : ℝ) : EReal)

/-- The embedding: four clipped rows, then the mean row. -/
def emb (H : SH.Idx → EReal) (idx : IVec SI 32) (p : Fin 64) (r : Fin 5) (d : Fin 128) : EReal :=
  if h : r.val < 4 then gat H idx p ⟨r.val, h⟩ d else mean H p d

/-- The five rows side by side: entry k of the flat row is row k / 128, lane k % 128. -/
def flat (H : SH.Idx → EReal) (idx : IVec SI 32) (p : Fin 64) (k : Fin 640) : EReal :=
  emb H idx p ⟨k.val / 128, by have := k.isLt; omega⟩ ⟨k.val % 128, Nat.mod_lt _ (by decide)⟩

/-- The dense layer with its bias, clipped below at zero. -/
def act (x : Fin 64 → Fin 640 → EReal) (W : SW.Idx → EReal) (b : SV.Idx → EReal) (p : Fin 64) (q : Fin 128) : EReal :=
  max ((∑ k : Fin 640, x p k * W (ix2 k q)) + b (ix1 q)) 0

/-- The f32 word of 128 and the f32 word nearest 0.001, kept as words: both programs carry the same ones. -/
abbrev w128 : EReal := Ideal.ofBits .f32 0x43000000#32
abbrev wEps : EReal := Ideal.ofBits .f32 0x3A83126F#32

/-- The row mean of the activations. -/
def mu (a : Fin 64 → Fin 128 → EReal) (p : Fin 64) : EReal := Ideal.div (∑ q : Fin 128, a p q) w128

/-- The row mean of the squared deviations. -/
def var (a : Fin 64 → Fin 128 → EReal) (p : Fin 64) : EReal :=
  Ideal.div (∑ q : Fin 128, (a p q - mu a p) * (a p q - mu a p)) w128

/-- The normalised, scaled and shifted activation. -/
def ln (a : Fin 64 → Fin 128 → EReal) (γ β : SV.Idx → EReal) (p : Fin 64) (q : Fin 128) : EReal :=
  (a p q - mu a p) * Ideal.rsqrt (var a p + wEps) * γ (ix1 q) + β (ix1 q)

/-- Dense layer then normalisation, of a flat row array x. -/
def head (x : Fin 64 → Fin 640 → EReal) (W : SW.Idx → EReal) (b γ β : SV.Idx → EReal) (p : Fin 64) (q : Fin 128) : EReal :=
  ln (act x W b) γ β p q

/-- The whole result [64, 1, 128]. -/
def G (H : SH.Idx → EReal) (idx : IVec SI 32) (W : SW.Idx → EReal) (b γ β : SV.Idx → EReal) : SO.Idx → EReal :=
  fun j => head (flat H idx) W b γ β (j 0) (j 2)

end Cert.Spec

end
-- ==== Proof.KPay0.lean ====
/-
  The first kernel's stored rows, read at one lane, over the extended reals.

  Per batch row the body holds a block x : [1, 10000, 128]. For a start word w it multiplies row n of x by the
  indicator [n = w] (a comparison with the row counter, widened and converted: the floats 0 and 1) and takes, lane by lane, the
  maximum over the 10000 rows starting from -∞. On the extended reals every product with 0 is 0 and every product
  with 1 is the factor, so the maximum runs over x[r, d] at the selected row r and over 0 at the 9999 others: it is
  max (x[r, d]) 0. The fifth stored row is the sum over the rows times the named reciprocal, which denotes the
  rational 1/10000.
-/
import proofs.«424035_j13434657702538_1_alg».proof.Proof.Gen.KernelIdeal.Skeleton
import proofs.«424035_j13434657702538_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.Hand.KPay0

open Cert.KernelIdeal Cert.KernelIdeal.Gen Idealize.ShloMosaic Idealize.ShloMosaic.ValueIdx

variable [Cert.KernelIdeal.Facts]

/-- The f32 word of minus infinity is the bottom extended real. -/
theorem ofBits_negInf : Ideal.ofBits .f32 0xFF800000#32 = (⊥ : EReal) := by
  simp [Ideal.ofBits, Ideal.ieee]

/-- The masked maximum: over 10000 ≥ 2 rows, the maximum from -∞ of g n · [n = r] is max (g r) 0. Every term is
    g r or 0, so the fold is at most that; row r gives g r, and some other row gives 0. -/
theorem fold_mask (g : Fin 10000 → EReal) (r : Fin 10000) :
    (Finset.univ : Finset (Fin 10000)).fold max (⊥ : EReal) (fun n => g n * (if n = r then (1 : EReal) else 0))
      = max (g r) 0 := by
  apply le_antisymm
  · rw [Finset.fold_max_le]
    refine ⟨bot_le, fun n _ => ?_⟩
    by_cases h : n = r
    · subst h; simp
    · simp [h]
  · apply max_le
    · rw [Finset.le_fold_max]
      exact Or.inr ⟨r, Finset.mem_univ _, by simp⟩
    · rw [Finset.le_fold_max]
      obtain ⟨n, hn⟩ := exists_ne r
      exact Or.inr ⟨n, Finset.mem_univ _, by simp [hn]⟩

/-- A word whose signed reading lies in 0..9999 reads the same unsigned. -/
theorem toNat_of_inRange (w : BitVec 32) (hw : 0 ≤ w.toInt ∧ w.toInt < 10000) :
    w.toInt = (w.toNat : Int) ∧ w.toNat < 10000 := by
  have hlt := w.isLt
  obtain ⟨h0, h1⟩ := hw
  rw [BitVec.toInt_eq_toNat_cond] at h0 h1 ⊢
  split at h0 <;> omega

/-- For such a word the clipped row number is the word's own value. -/
theorem rowOf_val (w : BitVec 32) (hw : 0 ≤ w.toInt ∧ w.toInt < 10000) : (Cert.Spec.rowOf w).val = w.toNat := by
  obtain ⟨e, h⟩ := toNat_of_inRange w hw
  show min w.toInt.toNat 9999 = w.toNat
  rw [e, Int.toNat_natCast]
  omega

/-- The row counter's word at row n is the start word exactly when n is the selected row. -/
theorem word_eq_iff (w : BitVec 32) (hw : 0 ≤ w.toInt ∧ w.toInt < 10000) (n : Fin 10000) :
    BitVec.ofNat 32 n.val = w ↔ n = Cert.Spec.rowOf w := by
  have hn := n.isLt
  have hr := rowOf_val w hw
  constructor
  · intro h
    apply Fin.ext
    rw [hr, ← h, BitVec.toNat_ofNat]
    omega
  · intro h
    apply BitVec.eq_of_toNat_eq
    rw [BitVec.toNat_ofNat, h, hr]
    have := w.isLt
    omega

/-- The indicator column at row n: the comparison of the row counter with the broadcast start word, widened to a
    word and converted, is 1 at the selected row and 0 elsewhere. -/
theorem mask_apply (w : BitVec 32) (hw : 0 ≤ w.toInt ∧ w.toInt < 10000) (n : Fin 10000) (u : Fin 1) :
    (sitofp .f32 (extui 32 (cmpi .eq (iota .tc S10000x1 32 [0] Facts₀.iota_S10000x1_d0_w32) (broadcast S10000x1 w)) Facts₀.natLt_1_32) : FVec Ideal S10000x1 .f32) (ix2 n u)
      = if n = Cert.Spec.rowOf w then (1 : EReal) else 0 := by
  show (((((IntOp.cmpi .eq (iota .tc S10000x1 32 [0] Facts₀.iota_S10000x1_d0_w32 (ix2 n u)) w).setWidth 32).toInt : ℤ) : ℝ) : EReal) = _
  rw [iota_single_apply]
  show (((((BitVec.ofBool (BitVec.ofNat 32 n.val == w)).setWidth 32).toInt : ℤ) : ℝ) : EReal) = _
  have e1 : ((BitVec.ofBool true).setWidth 32).toInt = 1 := by decide
  have e0 : ((BitVec.ofBool false).setWidth 32).toInt = 0 := by decide
  by_cases h : n = Cert.Spec.rowOf w
  · rw [if_pos h, (beq_iff_eq).mpr ((word_eq_iff w hw n).mpr h), e1]
    norm_num
  · rw [if_neg h, (beq_eq_false_iff_ne).mpr (fun e => h ((word_eq_iff w hw n).mp e)), e0]
    norm_num

/-- The masked row maximum of a [10000, 128] array at lane d: the selected row's entry clipped below at zero. -/
theorem core (x1 : FVec Ideal S10000x128 .f32) (w : BitVec 32) (hw : 0 ≤ w.toInt ∧ w.toInt < 10000) (d : Fin 128) :
    multiReduction .maximumf [0] S128
      (mulf x1 (broadcastTo S10000x128
        (sitofp .f32 (extui 32 (cmpi .eq (iota .tc S10000x1 32 [0] Facts₀.iota_S10000x1_d0_w32) (broadcast S10000x1 w)) Facts₀.natLt_1_32) : FVec Ideal S10000x1 .f32)
        Facts₀.broadcasts_S10000x1_S10000x128))
      0xFF800000#32 Facts₀.reduces_S10000x128_S128 (.inl rfl) rfl (ix1 d)
      = max (x1 (ix2 (Cert.Spec.rowOf w) d)) 0 := by
  refine (Ideal.multiReduction_maximumf_single _ _ _ _ _ _).trans ?_
  have hf : (mulf x1 (broadcastTo S10000x128
        (sitofp .f32 (extui 32 (cmpi .eq (iota .tc S10000x1 32 [0] Facts₀.iota_S10000x1_d0_w32) (broadcast S10000x1 w)) Facts₀.natLt_1_32) : FVec Ideal S10000x1 .f32)
        Facts₀.broadcasts_S10000x1_S10000x128)) ∘ (Shape.Reduces.lift Facts₀.reduces_S10000x128_S128 (ix1 d))
      = fun n : Fin 10000 => x1 (ix2 n d) * (if n = Cert.Spec.rowOf w then (1 : EReal) else 0) := by
    funext n
    have hl : Shape.Reduces.lift Facts₀.reduces_S10000x128_S128 (ix1 d) n = ix2 n d := by
      funext a
      match a with
      | ⟨0, _⟩ => rfl
      | ⟨1, _⟩ => rfl
    show x1 (Shape.Reduces.lift Facts₀.reduces_S10000x128_S128 (ix1 d) n) * _ = _
    rw [hl]
    refine congrArg (fun t => x1 (ix2 n d) * t) ?_
    refine (broadcastTo_apply _ _ (ix2 n d) (ix2 n (0 : Fin 1)) (fun a => ?_)).trans (mask_apply w hw n 0)
    match a with
    | ⟨0, _⟩ => rfl
    | ⟨1, _⟩ => rfl
  refine (congrArg (fun f => Finset.fold max (FloatOps.ofBits (F := Ideal) .f32 0xFF800000#32) f (Finset.univ : Finset (Fin 10000))) hf).trans ?_
  refine (congrArg (fun b => Finset.fold max b (fun n : Fin 10000 => x1 (ix2 n d) * (if n = Cert.Spec.rowOf w then (1 : EReal) else 0)) (Finset.univ : Finset (Fin 10000))) ofBits_negInf).trans ?_
  exact fold_mask (fun n => x1 (ix2 n d)) (Cert.Spec.rowOf w)

/-- A vector of 128 lanes viewed as a [1, 1, 128] block reads lane d at (0, 0, d). -/
theorem cast_lane (v : FVec Ideal S128 .f32) (d : Fin 128) :
    shapeCast S1x1x128 v Facts₀.shapeCasts_S128_S1x1x128 (ix3 (0 : Fin 1) (0 : Fin 1) d) = v (ix1 d) :=
  shapeCast_apply v _ _ _ (by
    rw [Shape.rowMajor_val_one, Shape.rowMajor_val_three]
    show d.val = (0 * 1 + 0) * 128 + d.val
    omega)

/-- The loaded [1, 10000, 128] block viewed as [10000, 128] reads (0, n, d) at (n, d). -/
theorem pay4_apply (x0 : Vec Ideal S1x10000x128 .f32) (n : Fin 10000) (d : Fin 128) :
    k0_pay4 (F := Ideal) x0 (ix2 n d) = x0 (ix3 (0 : Fin 1) n d) :=
  shapeCast_1ab_ab_apply x0 _ n d

/-- The third selected row, as the lane vector the loop hands on. -/
theorem pay8_apply (x0 : Vec Ideal S1x10000x128 .f32) (w : BitVec 32) (hw : 0 ≤ w.toInt ∧ w.toInt < 10000) (d : Fin 128) :
    k0_pay8 (F := Ideal) x0 w (ix1 d) = max (x0 (ix3 (0 : Fin 1) (Cert.Spec.rowOf w) d)) 0 :=
  (core (k0_pay4 x0) w hw d).trans (congrArg (fun t => max t (0 : EReal)) (pay4_apply x0 _ d))

/-- The first stored row. -/
theorem pay6_apply (x0 : Vec Ideal S1x10000x128 .f32) (w : BitVec 32) (hw : 0 ≤ w.toInt ∧ w.toInt < 10000) (d : Fin 128) :
    k0_pay6 (F := Ideal) x0 w (ix3 (0 : Fin 1) (0 : Fin 1) d) = max (x0 (ix3 (0 : Fin 1) (Cert.Spec.rowOf w) d)) 0 := by
  unfold k0_pay6
  refine (cast_lane _ d).trans ?_
  exact (core (k0_pay4 x0) w hw d).trans (congrArg (fun t => max t (0 : EReal)) (pay4_apply x0 _ d))

/-- The second stored row. -/
theorem pay7_apply (x0 : Vec Ideal S1x10000x128 .f32) (w : BitVec 32) (hw : 0 ≤ w.toInt ∧ w.toInt < 10000) (d : Fin 128) :
    k0_pay7 (F := Ideal) x0 w (ix3 (0 : Fin 1) (0 : Fin 1) d) = max (x0 (ix3 (0 : Fin 1) (Cert.Spec.rowOf w) d)) 0 := by
  unfold k0_pay7
  refine (cast_lane _ d).trans ?_
  exact (core (k0_pay4 x0) w hw d).trans (congrArg (fun t => max t (0 : EReal)) (pay4_apply x0 _ d))

/-- The third stored row. -/
theorem pay1_8_apply (x0 : Vec Ideal S1x10000x128 .f32) (w : BitVec 32) (hw : 0 ≤ w.toInt ∧ w.toInt < 10000) (d : Fin 128) :
    k0_pay1 (F := Ideal) (k0_pay8 x0 w) (ix3 (0 : Fin 1) (0 : Fin 1) d) = max (x0 (ix3 (0 : Fin 1) (Cert.Spec.rowOf w) d)) 0 := by
  unfold k0_pay1
  exact (cast_lane _ d).trans (pay8_apply x0 w hw d)

/-- The fourth stored row. -/
theorem pay2_4_apply (x0 : Vec Ideal S1x10000x128 .f32) (w : BitVec 32) (hw : 0 ≤ w.toInt ∧ w.toInt < 10000) (d : Fin 128) :
    k0_pay2 (F := Ideal) (k0_pay4 x0) (iota .tc S10000x1 32 [0] Facts₀.iota_S10000x1_d0_w32) w (ix3 (0 : Fin 1) (0 : Fin 1) d)
      = max (x0 (ix3 (0 : Fin 1) (Cert.Spec.rowOf w) d)) 0 := by
  unfold k0_pay2
  refine (cast_lane _ d).trans ?_
  exact (core (k0_pay4 x0) w hw d).trans (congrArg (fun t => max t (0 : EReal)) (pay4_apply x0 _ d))

/-- The named reciprocal is the rational 1/10000 on the extended reals. -/
theorem inv_10000 : Named.named (F := Ideal) Cert.KernelIdeal.κ "inv_10000" (φ := .f32) 0x38D1B717#32 = ((1 / 10000 : ℝ) : EReal) :=
  IdealRules.named_const.ideal_named_scalar _ _ _ _ rfl

/-- The mean row as a lane vector: the sum over the 10000 rows times 1/10000. -/
theorem pay5_apply (x0 : Vec Ideal S1x10000x128 .f32) (d : Fin 128) :
    k0_pay5 (F := Ideal) x0 (ix1 d) = (∑ n : Fin 10000, x0 (ix3 (0 : Fin 1) n d)) * ((1 / 10000 : ℝ) : EReal) := by
  show multiReduction .add [0] S128 (k0_pay4 x0) 0x00000000#32 Facts₀.reduces_S10000x128_S128 (.inl rfl) rfl (ix1 d)
      * Named.named (F := Ideal) Cert.KernelIdeal.κ "inv_10000" (φ := .f32) 0x38D1B717#32 = _
  rw [inv_10000]
  refine congrArg (fun t => t * ((1 / 10000 : ℝ) : EReal)) ?_
  refine (Ideal.multiReduction_add_single _ _ _ _ _ _).trans ?_
  refine Finset.sum_congr rfl (fun n _ => ?_)
  have hl : Shape.Reduces.lift Facts₀.reduces_S10000x128_S128 (ix1 d) n = ix2 n d := by
    funext a
    match a with
    | ⟨0, _⟩ => rfl
    | ⟨1, _⟩ => rfl
  rw [hl]
  exact pay4_apply x0 n d

/-- The fifth stored row. -/
theorem pay3_5_apply (x0 : Vec Ideal S1x10000x128 .f32) (d : Fin 128) :
    k0_pay3 (F := Ideal) (k0_pay5 x0) (ix3 (0 : Fin 1) (0 : Fin 1) d) = (∑ n : Fin 10000, x0 (ix3 (0 : Fin 1) n d)) * ((1 / 10000 : ℝ) : EReal) := by
  unfold k0_pay3
  exact (cast_lane _ d).trans (pay5_apply x0 d)

end Cert.Hand.KPay0

end
-- ==== Proof.KValue0.lean ====
/-
  The first kernel region's result array, entry by entry, over the extended reals.

  The region runs 64 grid points. Point t fetches batch row t of the table, a [1, 10000, 128] block, reads the four
  start words of batch row t from the prefetched table of start words, and writes back a [1, 5, 128] block: batch row
  t of the result array [64, 5, 128]. The block the body leaves is five stored rows that tile it: four selected rows
  clipped below at zero and the mean row. So each written block is batch row t of ONE function of the array's index,
  the specification's embedding of the launch's table and start words; the 64 blocks cover the array, every point
  writes its block back, and the array ends holding that function.
-/
import proofs.«424035_j13434657702538_1_alg».proof.Proof.RunDefs
import proofs.«424035_j13434657702538_1_alg».proof.Proof.KPay0
import proofs.«424035_j13434657702538_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable [Cert.KernelIdeal.Facts]
variable {F : FTy → Type} [FloatOps F] [Named F]

local notation "𝕄" => MT nD τ sig Unit (Elt F) ℕ (UR sig nD τ) ℕ

open Idealize.ShloMosaic.ValueIdx

section Structure
variable (tb : pre0.Contents (Elt F))

/-- The pipeline runs over the 64 grid points whatever the table holds. -/
private theorem N_cfgM : (cfgM tb).N = grid0.N := rfl

/-- The windows' block indices at a point are the printed index maps at the point's coordinates: no map reads the table. -/
private theorem index0_eq (t : Fin (cfgM tb).N) : ((cfgM tb).win 0).index t = cc0_transform_0 (grid0.coords t) := rfl
private theorem index1_eq (t : Fin (cfgM tb).N) : ((cfgM tb).win 1).index t = cc0_transform_1 (grid0.coords t) := rfl

/-- Decided over the 64 points: at point t both windows' block index is (t, 0, 0), and the four start words are
    loaded at offsets (t, 0), (t, 1), (t, 2), (t, 3). -/
private theorem point_facts : ∀ t : Fin grid0.N,
    cc0_transform_0 (grid0.coords t) = ![t.val, 0, 0] ∧ cc0_transform_1 (grid0.coords t) = ![t.val, 0, 0]
    ∧ k0_off1 (grid0.coords t) = ![t.val, 0] ∧ k0_off2 (grid0.coords t) = ![t.val, 1]
    ∧ k0_off3 (grid0.coords t) = ![t.val, 2] ∧ k0_off4 (grid0.coords t) = ![t.val, 3] := by
  decide +kernel

/-- A point's number is below 64. -/
private theorem lt64 (t : Fin (cfgM tb).N) : t.val < 64 := by
  have h : (cfgM tb).N = 64 := N_0
  have := t.isLt
  omega

end Structure

section Blocks
variable (V : (c : Dev nD) → (b : Ref sig .tc) → Buf (Elt F) ((c : Thread nD τ).loc b)) (tb : pre0.Contents (Elt F))

/-- The input window's block at point t is batch row t of the table: entry (0, n, d) of the block is entry (t, n, d). -/
private theorem iblk0_apply (c : Dev nD) (t : Fin (cfgM tb).N) (n : Fin 10000) (d : Fin 128) :
    (iblk0 V tb c 0 t : Vec F S1x10000x128 .f32) (ix3 (0 : Fin 1) n d)
      = (V c main_arg0 : S64x10000x128.Idx → Elt F .f32) (ix3 (⟨t.val, lt64 tb t⟩ : Fin 64) n d) := by
  unfold iblk0
  show V c main_arg0 _ = V c main_arg0 _
  refine congrArg (V c main_arg0) ?_
  funext a
  apply Fin.ext
  obtain ⟨e0, -⟩ := point_facts t
  match a with
  | ⟨0, _⟩ =>
    show ((cfgM tb).win 0).index t (0 : Fin 3) * 1 + 1 * 0 = t.val
    rw [index0_eq, e0]; show t.val * 1 + 1 * 0 = t.val; omega
  | ⟨1, _⟩ =>
    show ((cfgM tb).win 0).index t (1 : Fin 3) * 10000 + 1 * n.val = n.val
    rw [index0_eq, e0]; show 0 * 10000 + 1 * n.val = n.val; omega
  | ⟨2, _⟩ =>
    show ((cfgM tb).win 0).index t (2 : Fin 3) * 128 + 1 * d.val = d.val
    rw [index0_eq, e0]; show 0 * 128 + 1 * d.val = d.val; omega

/-- A start word loaded at offsets (p, f) is the table's entry (p, f). -/
private theorem word0_apply (c : Dev nD) (tb0 : TbBuf0 (F := F) c) (off : Fin 2 → Nat) (h : ∀ a, off a + S1x1.size a ≤ S64x4.size a)
    (p : Fin 64) (f : Fin 4) (h0 : off 0 = p.val) (h1 : off 1 = f.val) :
    word0 c tb0 off h = (tb0 : S64x4.Idx → Elt F .i32) (ix2 p f) := by
  show tb0 _ = tb0 _
  refine congrArg tb0 ?_
  funext a
  apply Fin.ext
  match a with
  | ⟨0, _⟩ => show off 0 + 1 * 0 = p.val; omega
  | ⟨1, _⟩ => show off 1 + 1 * 0 = f.val; omega

end Blocks

section Point

/-- Every index of a [1, 1, 128] block is (0, 0, d). -/
private theorem exists_lane (x : S1x1x128.Idx) : ∃ d : Fin 128, x = ix3 (0 : Fin 1) (0 : Fin 1) d := by
  obtain ⟨u, v, d, rfl⟩ : ∃ (u : Fin 1) (v : Fin 1) (d : Fin 128), x = ix3 u v d := ⟨x 0, x 1, x 2, eq_ix3 x⟩
  obtain rfl : u = 0 := Subsingleton.elim _ _
  obtain rfl : v = 0 := Subsingleton.elim _ _
  exact ⟨d, rfl⟩

/-- Row r of the [1, 5, 128] block: its rectangle places (0, 0, d) at (0, r, d). -/
private theorem row_emb (r : Nat) (hr : r < 5) (inb : ∀ a, (![0, r, 0] : Fin 3 → Nat) a + S1x1x128.size a ≤ S1x5x128.size a) (d : Fin 128) :
    (Rect.unit (s := S1x5x128) ![0, r, 0] S1x1x128.size inb).emb (ix3 (0 : Fin 1) (0 : Fin 1) d) = ix3 (0 : Fin 1) (⟨r, hr⟩ : Fin 5) d := by
  funext a
  apply Fin.ext
  match a with
  | ⟨0, _⟩ => show 0 + 1 * 0 = 0; omega
  | ⟨1, _⟩ => show r + 1 * 0 = r; omega
  | ⟨2, _⟩ => show 0 + 1 * d.val = d.val; omega

variable (H : Cert.Spec.SH.Idx → EReal) (idx : IVec Cert.Spec.SI 32) (p : Fin 64)

/-- A stored row that is a selected row clipped at zero is the embedding's row f. -/
private theorem row_gat (x0 : Vec Ideal S1x10000x128 .f32) (hx : ∀ n d, x0 (ix3 (0 : Fin 1) n d) = H (ix3 p n d))
    (f : Fin 4) (w : BitVec 32) (hw : w = idx (ix2 p f)) (pay : Vec Ideal S1x1x128 .f32)
    (hpay : ∀ d, pay (ix3 (0 : Fin 1) (0 : Fin 1) d) = max (x0 (ix3 (0 : Fin 1) (Cert.Spec.rowOf w) d)) 0) (d : Fin 128) :
    pay (ix3 (0 : Fin 1) (0 : Fin 1) d) = Cert.Spec.emb H idx p (⟨f.val, by have := f.isLt; omega⟩ : Fin 5) d := by
  rw [hpay, hx, hw]
  unfold Cert.Spec.emb
  rw [dif_pos (show (⟨f.val, by have := f.isLt; omega⟩ : Fin 5).val < 4 from f.isLt)]
  rfl

/-- The stored mean row is the embedding's row 4. -/
private theorem row_mean (x0 : Vec Ideal S1x10000x128 .f32) (hx : ∀ n d, x0 (ix3 (0 : Fin 1) n d) = H (ix3 p n d))
    (pay : Vec Ideal S1x1x128 .f32)
    (hpay : ∀ d, pay (ix3 (0 : Fin 1) (0 : Fin 1) d) = (∑ n : Fin 10000, x0 (ix3 (0 : Fin 1) n d)) * ((1 / 10000 : ℝ) : EReal)) (d : Fin 128) :
    pay (ix3 (0 : Fin 1) (0 : Fin 1) d) = Cert.Spec.emb H idx p (⟨4, by decide⟩ : Fin 5) d := by
  rw [hpay]
  unfold Cert.Spec.emb
  rw [dif_neg (show ¬ (⟨4, by decide⟩ : Fin 5).val < 4 from by decide)]
  unfold Cert.Spec.mean
  refine congrArg (fun s => s * ((1 / 10000 : ℝ) : EReal)) ?_
  exact Finset.sum_congr rfl fun n _ => hx n _

end Point

section Out

/-- Five stored rows that tile a [1, 5, 128] block, read back: entry (0, r, d) is row r's payload at lane d. -/
private theorem canon_rows (p0 p1 p2 p3 p4 : Vec Ideal S1x1x128 .f32) (G : Fin 5 → Fin 128 → EReal)
    (h0 : ∀ d, p0 (ix3 (0 : Fin 1) (0 : Fin 1) d) = G 0 d) (h1 : ∀ d, p1 (ix3 (0 : Fin 1) (0 : Fin 1) d) = G 1 d)
    (h2 : ∀ d, p2 (ix3 (0 : Fin 1) (0 : Fin 1) d) = G 2 d) (h3 : ∀ d, p3 (ix3 (0 : Fin 1) (0 : Fin 1) d) = G 3 d)
    (h4 : ∀ d, p4 (ix3 (0 : Fin 1) (0 : Fin 1) d) = G 4 d) (r : Fin 5) (d : Fin 128) :
    View.canon ([⟨rRow4, p4⟩, ⟨rRow3, p3⟩, ⟨rRow2, p2⟩, ⟨rRow1, p1⟩, ⟨rRow0, p0⟩] : List (View.Piece (Elt Ideal) S1x5x128 .f32)) (ix3 (0 : Fin 1) r d)
      = G r d := by
  refine View.canon_apply_of_pieces (Val := Elt Ideal) (e := .f32) (fun y : S1x5x128.Idx => G (y 1) (y 2)) _ ?_ (ix3 (0 : Fin 1) r d) (cover0_1 p0 p1 p2 p3 p4 _)
  intro q hq x
  simp only [List.mem_cons, List.mem_nil_iff, or_false] at hq
  rcases hq with rfl | rfl | rfl | rfl | rfl
  · obtain ⟨d', rfl⟩ := exists_lane x
    show p4 (ix3 (0 : Fin 1) (0 : Fin 1) d') = G ((rRow4.emb (ix3 (0 : Fin 1) (0 : Fin 1) d')) 1) ((rRow4.emb (ix3 (0 : Fin 1) (0 : Fin 1) d')) 2)
    rw [row_emb 4 (by decide) _ d']
    exact h4 d'
  · obtain ⟨d', rfl⟩ := exists_lane x
    show p3 (ix3 (0 : Fin 1) (0 : Fin 1) d') = G ((rRow3.emb (ix3 (0 : Fin 1) (0 : Fin 1) d')) 1) ((rRow3.emb (ix3 (0 : Fin 1) (0 : Fin 1) d')) 2)
    rw [row_emb 3 (by decide) _ d']
    exact h3 d'
  · obtain ⟨d', rfl⟩ := exists_lane x
    show p2 (ix3 (0 : Fin 1) (0 : Fin 1) d') = G ((rRow2.emb (ix3 (0 : Fin 1) (0 : Fin 1) d')) 1) ((rRow2.emb (ix3 (0 : Fin 1) (0 : Fin 1) d')) 2)
    rw [row_emb 2 (by decide) _ d']
    exact h2 d'
  · obtain ⟨d', rfl⟩ := exists_lane x
    show p1 (ix3 (0 : Fin 1) (0 : Fin 1) d') = G ((rRow1.emb (ix3 (0 : Fin 1) (0 : Fin 1) d')) 1) ((rRow1.emb (ix3 (0 : Fin 1) (0 : Fin 1) d')) 2)
    rw [row_emb 1 (by decide) _ d']
    exact h1 d'
  · obtain ⟨d', rfl⟩ := exists_lane x
    show p0 (ix3 (0 : Fin 1) (0 : Fin 1) d') = G ((rRow0.emb (ix3 (0 : Fin 1) (0 : Fin 1) d')) 1) ((rRow0.emb (ix3 (0 : Fin 1) (0 : Fin 1) d')) 2)
    rw [row_emb 0 (by decide) _ d']
    exact h0 d'

end Out

section OutSpec

variable (H : Cert.Spec.SH.Idx → EReal) (idx : IVec Cert.Spec.SI 32) (p : Fin 64)

/-- The loaded input block read through the whole-block rectangle is the block. -/
private theorem ld_in (x0 : Vec Ideal S1x10000x128 .f32) : View.ld x0 rIn0 = x0 :=
  View.ld_unit_zero (S := S1x10000x128) (funext fun a => by fin_cases a <;> rfl) _ x0

/-- The five stored rows are the embedding's five rows of batch row p, when the loaded block is batch row p of the
    table H and the four loaded words are row p of the start words, all of them row numbers. -/
private theorem rows_apply (x0 : Vec Ideal S1x10000x128 .f32) (w1 w2 w3 w4 : BitVec 32)
    (hx : ∀ n d, x0 (ix3 (0 : Fin 1) n d) = H (ix3 p n d))
    (hw1 : w1 = idx (ix2 p (0 : Fin 4))) (hw2 : w2 = idx (ix2 p (1 : Fin 4)))
    (hw3 : w3 = idx (ix2 p (2 : Fin 4))) (hw4 : w4 = idx (ix2 p (3 : Fin 4)))
    (hr : ∀ f : Fin 4, 0 ≤ (idx (ix2 p f)).toInt ∧ (idx (ix2 p f)).toInt < 10000)
    (r : Fin 5) (d : Fin 128) :
    View.canon ([⟨rRow4, k0_pay3 (k0_pay5 x0)⟩,
        ⟨rRow3, k0_pay2 (k0_pay4 x0) (iota .tc S10000x1 32 [0] Facts₀.iota_S10000x1_d0_w32) w4⟩,
        ⟨rRow2, k0_pay1 (k0_pay8 x0 w3)⟩, ⟨rRow1, k0_pay7 x0 w2⟩, ⟨rRow0, k0_pay6 x0 w1⟩] : List (View.Piece (Elt Ideal) S1x5x128 .f32)) (ix3 (0 : Fin 1) r d)
      = Cert.Spec.emb H idx p r d :=
  canon_rows (k0_pay6 x0 w1) (k0_pay7 x0 w2) (k0_pay1 (k0_pay8 x0 w3))
    (k0_pay2 (k0_pay4 x0) (iota .tc S10000x1 32 [0] Facts₀.iota_S10000x1_d0_w32) w4) (k0_pay3 (k0_pay5 x0))
    (fun r d => Cert.Spec.emb H idx p r d)
    (row_gat H idx p x0 hx (0 : Fin 4) w1 hw1 (k0_pay6 x0 w1) (Cert.Hand.KPay0.pay6_apply x0 w1 (hw1 ▸ hr 0)))
    (row_gat H idx p x0 hx (1 : Fin 4) w2 hw2 (k0_pay7 x0 w2) (Cert.Hand.KPay0.pay7_apply x0 w2 (hw2 ▸ hr 1)))
    (row_gat H idx p x0 hx (2 : Fin 4) w3 hw3 (k0_pay1 (k0_pay8 x0 w3)) (Cert.Hand.KPay0.pay1_8_apply x0 w3 (hw3 ▸ hr 2)))
    (row_gat H idx p x0 hx (3 : Fin 4) w4 hw4 (k0_pay2 (k0_pay4 x0) (iota .tc S10000x1 32 [0] Facts₀.iota_S10000x1_d0_w32) w4) (Cert.Hand.KPay0.pay2_4_apply x0 w4 (hw4 ▸ hr 3)))
    (row_mean H idx p x0 hx (k0_pay3 (k0_pay5 x0)) (Cert.Hand.KPay0.pay3_5_apply x0))
    r d

/-- The same of the body's output block, the words as loaded from the table. -/
private theorem out0_1_apply (c : Dev nD) (i : grid0.Coords) (x0 : Vec Ideal S1x10000x128 .f32) (tb0 : TbBuf0 (F := Ideal) c)
    (hx : ∀ n d, x0 (ix3 (0 : Fin 1) n d) = H (ix3 p n d))
    (hw1 : word0 c tb0 (k0_off1 i) (Facts₀.k0_off1_inb i) = idx (ix2 p (0 : Fin 4)))
    (hw2 : word0 c tb0 (k0_off2 i) (Facts₀.k0_off2_inb i) = idx (ix2 p (1 : Fin 4)))
    (hw3 : word0 c tb0 (k0_off3 i) (Facts₀.k0_off3_inb i) = idx (ix2 p (2 : Fin 4)))
    (hw4 : word0 c tb0 (k0_off4 i) (Facts₀.k0_off4_inb i) = idx (ix2 p (3 : Fin 4)))
    (hr : ∀ f : Fin 4, 0 ≤ (idx (ix2 p f)).toInt ∧ (idx (ix2 p f)).toInt < 10000)
    (r : Fin 5) (d : Fin 128) :
    out0_1 c i x0 tb0 (ix3 (0 : Fin 1) r d) = Cert.Spec.emb H idx p r d := by
  unfold out0_1 pieces0
  rw [ld_in]
  exact rows_apply H idx p x0 _ _ _ _ hx hw1 hw2 hw3 hw4 hr r d

end OutSpec

section Final

/-- Two [1, 5, 128] blocks that agree at every (0, r, d) are equal. -/
private theorem ext_block (X Y : S1x5x128.Idx → EReal)
    (h : ∀ (r : Fin 5) (d : Fin 128), X (ix3 (0 : Fin 1) r d) = Y (ix3 (0 : Fin 1) r d)) : X = Y := by
  funext y
  obtain ⟨u, r, d, rfl⟩ : ∃ (u : Fin 1) (r : Fin 5) (d : Fin 128), y = ix3 u r d := ⟨y 0, y 1, y 2, eq_ix3 y⟩
  obtain rfl : u = 0 := Subsingleton.elim _ _
  exact h r d

variable (V : (c : Dev nD) → (b : Ref sig .tc) → Buf (Elt Ideal) ((c : Thread nD τ).loc b)) (tb : pre0.Contents (Elt Ideal))

/-- The output window's block at point t is batch row t of the result array. -/
private theorem blk1_read (t : Fin (cfgM tb).N) (G : S64x5x128.Idx → EReal) (r : Fin 5) (d : Fin 128) :
    ((((cfgM tb).win 1).blk t).view.read (Elt Ideal) G : S1x5x128.Idx → EReal) (ix3 (0 : Fin 1) r d)
      = G (ix3 (⟨t.val, lt64 tb t⟩ : Fin 64) r d) := by
  show G _ = G _
  refine congrArg G ?_
  funext a
  apply Fin.ext
  obtain ⟨-, e1, -⟩ := point_facts t
  match a with
  | ⟨0, _⟩ =>
    show ((cfgM tb).win 1).index t (0 : Fin 3) * 1 + 1 * 0 = t.val
    rw [index1_eq, e1]; show t.val * 1 + 1 * 0 = t.val; omega
  | ⟨1, _⟩ =>
    show ((cfgM tb).win 1).index t (1 : Fin 3) * 5 + 1 * r.val = r.val
    rw [index1_eq, e1]; show 0 * 5 + 1 * r.val = r.val; omega
  | ⟨2, _⟩ =>
    show ((cfgM tb).win 1).index t (2 : Fin 3) * 128 + 1 * d.val = d.val
    rw [index1_eq, e1]; show 0 * 128 + 1 * d.val = d.val; omega

/-- The embedding of the table and start words the region finds, as one function of the result array's index. -/
private abbrev embOf (c : Dev nD) : S64x5x128.Idx → EReal :=
  fun j => Cert.Spec.emb (V c main_arg0) (tb 0) (j 0) (j 1) (j 2)

/-- What point t writes back is batch row t of the embedding. -/
private theorem flushed1_eq (c : Dev nD) (hr : Cert.Spec.InRange (tb 0)) (t : Fin (cfgM tb).N) :
    (dat0 V tb c).flushed 1 t = (((cfgM tb).win 1).blk t).view.read (Elt Ideal) (embOf V tb c) := by
  show ((cfgM tb).win 1).cut ((cfgM tb).grid.coords t) ((dat0 V tb c).after 1 t) = _
  rw [after0_1]
  obtain ⟨-, -, o1, o2, o3, o4⟩ := point_facts t
  refine ext_block _ _ fun r d => ?_
  refine (out0_1_apply (V c main_arg0) (tb 0) (⟨t.val, lt64 tb t⟩ : Fin 64) c (grid0.coords t) (iblk0 V tb c 0 t) (tb 0)
    (iblk0_apply V tb c t)
    (word0_apply c (tb 0) _ _ _ (0 : Fin 4) (congrFun o1 0) (congrFun o1 1))
    (word0_apply c (tb 0) _ _ _ (1 : Fin 4) (congrFun o2 0) (congrFun o2 1))
    (word0_apply c (tb 0) _ _ _ (2 : Fin 4) (congrFun o3 0) (congrFun o3 1))
    (word0_apply c (tb 0) _ _ _ (3 : Fin 4) (congrFun o4 0) (congrFun o4 1))
    (hr _) r d).trans ?_
  exact (blk1_read tb t (embOf V tb c) r d).symm

end Final

section Cover
variable (tb : pre0.Contents (Elt Ideal))

/-- The output's block index moves at every point, so every point writes its block back. -/
private theorem flush1_all (t : Fin (cfgM tb).N) : ((cfgM tb).win 1).flush t = true := by
  unfold Pipeline.Window.flush
  rw [Bool.and_eq_true]
  refine ⟨rfl, ?_⟩
  rw [Bool.or_eq_true, decide_eq_true_eq, decide_eq_true_eq]
  by_cases h : t.val + 1 = grid0.N
  · exact Or.inl h
  · have hN : (cfgM tb).N = grid0.N := rfl
    have hlt : t.val + 1 < (cfgM tb).N := by have := t.isLt; omega
    refine Or.inr ⟨hlt, fun e => ?_⟩
    have e0 := congrFun e (0 : Fin 3)
    rw [index1_eq, index1_eq, (point_facts _).2.1, (point_facts _).2.1] at e0
    have e1 : t.val + 1 = t.val := e0
    omega

/-- Every entry of the result array is in the block of the point that is its batch row. -/
private theorem cover1 (i : S64x5x128.Idx) :
    ∃ t : Fin (cfgM tb).N, ((cfgM tb).win 1).flush t = true ∧ i ∈ (((cfgM tb).win 1).blk t).view.set := by
  have hN : (cfgM tb).N = 64 := N_0
  have h0 : (i 0).val < 64 := (i 0).isLt
  have h1 : (i 1).val < 5 := (i 1).isLt
  have h2 : (i 2).val < 128 := (i 2).isLt
  have hp : (i 0).val < (cfgM tb).N := lt_of_lt_of_eq h0 hN.symm
  refine ⟨⟨(i 0).val, hp⟩, flush1_all tb _, ?_⟩
  have hs : (((cfgM tb).win 1).blk ⟨(i 0).val, hp⟩).view.set = (((cfgM tb).win 1).rect ⟨(i 0).val, hp⟩).set :=
    View.set_slice_whole main_v0 _
  rw [hs]
  obtain ⟨-, e1, -⟩ := point_facts ⟨(i 0).val, hp⟩
  refine Rect.mem_set_unit.mpr fun a => ?_
  match a with
  | ⟨0, _⟩ =>
    show ((cfgM tb).win 1).index ⟨(i 0).val, hp⟩ (0 : Fin 3) * 1 ≤ (i 0).val ∧ (i 0).val < ((cfgM tb).win 1).index ⟨(i 0).val, hp⟩ (0 : Fin 3) * 1 + 1
    rw [index1_eq, e1]; show (i 0).val * 1 ≤ (i 0).val ∧ (i 0).val < (i 0).val * 1 + 1; omega
  | ⟨1, _⟩ =>
    show ((cfgM tb).win 1).index ⟨(i 0).val, hp⟩ (1 : Fin 3) * 5 ≤ (i 1).val ∧ (i 1).val < ((cfgM tb).win 1).index ⟨(i 0).val, hp⟩ (1 : Fin 3) * 5 + 5
    rw [index1_eq, e1]; show 0 * 5 ≤ (i 1).val ∧ (i 1).val < 0 * 5 + 5; omega
  | ⟨2, _⟩ =>
    show ((cfgM tb).win 1).index ⟨(i 0).val, hp⟩ (2 : Fin 3) * 128 ≤ (i 2).val ∧ (i 2).val < ((cfgM tb).win 1).index ⟨(i 0).val, hp⟩ (2 : Fin 3) * 128 + 128
    rw [index1_eq, e1]; show 0 * 128 ≤ (i 2).val ∧ (i 2).val < 0 * 128 + 128; omega

end Cover

section Result
variable (m : (ℓ : Loc nD τ sig) → Buf (Elt Ideal) ℓ) (ρ : Dev nD → PrngReg)

/-- After the first kernel region the array main_v0 holds the embedding of the launch's table and start words. -/
theorem W2_main_v0 (c : Dev nD) (h : Cert.Spec.InRange (m ((c : Thread nD τ).loc main_arg1))) (j : S64x5x128.Idx) :
    W2 (F := Ideal) m ρ c (Proc.devRef .tc main_v0) j
      = Cert.Spec.emb (m ((c : Thread nD τ).loc main_arg0)) (m ((c : Thread nD τ).loc main_arg1)) (j 0) (j 1) (j 2) := by
  obtain rfl : c = 0 := Subsingleton.elim _ _
  have e := W2_arr m ρ (0 : Dev nD) 1
  have hfin := (dat0 (V1 m ρ) (tbl m ρ) (0 : Dev nD)).arrAt_eq_of_cover 1 (embOf (V1 m ρ) (tbl m ρ) (0 : Dev nD))
    (fun t _ => flushed1_eq (V1 m ρ) (tbl m ρ) (0 : Dev nD) h t) (cover1 (tbl m ρ))
  exact congrFun (e.trans hfin) j

end Result

end Cert.KernelIdeal.Hand

end
-- ==== Proof.KPay1.lean ====
/-
  The second kernel's stored value, read at one index (p, q) of its [64, 128] result:
  a dense layer  a[p, q] = max (Σ_k x[p, k] · W[k, q] + b[q]) 0  (the narrowing of both factors
  to a shorter float format is the identity over the extended reals, and the accumulator is the
  zero splat), then the row normalisation (a - μ) · rsqrt (σ² + ε) · γ + β, with μ the row sum over
  the 128 lanes divided by the word of 128, σ² the row sum of the squared deviations divided by the
  same word, ε the word nearest 0.001, and b, γ, β laid as one row and repeated over the 64 rows.
  Each layout step is read at an index by its own small lemma; the lane sums are sums over Fin 128
  and the contraction a sum over Fin 640.
-/
import proofs.«424035_j13434657702538_1_alg».proof.Proof.Gen.KernelIdeal.Skeleton
import proofs.«424035_j13434657702538_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.Hand.KPay1

open Cert.KernelIdeal Cert.KernelIdeal.Gen Idealize.ShloMosaic Idealize.ShloMosaic.ValueIdx

variable [Cert.KernelIdeal.Facts]

/-! ## Layout steps at an index -/

/-- A vector of 128 lanes laid as one row and repeated over 64 rows reads, at (p, q), its lane q. -/
private theorem row_apply (v : FVec Ideal S128 .f32) (h : S128.ShapeCasts S1x128) (h' : S1x128.Broadcasts S64x128)
    (p : Fin 64) (q : Fin 128) :
    broadcastTo S64x128 (shapeCast S1x128 v h) h' (ix2 p q) = v (ix1 q) :=
  (broadcastTo_1b_ab_apply (shapeCast S1x128 v h) h' p q).trans (shapeCast_a_1a_apply v h 0 q)

/-- A vector of 64 entries stood up as a column reads, at (p, u), its entry p. -/
private theorem col_cast_apply (v : FVec Ideal S64 .f32) (h : S64.ShapeCasts S64x1) (p : Fin 64) (u : Fin 1) :
    shapeCast S64x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column of 64 entries repeated over 128 lanes reads, at (p, q), the column's entry p. -/
private theorem col_bcast_apply (v : FVec Ideal S64x1 .f32) (h : S64x1.Broadcasts S64x128) (p : Fin 64) (q : Fin 128) :
    broadcastTo S64x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The sum over the lanes of a [64, 128] array reads, at p, the sum over q of its entries (p, q). -/
private theorem rowsum_apply (v : FVec Ideal S64x128 .f32) (h : S64x128.Reduces [1] S64) (hφ : FKind.Formats .f32)
    (hacc : (0x00000000#32 : BitVec 32) = 0x00000000#32) (p : Fin 64) :
    multiReduction (F := Ideal) .add [1] S64 v 0x00000000#32 h hφ hacc (ix1 p) = ∑ q : Fin 128, v (ix2 p q) := by
  refine (Ideal.multiReduction_add_single v 0x00000000#32 h hφ hacc (ix1 p)).trans ?_
  refine Finset.sum_congr rfl fun q _ => congrArg v ?_
  funext a
  match a with
  | ⟨0, _⟩ => rfl
  | ⟨1, _⟩ => rfl

/-! ## The contraction at an index -/

private theorem lhs_ax0 (i : S64x128.Idx) (c : dot_S64x640_S640x128_S64x128_1_0_0_1_n_n.contr.Idx) :
    (dot_S64x640_S640x128_S64x128_1_0_0_1_n_n.lhsIdx i c 0).val = (i 0).val := by
  unfold DotDims.lhsIdx
  rw [dif_neg (show ¬(0 : Fin S64x640.rank) ∈ dot_S64x640_S640x128_S64x128_1_0_0_1_n_n.lhsBatch by decide), dif_pos (show (0 : Fin S64x640.rank) ∈ dot_S64x640_S640x128_S64x128_1_0_0_1_n_n.lhsNonContracting by decide)]
  rfl
private theorem lhs_ax1 (i : S64x128.Idx) (c : dot_S64x640_S640x128_S64x128_1_0_0_1_n_n.contr.Idx) :
    (dot_S64x640_S640x128_S64x128_1_0_0_1_n_n.lhsIdx i c 1).val = (c ⟨0, by decide⟩).val :=
  dot_S64x640_S640x128_S64x128_1_0_0_1_n_n.lhsIdx_val_of_single rfl i c
private theorem rhs_ax0 (i : S64x128.Idx) (c : dot_S64x640_S640x128_S64x128_1_0_0_1_n_n.contr.Idx) :
    (dot_S64x640_S640x128_S64x128_1_0_0_1_n_n.rhsIdx i c 0).val = (c ⟨0, by decide⟩).val :=
  dot_S64x640_S640x128_S64x128_1_0_0_1_n_n.rhsIdx_val_of_single rfl i c
private theorem rhs_ax1 (i : S64x128.Idx) (c : dot_S64x640_S640x128_S64x128_1_0_0_1_n_n.contr.Idx) :
    (dot_S64x640_S640x128_S64x128_1_0_0_1_n_n.rhsIdx i c 1).val = (i 1).val := by
  unfold DotDims.rhsIdx
  rw [dif_neg (show ¬(1 : Fin S640x128.rank) ∈ dot_S64x640_S640x128_S64x128_1_0_0_1_n_n.rhsBatch by decide), dif_pos (show (1 : Fin S640x128.rank) ∈ dot_S64x640_S640x128_S64x128_1_0_0_1_n_n.rhsNonContracting by decide)]
  rfl

/-- The product of a [64, 640] and a [640, 128] array into the zero splat reads, at (p, q), the sum
    over k of the left factor at (p, k) times the right factor at (k, q). -/
private theorem mm_apply (l : FVec Ideal S64x640 .bf16) (r : FVec Ideal S640x128 .bf16) (p : Fin 64) (q : Fin 128) :
    matmul dot_S64x640_S640x128_S64x128_1_0_0_1_n_n none l r (constant (F := Ideal) S64x128 .f32 0x00000000#32) (ix2 p q)
      = ∑ k : Fin 640, l (ix2 p k) * r (ix2 k q) := by
  simp only [matmul]
  rw [Ideal.matmul_constant_zero_apply, ← Equiv.sum_comp (contrEquiv1 dot_S64x640_S640x128_S64x128_1_0_0_1_n_n 640 rfl rfl).symm]
  refine Finset.sum_congr rfl fun k _ => ?_
  have hk := contrEquiv1_symm_val dot_S64x640_S640x128_S64x128_1_0_0_1_n_n 640 rfl rfl k
  have el : dot_S64x640_S640x128_S64x128_1_0_0_1_n_n.lhsIdx (ix2 p q) ((contrEquiv1 dot_S64x640_S640x128_S64x128_1_0_0_1_n_n 640 rfl rfl).symm k) = ix2 p k := funext fun a => Fin.ext (by
    match a with
    | ⟨0, _⟩ => exact lhs_ax0 _ _
    | ⟨1, _⟩ => exact (lhs_ax1 _ _).trans hk)
  have er : dot_S64x640_S640x128_S64x128_1_0_0_1_n_n.rhsIdx (ix2 p q) ((contrEquiv1 dot_S64x640_S640x128_S64x128_1_0_0_1_n_n 640 rfl rfl).symm k) = ix2 k q := funext fun a => Fin.ext (by
    match a with
    | ⟨0, _⟩ => exact (rhs_ax0 _ _).trans hk
    | ⟨1, _⟩ => exact rhs_ax1 _ _)
  rw [el, er]

/-! ## The stored value in stages -/

/-- The dense layer's clipped output, as the kernel forms it. -/
private def actK (v0 : Vec Ideal S64x640 .f32) (v2 : Vec Ideal S640x128 .f32) (v3 : Vec Ideal S128 .f32) :
    FVec Ideal S64x128 .f32 :=
  maximumf
    (addf
      (matmul dot_S64x640_S640x128_S64x128_1_0_0_1_n_n none
        (truncf .bf16 (shapeCast S64x640 v0 shapeCasts_S64x640_S64x640) bitsLt_bf16_f32)
        (truncf .bf16 v2 bitsLt_bf16_f32) (constant S64x128 .f32 0x00000000#32))
      (broadcastTo S64x128 (shapeCast S1x128 v3 shapeCasts_S128_S1x128) broadcasts_S1x128_S64x128))
    (broadcast S64x128 (Scalar.ofBits .f32 0x00000000#32))

/-- The column of row means of an array a, as the kernel forms it. -/
private def muK (a : FVec Ideal S64x128 .f32) : FVec Ideal S64x1 .f32 :=
  divf (shapeCast S64x1 (multiReduction .add [1] S64 a 0x00000000#32 reduces_S64x128_S64 (.inl rfl) rfl) shapeCasts_S64_S64x1)
    (broadcast S64x1 (Scalar.ofBits .f32 0x43000000#32))

/-- The deviations from the row means. -/
private def devK (a : FVec Ideal S64x128 .f32) : FVec Ideal S64x128 .f32 :=
  subf a (broadcastTo S64x128 (muK a) broadcasts_S64x1_S64x128)

/-- The column of row means of the squared deviations. -/
private def varK (a : FVec Ideal S64x128 .f32) : FVec Ideal S64x1 .f32 :=
  divf (shapeCast S64x1 (multiReduction .add [1] S64 (mulf (devK a) (devK a)) 0x00000000#32 reduces_S64x128_S64 (.inl rfl) rfl) shapeCasts_S64_S64x1)
    (broadcast S64x1 (Scalar.ofBits .f32 0x43000000#32))

/-- The normalised, scaled and shifted array. -/
private def lnK (a : FVec Ideal S64x128 .f32) (v4 v5 : Vec Ideal S128 .f32) : FVec Ideal S64x128 .f32 :=
  addf
    (mulf
      (mulf (devK a)
        (broadcastTo S64x128 (rsqrt (addf (varK a) (broadcast S64x1 (Scalar.ofBits .f32 0x3A83126F#32)))) broadcasts_S64x1_S64x128))
      (broadcastTo S64x128 (shapeCast S1x128 v4 shapeCasts_S128_S1x128) broadcasts_S1x128_S64x128))
    (broadcastTo S64x128 (shapeCast S1x128 v5 shapeCasts_S128_S1x128) broadcasts_S1x128_S64x128)

/-- The kernel's stored value is these stages composed. -/
private theorem pay1_eq (v0 : Vec Ideal S64x640 .f32) (v2 : Vec Ideal S640x128 .f32) (v3 v4 v5 : Vec Ideal S128 .f32) :
    k1_pay1 (F := Ideal) v0 v2 v3 v4 v5 = lnK (actK v0 v2 v3) v4 v5 := rfl

/-! ## Each stage at an index -/

/-- The kernel's activations are the specification's. -/
private theorem actK_apply (v0 : Vec Ideal S64x640 .f32) (v2 : Vec Ideal S640x128 .f32) (v3 : Vec Ideal S128 .f32)
    (p : Fin 64) (q : Fin 128) :
    actK v0 v2 v3 (ix2 p q) = Cert.Spec.act (fun p k => v0 (ix2 p k)) v2 v3 p q := by
  unfold actK Cert.Spec.act
  rw [maximumf_apply, addf_apply, mm_apply, row_apply, broadcast_apply, shapeCast_self]
  show max ((∑ k : Fin 640, v0 (ix2 p k) * v2 (ix2 k q)) + v3 (ix1 q)) (Ideal.ofBits .f32 0x00000000#32) = _
  rw [Ideal.ofBits_zero_f32]

/-- The kernel's column of row means, at (p, u), is the specification's row mean of row p. -/
private theorem muK_apply (a : FVec Ideal S64x128 .f32) (p : Fin 64) (u : Fin 1) :
    muK a (ix2 p u) = Cert.Spec.mu (fun p q => a (ix2 p q)) p := by
  unfold muK Cert.Spec.mu
  rw [divf_apply, col_cast_apply, rowsum_apply, broadcast_apply]
  rfl

/-- The deviations at (p, q). -/
private theorem devK_apply (a : FVec Ideal S64x128 .f32) (p : Fin 64) (q : Fin 128) :
    devK a (ix2 p q) = a (ix2 p q) - Cert.Spec.mu (fun p q => a (ix2 p q)) p := by
  unfold devK
  rw [subf_apply, col_bcast_apply, muK_apply]

/-- The kernel's column of mean squared deviations, at (p, u), is the specification's of row p. -/
private theorem varK_apply (a : FVec Ideal S64x128 .f32) (p : Fin 64) (u : Fin 1) :
    varK a (ix2 p u) = Cert.Spec.var (fun p q => a (ix2 p q)) p := by
  unfold varK Cert.Spec.var
  rw [divf_apply, col_cast_apply, rowsum_apply, broadcast_apply]
  refine congrArg (fun s => Ideal.div s _) (Finset.sum_congr rfl fun q _ => ?_)
  rw [mulf_apply, devK_apply]

/-- The normalised array at (p, q) is the specification's normalisation of the same activations. -/
private theorem lnK_apply (a : FVec Ideal S64x128 .f32) (v4 v5 : Vec Ideal S128 .f32) (p : Fin 64) (q : Fin 128) :
    lnK a v4 v5 (ix2 p q) = Cert.Spec.ln (fun p q => a (ix2 p q)) v4 v5 p q := by
  unfold lnK Cert.Spec.ln
  rw [addf_apply, mulf_apply, mulf_apply, devK_apply, col_bcast_apply, row_apply, row_apply]
  show (a (ix2 p q) - Cert.Spec.mu (fun p q => a (ix2 p q)) p)
      * Ideal.rsqrt (varK a (ix2 p (0 : Fin 1)) + Ideal.ofBits .f32 0x3A83126F#32) * v4 (ix1 q) + v5 (ix1 q) = _
  rw [varK_apply]

/-! ## The stored value at an index -/

theorem pay1_apply (v0 : Vec Ideal S64x640 .f32) (v2 : Vec Ideal S640x128 .f32) (v3 v4 v5 : Vec Ideal S128 .f32)
    (p : Fin 64) (q : Fin 128) :
    k1_pay1 (F := Ideal) v0 v2 v3 v4 v5 (ix2 p q)
      = Cert.Spec.head (fun p k => v0 (ix2 p k)) v2 v3 v4 v5 p q := by
  rw [pay1_eq, lnK_apply]
  unfold Cert.Spec.head
  have e : (fun p q => actK v0 v2 v3 (ix2 p q)) = Cert.Spec.act (fun p k => v0 (ix2 p k)) v2 v3 :=
    funext fun p => funext fun q => actK_apply v0 v2 v3 p q
  rw [e]

end Cert.Hand.KPay1

end
-- ==== Proof.KValue1.lean ====
/-
  What the whole program leaves in its result array, from what the first region left. The first region's
  result e : [64, 5, 128] is laid flat on the host as x[p, k] = e[p, k / 128, k % 128]; the second region has
  one grid point and every window's block is its whole array, so its output array ends at the body's one stored
  value of the five input arrays, which at (p, q) is the dense layer and the row normalisation of the
  specification; the last host step copies entry (p, q) to (p, 0, q).
-/
import proofs.«424035_j13434657702538_1_alg».proof.Proof.RunDefs
import proofs.«424035_j13434657702538_1_alg».proof.Proof.KPay1
import proofs.«424035_j13434657702538_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts
open Idealize.ShloMosaic.ValueIdx

variable [Cert.KernelIdeal.Facts]
variable {F : FTy → Type} [FloatOps F] [Named F]

local notation "𝕄" => MT nD τ sig Unit (Elt F) ℕ (UR sig nD τ) ℕ

/-! ## The second region's output array -/

section Region
variable (V : (c : Dev nD) → (b : Ref sig .tc) → Buf (Elt F) ((c : Thread nD τ).loc b))

private theorem hz2 : (![0, 0] : Fin 2 → Nat) = fun _ => 0 := funext fun a => by fin_cases a <;> rfl
private theorem hz1 : (![0] : Fin 1 → Nat) = fun _ => 0 := funext fun a => by fin_cases a <;> rfl

/-- One stored value over the whole buffer, of whole loaded buffers, is the body's arithmetic of the buffers. -/
private theorem out1_5_eq (x0 : Vec F S64x640 .f32) (x1 : Vec F S640x128 .f32) (x2 x3 x4 : Vec F S128 .f32) :
    out1_5 x0 x1 x2 x3 x4 = k1_pay1 x0 x1 x2 x3 x4 := by
  unfold out1_5
  rw [View.canon_unit_zero hz2]
  simp only [View.ld_unit_zero (S := S64x640) hz2, View.ld_unit_zero (S := S640x128) hz2, View.ld_unit_zero (S := S128) hz1]

/-- Every window's block index at the one grid point is zero on every axis. -/
private theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 1) = 0 ∧ win1_3.index t (0 : Fin 1) = 0 ∧ win1_4.index t (0 : Fin 1) = 0
    ∧ win1_5.index t (0 : Fin 2) = 0 ∧ win1_5.index t (1 : Fin 2) = 0 :=
  (by decide +kernel : ∀ t : Fin grid1.N, _)

private theorem iblk1_0_eq (c : Dev nD) (t : Fin cfg1.N) : iblk1 V c 0 t = (V c main_v1 : Vec F S64x640 .f32) := by
  obtain ⟨e0, e1, -⟩ := idx_facts1 t
  refine funext fun (y : S64x640.Idx) => ?_
  show V c main_v1 (((cfg1.win 0).blk t).view.emb y) = V c main_v1 y
  refine congrArg _ (funext fun a => Fin.ext ?_)
  match a with
  | ⟨0, _⟩ => show win1_0.index t (0 : Fin 2) * 64 + 1 * (y 0).val = (y 0).val; omega
  | ⟨1, _⟩ => show win1_0.index t (1 : Fin 2) * 640 + 1 * (y 1).val = (y 1).val; omega

private theorem iblk1_1_eq (c : Dev nD) (t : Fin cfg1.N) : iblk1 V c 1 t = (V c main_arg2 : Vec F S640x128 .f32) := by
  obtain ⟨-, -, e0, e1, -⟩ := idx_facts1 t
  refine funext fun (y : S640x128.Idx) => ?_
  show V c main_arg2 (((cfg1.win 1).blk t).view.emb y) = V c main_arg2 y
  refine congrArg _ (funext fun a => Fin.ext ?_)
  match a with
  | ⟨0, _⟩ => show win1_1.index t (0 : Fin 2) * 640 + 1 * (y 0).val = (y 0).val; omega
  | ⟨1, _⟩ => show win1_1.index t (1 : Fin 2) * 128 + 1 * (y 1).val = (y 1).val; omega

private theorem iblk1_2_eq (c : Dev nD) (t : Fin cfg1.N) : iblk1 V c 2 t = (V c main_arg3 : Vec F S128 .f32) := by
  obtain ⟨-, -, -, -, e0, -⟩ := idx_facts1 t
  refine funext fun (y : S128.Idx) => ?_
  show V c main_arg3 (((cfg1.win 2).blk t).view.emb y) = V c main_arg3 y
  refine congrArg _ (funext fun a => Fin.ext ?_)
  match a with
  | ⟨0, _⟩ => show win1_2.index t (0 : Fin 1) * 128 + 1 * (y 0).val = (y 0).val; omega

private theorem iblk1_3_eq (c : Dev nD) (t : Fin cfg1.N) : iblk1 V c 3 t = (V c main_arg4 : Vec F S128 .f32) := by
  obtain ⟨-, -, -, -, -, e0, -⟩ := idx_facts1 t
  refine funext fun (y : S128.Idx) => ?_
  show V c main_arg4 (((cfg1.win 3).blk t).view.emb y) = V c main_arg4 y
  refine congrArg _ (funext fun a => Fin.ext ?_)
  match a with
  | ⟨0, _⟩ => show win1_3.index t (0 : Fin 1) * 128 + 1 * (y 0).val = (y 0).val; omega

private theorem iblk1_4_eq (c : Dev nD) (t : Fin cfg1.N) : iblk1 V c 4 t = (V c main_arg5 : Vec F S128 .f32) := by
  obtain ⟨-, -, -, -, -, -, e0, -⟩ := idx_facts1 t
  refine funext fun (y : S128.Idx) => ?_
  show V c main_arg5 (((cfg1.win 4).blk t).view.emb y) = V c main_arg5 y
  refine congrArg _ (funext fun a => Fin.ext ?_)
  match a with
  | ⟨0, _⟩ => show win1_4.index t (0 : Fin 1) * 128 + 1 * (y 0).val = (y 0).val; omega

/-- The output array the region leaves, as one function of the five arrays it finds. -/
private abbrev G1 (c : Dev nD) : Vec F S64x128 .f32 :=
  k1_pay1 (V c main_v1) (V c main_arg2) (V c main_arg3) (V c main_arg4) (V c main_arg5)

/-- What the one point writes back is the whole of that function. -/
private theorem flushed1_5_eq (c : Dev nD) (t : Fin cfg1.N) :
    (dat1 V c).flushed 5 t = ((cfg1.win 5).blk t).view.read (Elt F) (G1 V c) := by
  show (cfg1.win 5).cut (grid1.coords t) ((dat1 V c).after 5 t) = _
  rw [after1_5, iblk1_0_eq, iblk1_1_eq, iblk1_2_eq, iblk1_3_eq, iblk1_4_eq, out1_5_eq]
  obtain ⟨-, -, -, -, -, -, -, e0, e1⟩ := idx_facts1 t
  refine funext fun (y : S64x128.Idx) => ?_
  show G1 V c y = G1 V c (((cfg1.win 5).blk t).view.emb y)
  refine congrArg _ (funext fun a => Fin.ext ?_)
  match a with
  | ⟨0, _⟩ => show (y 0).val = win1_5.index t (0 : Fin 2) * 64 + 1 * (y 0).val; omega
  | ⟨1, _⟩ => show (y 1).val = win1_5.index t (1 : Fin 2) * 128 + 1 * (y 1).val; omega

/-- An index of the output array is in the point's block iff each coordinate is in the block's range. -/
private theorem mem_blk1_5 (t : Fin cfg1.N) (i : S64x128.Idx) :
    i ∈ ((cfg1.win 5).blk t).view.set ↔ ∀ a : Fin 2, win1_5.index t a * S64x128.size a ≤ (i a).val ∧ (i a).val < win1_5.index t a * S64x128.size a + S64x128.size a := by
  show i ∈ ((View.whole main_v2).slice (win1_5.rect t)).set ↔ _
  rw [View.set_slice_whole, Rect.mem_set_unit]
  exact Iff.rfl

/-- Every index of the output array is in the one point's block. -/
private theorem covered1_5 (i : S64x128.Idx) :
    ∃ t : Fin cfg1.N, (cfg1.win 5).flush t = true ∧ i ∈ ((cfg1.win 5).blk t).view.set := by
  obtain ⟨-, -, -, -, -, -, -, e0, e1⟩ := idx_facts1 t1_0
  refine ⟨t1_0, flush1_5 t1_0, ?_⟩
  rw [mem_blk1_5]
  intro a
  match a with
  | ⟨0, _⟩ => show win1_5.index t1_0 (0 : Fin 2) * 64 ≤ (i 0).val ∧ (i 0).val < win1_5.index t1_0 (0 : Fin 2) * 64 + 64; have h0 : (i 0).val < 64 := (i 0).isLt; omega
  | ⟨1, _⟩ => show win1_5.index t1_0 (1 : Fin 2) * 128 ≤ (i 1).val ∧ (i 1).val < win1_5.index t1_0 (1 : Fin 2) * 128 + 128; have h1 : (i 1).val < 128 := (i 1).isLt; omega

/-- The output array after the region. -/
private theorem arr1_5 (c : Dev nD) : (dat1 V c).arrAt 5 cfg1.N = G1 V c :=
  (dat1 V c).arrAt_eq_of_cover 5 _ (fun t _ => flushed1_5_eq V c t) (fun i => covered1_5 i)

end Region

/-! ## The host steps, and the whole -/

section Host
variable (m : (ℓ : Loc nD τ sig) → Buf (Elt Ideal) ℓ) (ρ : Dev nD → PrngReg)

/-- After the last host step the result array is the second region's output array with a unit axis put in. -/
private theorem W5_v3 (c : Dev nD) :
    W5 (F := Ideal) m ρ c (Proc.devRef .tc main_v3)
      = broadcastInDim S64x1x128 ![0, 2] Facts₀.bcast_S64x128_S64x1x128_0_2 (W4 (F := Ideal) m ρ c (Proc.devRef .tc main_v2)) := by
  show StableHlo.after hostOps2 _ (Proc.devRef .tc main_v3) = _
  after_results

/-- A [64, 128] array with a unit axis put in the middle reads, at (p, u, q), its entry (p, q). -/
private theorem mid_unit_apply (x : S64x128.Idx → EReal) (h : S64x128.BroadcastsInDim S64x1x128 (![0, 2] : Fin 2 → Fin S64x1x128.rank))
    (p : Fin 64) (u : Fin 1) (q : Fin 128) :
    broadcastInDim S64x1x128 ![0, 2] h x (ix3 p u q) = x (ix2 p q) := by
  refine broadcastInDim_apply ![0, 2] h x (ix3 p u q) (ix2 p q) fun a => ?_
  match a with
  | ⟨0, _⟩ => rfl
  | ⟨1, _⟩ => rfl

/-- The second region's output array, from the arrays the region finds. -/
private theorem W4_v2 (c : Dev nD) : W4 (F := Ideal) m ρ c (Proc.devRef .tc main_v2) = G1 (V3 m ρ) c :=
  (W4_arr m ρ c 5).trans (arr1_5 (V3 m ρ) c)

/-- The flat array the second region finds is the first region's result, reshaped. -/
private theorem V3_v1 (c : Dev nD) :
    V3 (F := Ideal) m ρ c main_v1
      = shapeCast S64x640 (W2 (F := Ideal) m ρ c (Proc.devRef .tc main_v0)) Facts₀.shapeCasts_S64x5x128_S64x640 := by
  show StableHlo.after hostOps1 _ (Proc.devRef .tc main_v1) = _
  after_results
  rfl

/-- A [64, 5, 128] array laid flat as [64, 640] reads, at (p, k), its entry (p, k / 128, k % 128). -/
private theorem flat_apply (e : S64x5x128.Idx → EReal) (h : S64x5x128.ShapeCasts S64x640) (p : Fin 64) (k : Fin 640) :
    shapeCast S64x640 e h (ix2 p k)
      = e (ix3 p ⟨k.val / 128, by have := k.isLt; omega⟩ ⟨k.val % 128, Nat.mod_lt _ (by decide)⟩) :=
  shapeCast_apply e h _ _ (by
    rw [Shape.rowMajor_val_three, Shape.rowMajor_val_two]
    show (p.val * 5 + k.val / 128) * 128 + k.val % 128 = p.val * 640 + k.val
    omega)

private theorem V3_arg2 (c : Dev nD) : V3 (F := Ideal) m ρ c main_arg2 = m ((c : Thread nD τ).loc main_arg2) := by
  show StableHlo.after hostOps1 _ (Proc.devRef .tc main_arg2) = _
  after_results
  exact W2_of_ne m ρ c main_arg2 (by decide)
private theorem V3_arg3 (c : Dev nD) : V3 (F := Ideal) m ρ c main_arg3 = m ((c : Thread nD τ).loc main_arg3) := by
  show StableHlo.after hostOps1 _ (Proc.devRef .tc main_arg3) = _
  after_results
  exact W2_of_ne m ρ c main_arg3 (by decide)
private theorem V3_arg4 (c : Dev nD) : V3 (F := Ideal) m ρ c main_arg4 = m ((c : Thread nD τ).loc main_arg4) := by
  show StableHlo.after hostOps1 _ (Proc.devRef .tc main_arg4) = _
  after_results
  exact W2_of_ne m ρ c main_arg4 (by decide)
private theorem V3_arg5 (c : Dev nD) : V3 (F := Ideal) m ρ c main_arg5 = m ((c : Thread nD τ).loc main_arg5) := by
  show StableHlo.after hostOps1 _ (Proc.devRef .tc main_arg5) = _
  after_results
  exact W2_of_ne m ρ c main_arg5 (by decide)

theorem W5_main_v3 (c : Dev nD) (e : S64x5x128.Idx → EReal)
    (he : W2 (F := Ideal) m ρ c (Proc.devRef .tc main_v0) = e) (j : S64x1x128.Idx) :
    W5 (F := Ideal) m ρ c (Proc.devRef .tc main_v3) j
      = Cert.Spec.head (fun p k => e (ix3 p ⟨k.val / 128, by have := k.isLt; omega⟩ ⟨k.val % 128, Nat.mod_lt _ (by decide)⟩))
          (m ((c : Thread nD τ).loc main_arg2)) (m ((c : Thread nD τ).loc main_arg3)) (m ((c : Thread nD τ).loc main_arg4))
          (m ((c : Thread nD τ).loc main_arg5)) (j 0) (j 2) := by
  obtain ⟨p, u, q, rfl⟩ : ∃ (p : Fin 64) (u : Fin 1) (q : Fin 128), j = ix3 p u q := ⟨j 0, j 1, j 2, eq_ix3 j⟩
  show _ = Cert.Spec.head (fun p k => e (ix3 p ⟨k.val / 128, by have := k.isLt; omega⟩ ⟨k.val % 128, Nat.mod_lt _ (by decide)⟩))
          (m ((c : Thread nD τ).loc main_arg2)) (m ((c : Thread nD τ).loc main_arg3)) (m ((c : Thread nD τ).loc main_arg4))
          (m ((c : Thread nD τ).loc main_arg5)) p q
  rw [W5_v3, mid_unit_apply, W4_v2]
  show k1_pay1 (F := Ideal) (V3 m ρ c main_v1) (V3 m ρ c main_arg2) (V3 m ρ c main_arg3) (V3 m ρ c main_arg4) (V3 m ρ c main_arg5) (ix2 p q) = _
  rw [Cert.Hand.KPay1.pay1_apply, V3_v1, he, V3_arg2, V3_arg3, V3_arg4, V3_arg5]
  have hx : (fun (p : Fin 64) (k : Fin 640) => shapeCast S64x640 e Facts₀.shapeCasts_S64x5x128_S64x640 (ix2 p k))
      = fun p k => e (ix3 p ⟨k.val / 128, by have := k.isLt; omega⟩ ⟨k.val % 128, Nat.mod_lt _ (by decide)⟩) :=
    funext fun p => funext fun k => flat_apply e _ p k
  rw [hx]

end Host

end Cert.KernelIdeal.Hand

end
-- ==== Proof.RefEmb.lean ====
/-
  The reference's flat embedding, entry by entry.

  The reference builds, for batch p and slot f, a start index of two words: the batch number p and the start word
  idx[p, f], each wrapped by its axis length when negative. It gathers one table row per start index (each component
  read as a signed integer and clipped so that the row exists), clips the gathered rows below at zero, appends the
  mean over the 10000 rows (the sum divided by the f32 word of 10000), and lays the five rows of each batch side by
  side. When every start word is a row number the wrap and the clip change nothing, the row read is
  idx[p, f] itself, and entry k of the flat row p is the specification's: row k / 128, lane k % 128.
-/
import proofs.«424035_j13434657702538_1_alg».proof.Proof.Gen.ReferenceIdeal.Read
import proofs.«424035_j13434657702538_1_alg».proof.Proof.Spec
import Idealize.ShloMosaic.PureOps.Ideal.Laws
import Idealize.ShloMosaic.Lib.ValueIdx
import Idealize.ShloMosaic.Lib.Pipeline.Value

noncomputable section

open scoped BigOperators

namespace Cert.Hand.RefEmb

open Cert.ReferenceIdeal Cert.ReferenceIdeal.Gen Cert.ReferenceIdeal.Read Idealize.ShloMosaic Idealize.ShloMosaic.ValueIdx

/-! The reference's first half read at an index: the start words (batch number, row number) joined and gathered,
    the gathered rows clipped below at zero, the mean row, the five rows stacked and laid out flat. -/

private abbrev GD := gather_S64x10000x128_S64x4x2_S64x4x128_2_01_n_n_01_2_11128

/-- The gather at (p, f, d): the table at the two start components of (p, f), each read as a signed integer and
    clipped so that the one-row slice fits, and lane d of that row. -/
private theorem gather_apply {α : Type} (x : S64x10000x128.Idx → α) (iv : IVec S64x4x2 32) (p : Fin 64) (f : Fin 4) (d : Fin 128) :
    Host.gather GD x iv (ix3 p f d)
      = x (ix3 (⟨min (iv (ix3 p f (0 : Fin 2))).toInt.toNat 63, by omega⟩ : Fin 64)
            (⟨min (iv (ix3 p f (1 : Fin 2))).toInt.toNat 9999, by omega⟩ : Fin 10000) d) := by
  have h0 : GD.start (ix3 p f d) iv (0 : Fin 3) + GD.batchCoord (ix3 p f d) (0 : Fin 3) + GD.offCoord (ix3 p f d) (0 : Fin 3)
      = min (iv (ix3 p f (0 : Fin 2))).toInt.toNat 63 := by
    rw [GatherDims.batchCoord_eq_zero _ _ _ List.not_mem_nil, GatherDims.offCoord_eq_zero _ _ _ (by decide)]
    simp only [Nat.add_zero]
    unfold GatherDims.start
    rw [dif_pos (show (0 : Fin 3) ∈ GD.startIndexMap by decide)]
    have hsi : GD.siIdx (ix3 p f d) ⟨List.idxOf (0 : Fin 3) GD.startIndexMap,
        List.idxOf_lt_length_iff.2 (by decide)⟩ = ix3 p f (0 : Fin 2) := by
      funext b; refine Fin.ext ?_
      match b with
      | ⟨0, _⟩ => rfl
      | ⟨1, _⟩ => rfl
      | ⟨2, _⟩ => rfl
    rw [hsi]
    rfl
  have h1 : GD.start (ix3 p f d) iv (1 : Fin 3) + GD.batchCoord (ix3 p f d) (1 : Fin 3) + GD.offCoord (ix3 p f d) (1 : Fin 3)
      = min (iv (ix3 p f (1 : Fin 2))).toInt.toNat 9999 := by
    rw [GatherDims.batchCoord_eq_zero _ _ _ List.not_mem_nil, GatherDims.offCoord_eq_zero _ _ _ (by decide)]
    simp only [Nat.add_zero]
    unfold GatherDims.start
    rw [dif_pos (show (1 : Fin 3) ∈ GD.startIndexMap by decide)]
    have hsi : GD.siIdx (ix3 p f d) ⟨List.idxOf (1 : Fin 3) GD.startIndexMap,
        List.idxOf_lt_length_iff.2 (by decide)⟩ = ix3 p f (1 : Fin 2) := by
      funext b; refine Fin.ext ?_
      match b with
      | ⟨0, _⟩ => rfl
      | ⟨1, _⟩ => rfl
      | ⟨2, _⟩ => rfl
    rw [hsi]
    rfl
  have h2 : GD.start (ix3 p f d) iv (2 : Fin 3) + GD.batchCoord (ix3 p f d) (2 : Fin 3) + GD.offCoord (ix3 p f d) (2 : Fin 3)
      = d.val := by
    rw [GatherDims.batchCoord_eq_zero _ _ _ List.not_mem_nil]
    unfold GatherDims.start
    rw [dif_neg (show (2 : Fin 3) ∉ GD.startIndexMap by decide)]
    unfold GatherDims.offCoord
    rw [dif_pos (show (2 : Fin 3) ∈ GD.sKept by decide)]
    simp only [Nat.add_zero, Nat.zero_add]
    rfl
  unfold Host.gather
  congr 1
  funext a
  refine Fin.ext ?_
  match a with
  | ⟨0, _⟩ => exact h0
  | ⟨1, _⟩ => exact h1
  | ⟨2, _⟩ => exact h2

section AnyInstance
variable {F : FTy → Type} [FloatOps F]

/-- The two start words joined along the last axis: component 0 is the batch word. -/
private theorem v15_apply_zero (x1 : IVec S64x4 32) (p : Fin 64) (f : Fin 4) :
    val_main_v15 (F := F) x1 (ix3 p f (0 : Fin 2)) = val_main_v13 (F := F) (ix3 p f (0 : Fin 1)) := by
  unfold val_main_v15
  refine concatenate_pair_apply_left (t := S64x4x2) (s₁ := S64x4x1) (s₂ := S64x4x1) (2 : Fin 3) _ _ _
    (ix3 p f (0 : Fin 2)) rfl (ix3 p f (0 : Fin 1)) (fun b => ?_)
  match b with
  | ⟨0, _⟩ => rfl
  | ⟨1, _⟩ => rfl
  | ⟨2, _⟩ => rfl

/-- Component 1 is the row word. -/
private theorem v15_apply_one (x1 : IVec S64x4 32) (p : Fin 64) (f : Fin 4) :
    val_main_v15 (F := F) x1 (ix3 p f (1 : Fin 2)) = val_main_v14 (F := F) x1 (ix3 p f (0 : Fin 1)) := by
  unfold val_main_v15
  refine concatenate_pair_apply_right (t := S64x4x2) (s₁ := S64x4x1) (s₂ := S64x4x1) (2 : Fin 3) _ _ _
    (ix3 p f (1 : Fin 2)) rfl rfl (ix3 p f (0 : Fin 1)) (fun b hb => ?_) rfl
  match b with
  | ⟨0, _⟩ => rfl
  | ⟨1, _⟩ => rfl
  | ⟨2, _⟩ => exact absurd rfl hb

/-- A word that reads as a non-negative integer is not below zero, so the wrap keeps it. -/
private theorem wrap_id (w c : BitVec 32) (h : 0 ≤ w.toInt) :
    Scalar.select (IntOp.cmpi .slt w 0#32) (IntOp.addi w c) w = w := by
  have hs : w.slt 0#32 = false := by
    rw [BitVec.slt_eq_decide]
    simpa using h
  unfold Scalar.select IntOp.cmpi
  simp [hs]

/-- A batch number as a 32-bit word reads as itself, and clipping it into 0..63 changes nothing. -/
private theorem batch_word : ∀ p : Fin 64,
    0 ≤ (BitVec.ofNat 32 p.val).toInt ∧ min (BitVec.ofNat 32 p.val).toInt.toNat 63 = p.val := by
  decide

/-- The batch word of (p, f) is the batch number p. -/
private theorem v13_word (p : Fin 64) (f : Fin 4) :
    val_main_v13 (F := F) (ix3 p f (0 : Fin 1)) = BitVec.ofNat 32 p.val := by
  rw [val_main_v13_apply, val_main_v12_apply, val_main_v6_apply, val_main_v3_apply, val_main_v2_apply, val_main_c_apply,
    val_main_v1_apply, val_main_v0_apply]
  exact wrap_id _ _ (batch_word p).1

/-- The row word of (p, f) is the start word itself when it is a row number. -/
private theorem v14_word (x1 : IVec S64x4 32) (h : Cert.Spec.InRange x1) (p : Fin 64) (f : Fin 4) :
    val_main_v14 (F := F) x1 (ix3 p f (0 : Fin 1)) = x1 (ix2 p f) := by
  rw [val_main_v14_apply, val_main_v11_apply, val_main_v8_apply, val_main_v7_apply, val_main_c_1_apply]
  have e : idx_main_v14 (ix3 p f (0 : Fin 1)) = ix2 p f := by
    funext a; match a with | ⟨0, _⟩ => rfl | ⟨1, _⟩ => rfl
  rw [e]
  exact wrap_id _ _ (h p f).1

/-- The gathered row (p, f), lane d: the table's row number idx[p, f] of batch p. -/
private theorem v16_apply (x0 : FVec F S64x10000x128 .f32) (x1 : IVec S64x4 32) (h : Cert.Spec.InRange x1)
    (p : Fin 64) (f : Fin 4) (d : Fin 128) :
    val_main_v16 (F := F) x0 x1 (ix3 p f d) = x0 (ix3 p (Cert.Spec.rowOf (x1 (ix2 p f))) d) := by
  unfold val_main_v16
  refine (gather_apply x0 (val_main_v15 (F := F) x1) p f d).trans (congrArg x0 (funext fun a => Fin.ext ?_))
  match a with
  | ⟨0, _⟩ =>
    show min (val_main_v15 (F := F) x1 (ix3 p f (0 : Fin 2))).toInt.toNat 63 = p.val
    rw [v15_apply_zero, v13_word]
    exact (batch_word p).2
  | ⟨1, _⟩ =>
    show min (val_main_v15 (F := F) x1 (ix3 p f (1 : Fin 2))).toInt.toNat 9999 = (Cert.Spec.rowOf (x1 (ix2 p f))).val
    rw [v15_apply_one, v14_word x1 h]
    rfl
  | ⟨2, _⟩ => rfl

/-- The five stacked rows: a row below 4 is a clipped gathered row. -/
private theorem v23_apply_lt (x0 : FVec F S64x10000x128 .f32) (x1 : IVec S64x4 32) (p : Fin 64) (r : Fin 4) (d : Fin 128) :
    val_main_v23 (F := F) x0 x1 (ix3 p (⟨r.val, by omega⟩ : Fin 5) d) = val_main_v18 (F := F) x0 x1 (ix3 p r d) := by
  unfold val_main_v23
  refine concatenate_pair_apply_left (t := S64x5x128) (s₁ := S64x4x128) (s₂ := S64x1x128) (1 : Fin 3) _ _ _
    (ix3 p (⟨r.val, by omega⟩ : Fin 5) d) rfl (ix3 p r d) (fun b => ?_)
  match b with
  | ⟨0, _⟩ => rfl
  | ⟨1, _⟩ => rfl
  | ⟨2, _⟩ => rfl

/-- Row 4 is the mean row. -/
private theorem v23_apply_four (x0 : FVec F S64x10000x128 .f32) (x1 : IVec S64x4 32) (p : Fin 64) (d : Fin 128) :
    val_main_v23 (F := F) x0 x1 (ix3 p (4 : Fin 5) d) = val_main_v22 (F := F) x0 (ix3 p (0 : Fin 1) d) := by
  unfold val_main_v23
  refine concatenate_pair_apply_right (t := S64x5x128) (s₁ := S64x4x128) (s₂ := S64x1x128) (1 : Fin 3) _ _ _
    (ix3 p (4 : Fin 5) d) rfl rfl (ix3 p (0 : Fin 1) d) (fun b hb => ?_) rfl
  match b with
  | ⟨0, _⟩ => rfl
  | ⟨1, _⟩ => exact absurd rfl hb
  | ⟨2, _⟩ => rfl

end AnyInstance

/-- The f32 word of the divisor denotes 10000. -/
private theorem ofBits_10000 : Ideal.ofBits .f32 0x461C4000#32 = ((10000 : ℝ) : EReal) := by
  simp [Ideal.ofBits, Ideal.ieee, -EReal.coe_mul]; norm_num

/-- A gathered row clipped below at zero, over the extended reals. -/
private theorem v18_apply (x0 : FVec Ideal S64x10000x128 .f32) (x1 : IVec S64x4 32) (h : Cert.Spec.InRange x1)
    (p : Fin 64) (f : Fin 4) (d : Fin 128) :
    val_main_v18 (F := Ideal) x0 x1 (ix3 p f d) = Cert.Spec.gat x0 x1 p f d := by
  rw [val_main_v18_apply, val_main_v17_apply, val_main_cst_apply, v16_apply x0 x1 h]
  simp only [Ideal.maximumf_def, Ideal.ofBits_def, Ideal.ofBits_zero_f32]
  rfl

/-- The mean row, over the extended reals: the sum over the 10000 rows times the reciprocal of 10000. -/
private theorem v22_apply (x0 : FVec Ideal S64x10000x128 .f32) (p : Fin 64) (d : Fin 128) :
    val_main_v22 (F := Ideal) x0 (ix3 p (0 : Fin 1) d) = Cert.Spec.mean x0 p d := by
  rw [val_main_v22_apply, val_main_v21_apply, val_main_cst_4_apply, val_main_v20_apply, val_main_v19_apply,
    val_main_cst_3_apply]
  simp only [Ideal.hostDivf_def, Ideal.ofBits_def, Ideal.ofBits_zero_f32, zero_add]
  rw [ofBits_10000, Ideal.div_coe (by norm_num)]
  unfold Cert.Spec.mean
  refine congrArg (· * _) (Finset.sum_congr rfl fun n _ => congrArg x0 (funext fun a => ?_))
  match a with
  | ⟨0, _⟩ => rfl
  | ⟨1, _⟩ => rfl
  | ⟨2, _⟩ => rfl

/-- Entry k of the flat row p is row k / 128, lane k % 128 of the five stacked rows. -/
private theorem idx_v24 (p : Fin 64) (k : Fin 640) :
    idx_main_v24 (ix2 p k)
      = ix3 p (⟨k.val / 128, by have := k.isLt; omega⟩ : Fin 5) (⟨k.val % 128, Nat.mod_lt _ (by decide)⟩ : Fin 128) := by
  have hp := p.isLt
  have hk := k.isLt
  funext a
  refine Fin.ext ?_
  match a with
  | ⟨0, _⟩ => show (p.val * 640 + k.val) / 640 = p.val; omega
  | ⟨1, _⟩ => show (p.val * 640 + k.val) / 128 % 5 = k.val / 128; omega
  | ⟨2, _⟩ => show (p.val * 640 + k.val) % 128 = k.val % 128; omega

/-- THE FIRST HALF OF THE REFERENCE: its flat embedding is the specification's, entry by entry, when every start
    word is a row number. -/
theorem v24_apply (x0 : FVec Ideal S64x10000x128 .f32) (x1 : IVec S64x4 32) (h : Cert.Spec.InRange x1) (p : Fin 64) (k : Fin 640) :
    val_main_v24 (F := Ideal) x0 x1 (ix2 p k) = Cert.Spec.flat x0 x1 p k := by
  rw [val_main_v24_apply, idx_v24]
  unfold Cert.Spec.flat Cert.Spec.emb
  by_cases hr : k.val / 128 < 4
  · rw [dif_pos hr]
    exact (v23_apply_lt x0 x1 p ⟨k.val / 128, hr⟩ _).trans (v18_apply x0 x1 h p ⟨k.val / 128, hr⟩ _)
  · rw [dif_neg hr]
    have e : (⟨k.val / 128, by have := k.isLt; omega⟩ : Fin 5) = (4 : Fin 5) :=
      Fin.ext (by have := k.isLt; show k.val / 128 = 4; omega)
    rw [e]
    exact (v23_apply_four x0 x1 p _).trans (v22_apply x0 p _)

end Cert.Hand.RefEmb

end
-- ==== Proof.RefHead.lean ====
/-
  The reference's second half, read index by index over the extended reals.

  After the flat rows x[p, k] (640 entries per batch row) the reference computes a dense layer with bias, clips
  it below at zero, and normalises each row of 128 lanes: it subtracts the row mean, multiplies by the reciprocal
  square root of the mean squared deviation plus a small word, scales by γ and shifts by β. Each stage below is
  read at one index and identified with the corresponding function of the specification:
  the clipped dense layer is `act`, the row mean is `mu`, the mean squared deviation is `var`, the whole is `head`.
-/
import proofs.«424035_j13434657702538_1_alg».proof.Proof.Gen.ReferenceIdeal.Read
import proofs.«424035_j13434657702538_1_alg».proof.Proof.Spec
import Idealize.ShloMosaic.PureOps.Ideal.Laws
import Idealize.ShloMosaic.Lib.ValueIdx
import Idealize.ShloMosaic.Lib.Pipeline.Value

noncomputable section

open scoped BigOperators

namespace Cert.Hand.RefHead

open Cert.ReferenceIdeal Cert.ReferenceIdeal.Read Idealize.ShloMosaic Idealize.ShloMosaic.ValueIdx

/-- The flat rows the dense layer consumes, as a function of the batch row and the entry. -/
abbrev rows (x0 : FVec Ideal S64x10000x128 .f32) (x1 : IVec S64x4 32) : Fin 64 → Fin 640 → EReal :=
  fun p k => val_main_v24 (F := Ideal) x0 x1 (ix2 p k)

/-! ## The composed index maps are coordinate constructors -/

/-- The contraction reads the left operand at (p, k). -/
private theorem lidx_eq (p : Fin 64) (q : Fin 128) (k : Fin 640) :
    lidx_main_v25 (ix2 p q) k = ix2 p k :=
  funext fun a => by match a with | ⟨0, _⟩ => rfl | ⟨1, _⟩ => rfl

/-- The contraction reads the right operand at (k, q). -/
private theorem ridx_eq (p : Fin 64) (q : Fin 128) (k : Fin 640) :
    ridx_main_v25 (ix2 p q) k = ix2 k q :=
  funext fun a => by match a with | ⟨0, _⟩ => rfl | ⟨1, _⟩ => rfl

/-- A [128] vector broadcast to [1, 128] and then to [64, 128] is read at lane q. -/
private theorem vidx_eq (p : Fin 64) (q : Fin 128) :
    idx_main_v26 (idx_main_v27 (ix2 p q)) = ix1 q :=
  funext fun a => by match a with | ⟨0, _⟩ => rfl

/-- A row sum over the 128 lanes, broadcast to [64, 1], reads the summand at (p, k). -/
private theorem sidx_eq (p : Fin 64) (r : Fin 1) (k : Fin 128) :
    idx_main_v30 (idx_main_v31 (ix2 p r)) k = ix2 p k :=
  funext fun a => by match a with | ⟨0, _⟩ => rfl | ⟨1, _⟩ => rfl

/-- The second row sum reads its summand at (p, k) as well. -/
private theorem tidx_eq (p : Fin 64) (r : Fin 1) (k : Fin 128) :
    idx_main_v37 (idx_main_v38 (ix2 p r)) k = ix2 p k :=
  funext fun a => by match a with | ⟨0, _⟩ => rfl | ⟨1, _⟩ => rfl

/-- A [64, 1] column broadcast to [64, 128] is read at (p, 0). -/
private theorem cidx_eq (p : Fin 64) (q : Fin 128) :
    idx_main_v34 (ix2 p q) = ix2 p (0 : Fin 1) :=
  funext fun a => by match a with | ⟨0, _⟩ => rfl | ⟨1, _⟩ => rfl

/-- The last broadcast [64, 128] → [64, 1, 128] drops the middle coordinate. -/
private theorem oidx_eq (j : S64x1x128.Idx) :
    idx_main_v54 j = ix2 (j 0) (j 2) :=
  funext fun a => by match a with | ⟨0, _⟩ => rfl | ⟨1, _⟩ => rfl

/-! ## The stages -/

variable (x0 : FVec Ideal S64x10000x128 .f32) (x1 : IVec S64x4 32) (x2 : FVec Ideal S640x128 .f32)
  (x3 x4 x5 : FVec Ideal S128 .f32)

/-- The dense layer with bias, clipped below at zero, is `act` of the flat rows. -/
theorem v29_at (p : Fin 64) (q : Fin 128) :
    val_main_v29 (F := Ideal) x0 x1 x2 x3 (ix2 p q) = Cert.Spec.act (rows x0 x1) x2 x3 p q := by
  rw [val_main_v29_apply, val_main_v28_apply, val_main_v25_apply, val_main_v27_apply, val_main_v26_apply,
    val_main_call0_v0_apply, val_main_call0_cst_apply]
  simp only [Ideal.maximumf_def, Ideal.addf_def, Ideal.ofBits_def, Ideal.ofBits_zero_f32, lidx_eq, ridx_eq, vidx_eq]
  rfl

/-- The row sum divided by the word of 128 is the row mean `mu`. -/
theorem v33_at (p : Fin 64) (r : Fin 1) :
    val_main_v33 (F := Ideal) x0 x1 x2 x3 (ix2 p r) = Cert.Spec.mu (Cert.Spec.act (rows x0 x1) x2 x3) p := by
  rw [val_main_v33_apply, val_main_v31_apply, val_main_v30_apply, val_main_v32_apply, val_main_cst_6_apply,
    val_main_cst_5_apply]
  simp only [Ideal.hostDivf_def, Ideal.ofBits_def, Ideal.ofBits_zero_f32, zero_add, sidx_eq, v29_at]
  rfl

/-- The deviation from the row mean. -/
theorem v35_at (p : Fin 64) (q : Fin 128) :
    val_main_v35 (F := Ideal) x0 x1 x2 x3 (ix2 p q)
      = Cert.Spec.act (rows x0 x1) x2 x3 p q - Cert.Spec.mu (Cert.Spec.act (rows x0 x1) x2 x3) p := by
  rw [val_main_v35_apply, val_main_v34_apply, cidx_eq, v29_at, v33_at]
  rfl

/-- The row sum of squared deviations divided by the word of 128 is `var`. -/
theorem v40_at (p : Fin 64) (r : Fin 1) :
    val_main_v40 (F := Ideal) x0 x1 x2 x3 (ix2 p r) = Cert.Spec.var (Cert.Spec.act (rows x0 x1) x2 x3) p := by
  rw [val_main_v40_apply, val_main_v38_apply, val_main_v37_apply, val_main_v39_apply, val_main_cst_8_apply,
    val_main_cst_7_apply]
  simp only [val_main_v36_apply, Ideal.hostDivf_def, Ideal.mulf_def, Ideal.ofBits_def, Ideal.ofBits_zero_f32,
    zero_add, tidx_eq, v35_at]
  rfl

/-- The normalised, scaled and shifted activation is `ln` of the clipped dense layer. -/
theorem v53_at (p : Fin 64) (q : Fin 128) :
    val_main_v53 (F := Ideal) x0 x1 x2 x3 x4 x5 (ix2 p q)
      = Cert.Spec.ln (Cert.Spec.act (rows x0 x1) x2 x3) x4 x5 p q := by
  rw [val_main_v53_apply, val_main_v50_apply, val_main_v47_apply, val_main_v42_apply, val_main_v41_apply,
    val_main_v46_apply, val_main_v45_apply, val_main_v44_apply, val_main_v43_apply, val_main_cst_9_apply,
    val_main_v49_apply, val_main_v48_apply, val_main_v52_apply, val_main_v51_apply]
  have e41 : idx_main_v41 (ix2 p q) = ix2 p (0 : Fin 1) :=
    funext fun a => by match a with | ⟨0, _⟩ => rfl | ⟨1, _⟩ => rfl
  have e46 : idx_main_v46 (ix2 p q) = ix2 p (0 : Fin 1) :=
    funext fun a => by match a with | ⟨0, _⟩ => rfl | ⟨1, _⟩ => rfl
  have e49 : idx_main_v48 (idx_main_v49 (ix2 p q)) = ix1 q :=
    funext fun a => by match a with | ⟨0, _⟩ => rfl
  have e52 : idx_main_v51 (idx_main_v52 (ix2 p q)) = ix1 q :=
    funext fun a => by match a with | ⟨0, _⟩ => rfl
  rw [e41, e46, e49, e52, v29_at, v33_at, v40_at]
  simp only [Ideal.addf_def, Ideal.subf_def, Ideal.mulf_def, Ideal.hostUnary_rsqrt_def, Ideal.ofBits_def]
  rfl

/-- The reference's result at an index is the dense layer and normalisation `head` of its flat rows. -/
theorem v54_apply (x0 : FVec Ideal S64x10000x128 .f32) (x1 : IVec S64x4 32) (x2 : FVec Ideal S640x128 .f32)
    (x3 x4 x5 : FVec Ideal S128 .f32) (j : S64x1x128.Idx) :
    val_main_v54 (F := Ideal) x0 x1 x2 x3 x4 x5 j
      = Cert.Spec.head (fun p k => val_main_v24 (F := Ideal) x0 x1 (ix2 p k)) x2 x3 x4 x5 (j 0) (j 2) := by
  rw [val_main_v54_apply, oidx_eq]
  exact v53_at x0 x1 x2 x3 x4 x5 (j 0) (j 2)

end Cert.Hand.RefHead

end
-- ==== Proof.RefValue.lean ====
/-
  The reference's result is the specification's function of its arguments.

  The first half of the reference builds the flat embedding rows (the selected table rows clipped below at zero and
  the mean row, laid side by side); the second half is the dense layer with bias, clipped, and the row-wise
  normalisation. Joined at the flat rows, the value the reference returns at an index j is G at j, provided every
  start word is a row number.
-/
import proofs.«424035_j13434657702538_1_alg».proof.Proof.RefEmb
import proofs.«424035_j13434657702538_1_alg».proof.Proof.RefHead

noncomputable section

open scoped BigOperators

namespace Cert.Hand.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The value level: the reference's stages from the arguments, read at an index, are G there. -/
theorem v54_eq_G (x0 : FVec Ideal S64x10000x128 .f32) (x1 : IVec S64x4 32) (x2 : FVec Ideal S640x128 .f32)
    (x3 x4 x5 : FVec Ideal S128 .f32) (h : Cert.Spec.InRange x1) :
    val_main_v54 (F := Ideal) x0 x1 x2 x3 x4 x5 = Cert.Spec.G x0 x1 x2 x3 x4 x5 := by
  funext j
  rw [Cert.Hand.RefHead.v54_apply]
  unfold Cert.Spec.G
  have e : (fun p k => val_main_v24 (F := Ideal) x0 x1 (ix2 p k)) = Cert.Spec.flat x0 x1 :=
    funext fun p => funext fun k => Cert.Hand.RefEmb.v24_apply x0 x1 h p k
  rw [e]

/-- THE REFERENCE'S RESULT: the term the run names is G of the six arguments when the start words are in range. -/
theorem ref_result (m : (ℓ : Loc Cert.ReferenceIdeal.nD Cert.ReferenceIdeal.τ Cert.ReferenceIdeal.sig) → Buf (Elt Ideal) ℓ) (c : Dev Cert.ReferenceIdeal.nD)
    (h : Cert.Spec.InRange (m ((c.tc : Thread Cert.ReferenceIdeal.nD Cert.ReferenceIdeal.τ).loc Cert.ReferenceIdeal.main_arg1))) :
    Cert.ReferenceIdeal.Value.res_main_v54 (F := Ideal) m c
      = Cert.Spec.G (m ((c.tc : Thread _ _).loc Cert.ReferenceIdeal.main_arg0)) (m ((c.tc : Thread _ _).loc Cert.ReferenceIdeal.main_arg1)) (m ((c.tc : Thread _ _).loc Cert.ReferenceIdeal.main_arg2)) (m ((c.tc : Thread _ _).loc Cert.ReferenceIdeal.main_arg3)) (m ((c.tc : Thread _ _).loc Cert.ReferenceIdeal.main_arg4)) (m ((c.tc : Thread _ _).loc Cert.ReferenceIdeal.main_arg5)) := by
  rw [Cert.ReferenceIdeal.Read.val_main_v54_eq]
  exact v54_eq_G _ _ _ _ _ _ h

end Cert.Hand.RefValue

end
-- ==== Proof.PreDecode.lean ====
/-
  The precondition read back: when the printed predicate of the six inputs is all ones, every start word of the
  [64, 4] index array, read as a signed integer, lies in 0 ≤ w < 10000.

  The predicate is a conjunction of six bits; its last bit is the conjunction, over all 64 · 4 positions, of the two
  signed comparisons 0 ≤ w and w < 10000. A conjunction that is one has every conjunct one, a conjunction over all
  positions that is one has a one at every position, and a signed comparison that is one orders the signed readings.
-/
import proofs.«424035_j13434657702538_1_alg».proof.Pre_finite_inputs
import proofs.«424035_j13434657702538_1_alg».proof.Proof.Gen.Pre_finite_inputs
import proofs.«424035_j13434657702538_1_alg».proof.Proof.Spec
import Idealize.ShloMosaic.Lib.ReduceAll
import Idealize.ShloMosaic.Lib.StableHlo.Predicate
import Idealize.ShloMosaic.Lib.ValueIdx

namespace Cert.Hand.PreDecode

open Idealize.ShloMosaic Idealize.ShloMosaic.ValueIdx

/-- The rank-0 shape has one index. -/
private instance subsingleton_scalarIdx : Subsingleton Cert.Pre_finite_inputs.S_.Idx :=
  ⟨fun _ _ => funext fun d => d.elim0⟩

/-- The signed readings of the two bounds. -/
private theorem toInt_zero32 : (0#32 : BitVec 32).toInt = 0 := by decide
private theorem toInt_tenThousand32 : (10000#32 : BitVec 32).toInt = 10000 := by decide

/-- The precondition gives the range of every start word. -/
theorem inRange_of_pre [Cert.Pre_finite_inputs.Facts] {F : FTy → Type} [FloatOps F]
    (a0 : FVec F Cert.Pre_finite_inputs.S64x10000x128 .f32) (a1 : IVec Cert.Pre_finite_inputs.S64x4 32)
    (a2 : FVec F Cert.Pre_finite_inputs.S640x128 .f32) (a3 a4 a5 : FVec F Cert.Pre_finite_inputs.S128 .f32)
    (h : Cert.Pre_finite_inputs.fn (F := F) a0 a1 a2 a3 a4 a5 = fun _ => 1#1) : Cert.Spec.InRange a1 := by
  -- the predicate at its one index
  have h0 := congrFun h ix0
  dsimp only [Cert.Pre_finite_inputs.fn, Cert.Pre_finite_inputs.fn_part1] at h0
  -- its last conjunct: the conjunction over all positions of the two comparisons
  have hall := (IntOp.andi_eq_one.1 h0).2
  intro p f
  -- at position (p, f) both comparisons are one
  have hpf := IntOp.andi_eq_one.1 (Host.reduce_andi_all _ _ _ _ _ hall (ix2 p f))
  have hge := IntOp.cmpi_sge.1 hpf.1
  have hlt := IntOp.cmpi_slt.1 hpf.2
  -- the bounds are the broadcast words 0 and 10000
  have e0 : ∀ i, broadcastInDim Cert.Pre_finite_inputs.S64x4 ![] Cert.Pre_finite_inputs.Facts.bcast_S_S64x4
      (constantI Cert.Pre_finite_inputs.S_ 32 0#32) i = 0#32 := fun _ => rfl
  have e1 : ∀ i, broadcastInDim Cert.Pre_finite_inputs.S64x4 ![] Cert.Pre_finite_inputs.Facts.bcast_S_S64x4
      (constantI Cert.Pre_finite_inputs.S_ 32 10000#32) i = 10000#32 := fun _ => rfl
  rw [e0, toInt_zero32] at hge
  rw [e1, toInt_tenThousand32] at hlt
  exact ⟨hge, hlt⟩

end Cert.Hand.PreDecode
-- ==== Proof.lean ====
/-
  The certificate's five claims, assembled.

  Both programs compute, index by index over the extended reals, ONE function G of the six arguments (Proof/Spec.lean):
  four table rows selected by the start words and clipped below at zero, the mean row, the five rows laid side by side,
  a dense layer clipped at zero, and the row normalisation. The kernel selects a row by a maximum over all rows of the
  row times the 0/1 mask "row number = start word": every other row contributes 0 and there is more than one row, so
  the maximum is max (selected row) 0 — when the start word is a row number, 0 ≤ w < 10000, which the precondition
  states. The kernel's mean is the sum times the named reciprocal 1/10000, the reference's the sum divided by 10000:
  one extended real. The rest is the same arithmetic spelt with the vector unit's operations on one side and the
  host's on the other.

  The frames: the program is two kernel regions among two host operations; each region's body is run once at a
  generic grid point (Proof/Frame0.lean, Proof/Frame1.lean), the launch threads every unscoped buffer's contents through
  the four segments (Proof/RunDefs.lean, Proof/Run.lean), and every argument reads back as launched (Proof/RunArgs.lean);
  the same text at the word-level instance gives the printed kernel's frame (the B-modules). The value of the kernel's
  result is read off that run (Proof/KValue0.lean, Proof/KValue1.lean over Proof/KPay0.lean, Proof/KPay1.lean), the
  reference's off its generated run (Proof/RefEmb.lean, Proof/RefHead.lean, Proof/RefValue.lean), and the range of
  the start words off the precondition (Proof/PreDecode.lean).
-/
import proofs.«424035_j13434657702538_1_alg».proof.Defs
import proofs.«424035_j13434657702538_1_alg».proof.Proof.Gen.Kernel
import proofs.«424035_j13434657702538_1_alg».proof.Proof.Gen.KernelIdeal
import proofs.«424035_j13434657702538_1_alg».proof.Proof.Gen.ReferenceIdeal
import proofs.«424035_j13434657702538_1_alg».proof.Proof.Gen.Pre_finite_inputs
import proofs.«424035_j13434657702538_1_alg».proof.Proof.Gen.ReferenceIdeal.Run
import proofs.«424035_j13434657702538_1_alg».proof.Proof.Gen.ReferenceIdeal.Read
import proofs.«424035_j13434657702538_1_alg».proof.Proof.Run
import proofs.«424035_j13434657702538_1_alg».proof.Proof.RunArgs
import proofs.«424035_j13434657702538_1_alg».proof.Proof.BRun
import proofs.«424035_j13434657702538_1_alg».proof.Proof.BRunArgs
import proofs.«424035_j13434657702538_1_alg».proof.Proof.KValue0
import proofs.«424035_j13434657702538_1_alg».proof.Proof.KValue1
import proofs.«424035_j13434657702538_1_alg».proof.Proof.RefValue
import proofs.«424035_j13434657702538_1_alg».proof.Proof.PreDecode
import Idealize.ShloMosaic.PureOps.IdealRules
import Idealize.ShloMosaic.Adequacy
import Idealize.ShloMosaic.Init

noncomputable section

namespace Cert.Proof

open Idealize.ShloMosaic Idealize.ShloMosaic.TcCoe Idealize.SL.Sem Idealize.ShloMosaic.ValueIdx

/-- The printed kernel runs and leaves its arguments as launched: the run over the four segments, each argument read
    back off the last boundary's contents. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W5_main_arg0 m ρ c),
      (h c _ (Cert.Kernel.Hand.mem_uc Cert.Kernel.main_arg1 (by decide))).trans (Cert.Kernel.Hand.W5_main_arg1 m ρ c),
      (h c _ (Cert.Kernel.Hand.mem_uc Cert.Kernel.main_arg2 (by decide))).trans (Cert.Kernel.Hand.W5_main_arg2 m ρ c),
      (h c _ (Cert.Kernel.Hand.mem_uc Cert.Kernel.main_arg3 (by decide))).trans (Cert.Kernel.Hand.W5_main_arg3 m ρ c),
      (h c _ (Cert.Kernel.Hand.mem_uc Cert.Kernel.main_arg4 (by decide))).trans (Cert.Kernel.Hand.W5_main_arg4 m ρ c),
      (h c _ (Cert.Kernel.Hand.mem_uc Cert.Kernel.main_arg5 (by decide))).trans (Cert.Kernel.Hand.W5_main_arg5 m ρ c)⟩)
    (Cert.Kernel.Hand.run_all (F := Bits) m ρ)

/-- The idealized kernel likewise. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W5_main_arg0 m ρ c),
      (h c _ (Cert.KernelIdeal.Hand.mem_uc Cert.KernelIdeal.main_arg1 (by decide))).trans (Cert.KernelIdeal.Hand.W5_main_arg1 m ρ c),
      (h c _ (Cert.KernelIdeal.Hand.mem_uc Cert.KernelIdeal.main_arg2 (by decide))).trans (Cert.KernelIdeal.Hand.W5_main_arg2 m ρ c),
      (h c _ (Cert.KernelIdeal.Hand.mem_uc Cert.KernelIdeal.main_arg3 (by decide))).trans (Cert.KernelIdeal.Hand.W5_main_arg3 m ρ c),
      (h c _ (Cert.KernelIdeal.Hand.mem_uc Cert.KernelIdeal.main_arg4 (by decide))).trans (Cert.KernelIdeal.Hand.W5_main_arg4 m ρ c),
      (h c _ (Cert.KernelIdeal.Hand.mem_uc Cert.KernelIdeal.main_arg5 (by decide))).trans (Cert.KernelIdeal.Hand.W5_main_arg5 m ρ c)⟩)
    (Cert.KernelIdeal.Hand.run_all (F := Ideal) m ρ)

/-- The reference is host operations only: its generated run, the result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- The one rewrite of the ideal pass: the kernel's reciprocal literal is named, and the name denotes 1/10000. -/
theorem preserves : Cert.preserves_Kernel_KernelIdeal :=
  IdealRules.named_const.statement Cert.KernelIdeal.κ "inv_10000" .f32 0x38D1B717#32 ((1 / 10000 : ℝ) : EReal) rfl

/-- Both idealized programs end with the result at G of the arguments. -/
theorem algebraic : Cert.algebraic_KernelIdeal_ReferenceIdeal := by
  intro m ρ m' ρ' hpre hagree
  -- the start words are row numbers, by the precondition
  have hin : ∀ c : Dev Cert.KernelIdeal.nD, Cert.Spec.InRange (m ((c.tc : Thread Cert.KernelIdeal.nD Cert.KernelIdeal.τ).loc Cert.KernelIdeal.main_arg1)) :=
    fun c => Cert.Hand.PreDecode.inRange_of_pre _ _ _ _ _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · -- the kernel: the result array read off the last boundary's contents
    refine (θ_run (Cert.KernelIdeal.defs (F := Ideal)) _ _).mono (fun r h c => ⟨?_,
      (h c _ (Cert.KernelIdeal.Hand.mem_uc Cert.KernelIdeal.main_arg0 (by decide))).trans (Cert.KernelIdeal.Hand.W5_main_arg0 m ρ c),
      (h c _ (Cert.KernelIdeal.Hand.mem_uc Cert.KernelIdeal.main_arg1 (by decide))).trans (Cert.KernelIdeal.Hand.W5_main_arg1 m ρ c),
      (h c _ (Cert.KernelIdeal.Hand.mem_uc Cert.KernelIdeal.main_arg2 (by decide))).trans (Cert.KernelIdeal.Hand.W5_main_arg2 m ρ c),
      (h c _ (Cert.KernelIdeal.Hand.mem_uc Cert.KernelIdeal.main_arg3 (by decide))).trans (Cert.KernelIdeal.Hand.W5_main_arg3 m ρ c),
      (h c _ (Cert.KernelIdeal.Hand.mem_uc Cert.KernelIdeal.main_arg4 (by decide))).trans (Cert.KernelIdeal.Hand.W5_main_arg4 m ρ c),
      (h c _ (Cert.KernelIdeal.Hand.mem_uc Cert.KernelIdeal.main_arg5 (by decide))).trans (Cert.KernelIdeal.Hand.W5_main_arg5 m ρ c)⟩)
      (Cert.KernelIdeal.Hand.run_all (F := Ideal) m ρ)
    refine (h c _ (Cert.KernelIdeal.Hand.mem_uc Cert.KernelIdeal.main_v3 (by decide))).trans ?_
    funext j
    exact Cert.KernelIdeal.Hand.W5_main_v3 m ρ c _ (funext fun j' => Cert.KernelIdeal.Hand.W2_main_v0 m ρ c (hin c) j') j
  · -- the reference: its generated run, its result term the same G of arguments that agree
    have hin' : ∀ c : Dev Cert.ReferenceIdeal.nD, Cert.Spec.InRange (m' ((c.tc : Thread Cert.ReferenceIdeal.nD Cert.ReferenceIdeal.τ).loc Cert.ReferenceIdeal.main_arg1)) :=
      fun c => by rw [(hagree c).2.1]; exact hin c
    refine (θ_run (Cert.ReferenceIdeal.defs (F := Ideal)) _ _).mono (fun r h c => ⟨(h c).1.trans ?_, (h c).2⟩)
      (Cert.ReferenceIdeal.Value.run (F := Ideal) m' ρ')
    rw [Cert.Hand.RefValue.ref_result m' c (hin' c), (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
